-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x2 : Shape := ⟨2, ![50000, 2]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg14 : FVec F S64 .f32) (main_arg15 : IVec S2x800000 32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_c_28 : IVec S_ 32 := constantI S_ 32 0#32
  let main_v74 : IVec S2x800000 32 := broadcastInDim S2x800000 ![] bcast_S_S2x800000 main_c_28
  let main_v75 : IVec S2x800000 1 := cmpi .sge main_arg15 main_v74
  let main_c_29 : IVec S_ 1 := constantI S_ 1 1#1
  let main_v76 : IVec S_ 1 := (fun x v => Host.reduce IntOp.andi x v reducesTo_S2x800000_S_d0_1 h_S_) main_v75 main_c_29
  let main_v77 : IVec S_ 1 := andi main_v73 main_v76
  let main_c_30 : IVec S_ 32 := constantI S_ 32 50000#32
  let main_v78 : IVec S2x800000 32 := broadcastInDim S2x800000 ![] bcast_S_S2x800000 main_c_30
  let main_v79 : IVec S2x800000 1 := cmpi .slt main_arg15 main_v78
  let main_c_31 : IVec S_ 1 := constantI S_ 1 1#1
  let main_v80 : IVec S_ 1 := (fun x v => Host.reduce IntOp.andi x v reducesTo_S2x800000_S_d0_1 h_S_) main_v79 main_c_31
  let main_v81 : IVec S_ 1 := andi main_v77 main_v80
  main_v81

def fn_part3 {F : FTy → Type} [FloatOps F] (main_arg11 : FVec F S128x64 .f32) (main_arg12 : FVec F S64 .f32) (main_arg13 : FVec F S64x64 .f32) (main_arg14 : FVec F S64 .f32) (main_arg15 : IVec S2x800000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_v63 main_v67

def fn_part2 {F : FTy → Type} [FloatOps F] (main_arg7 : FVec F S64x64 .f32) (main_arg8 : FVec F S64 .f32) (main_arg9 : FVec F S64x1 .f32) (main_arg10 : FVec F S1 .f32) (main_arg11 : FVec F S128x64 .f32) (main_arg12 : FVec F S64 .f32) (main_arg13 : FVec F S64x64 .f32) (main_arg14 : FVec F S64 .f32) (main_arg15 : IVec S2x800000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_arg15 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) (main_arg11 : FVec F S128x64 .f32) (main_arg12 : FVec F S64 .f32) (main_arg13 : FVec F S64x64 .f32) (main_arg14 : FVec F S64 .f32) (main_arg15 : IVec S2x800000 32) (main_v13 : IVec S_ 1) (main_v16 : IVec S129x64 1) : IVec S_ 1 :=
  let main_c_5 : IVec S_ 1 := constantI S_ 1 1#1
  let main_v17 : IVec S_ 1 := (fun x v => Host.reduce IntOp.andi x v reducesTo_S129x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x64 .f32) (main_arg1 : FVec F S50000x2 .f32) (main_arg2 : FVec F S50000x64 .f32) (main_arg3 : FVec F S129x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) (main_arg11 : FVec F S128x64 .f32) (main_arg12 : FVec F S64 .f32) (main_arg13 : FVec F S64x64 .f32) (main_arg14 : FVec F S64 .f32) (main_arg15 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x2 .f32 := Host.absf main_arg1
  let main_cst_0 : FVec F S_ .f32 := constant S_ .f32 0x7F800000#32
  let main_v5 : FVec F S50000x2 .f32 := broadcastInDim S50000x2 ![] bcast_S_S50000x2 main_cst_0
  let main_v6 : IVec S50000x2 1 := cmpf .olt main_v4 main_v5
  let main_c_1 : IVec S_ 1 := constantI S_ 1 1#1
  let main_v7 : IVec S_ 1 := (fun x v => Host.reduce IntOp.andi x v reducesTo_S50000x2_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S129x64 .f32 := Host.absf main_arg3
  let main_cst_4 : FVec F S_ .f32 := constant S_ .f32 0x7F800000#32
  let main_v15 : FVec F S129x64 .f32 := broadcastInDim S129x64 ![] bcast_S_S129x64 main_cst_4
  let main_v16 : IVec S129x64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S50000x2 : Shape := ⟨2, ![50000, 2]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S800000x2 : Shape := ⟨2, ![800000, 2]⟩
abbrev S3200x64 : Shape := ⟨2, ![3200, 64]⟩
abbrev S3200x1 : Shape := ⟨2, ![3200, 1]⟩
abbrev S3200x2 : Shape := ⟨2, ![3200, 2]⟩
abbrev S3200x129 : Shape := ⟨2, ![3200, 129]⟩
abbrev S1x64 : Shape := ⟨2, ![1, 64]⟩
abbrev S50000 : Shape := ⟨1, ![50000]⟩
abbrev S50000x1 : Shape := ⟨2, ![50000, 1]⟩
abbrev S2000x64 : Shape := ⟨2, ![2000, 64]⟩
abbrev S2000x2 : Shape := ⟨2, ![2000, 2]⟩
abbrev S2000x1 : Shape := ⟨2, ![2000, 1]⟩
abbrev S2000x128 : Shape := ⟨2, ![2000, 128]⟩

abbrev nBuf : Space → Nat
  | .hbm => 137
  | .vmem => 38
  | .smem => 0
  | _ => 0

abbrev hbmTy0_0 (i : Nat) : BufTy := match i % 128 with
  | 0 => ⟨S50000x64, .f32⟩
  | 1 => ⟨S50000x2, .f32⟩
  | 2 => ⟨S50000x64, .f32⟩
  | 3 => ⟨S129x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S128x64, .f32⟩
  | 12 => ⟨S64, .f32⟩
  | 13 => ⟨S64x64, .f32⟩
  | 14 => ⟨S64, .f32⟩
  | 15 => ⟨S2x800000, .i32⟩
  | 16 => ⟨S50000x64, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x64, .f32⟩
  | 40 => ⟨S800000x64, .i1⟩
  | 41 => ⟨S_, .f32⟩
  | 42 => ⟨S800000x64, .f32⟩
  | 43 => ⟨S800000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S1, .i32⟩
  | 53 => ⟨S_, .i32⟩
  | 54 => ⟨S800000x1, .i32⟩
  | 55 => ⟨S800000x1, .i1⟩
  | 56 => ⟨S1x1, .i32⟩
  | 57 => ⟨S800000x1, .i32⟩
  | 58 => ⟨S800000x1, .i1⟩
  | 59 => ⟨S800000x1, .i1⟩
  | 60 => ⟨S_, .i1⟩
  | 61 => ⟨S800000, .i1⟩
  | 62 => ⟨S800000x64, .f32⟩
  | 63 => ⟨S800000x64, .i1⟩
  | 64 => ⟨S_, .f32⟩
  | 65 => ⟨S800000x64, .f32⟩
  | 66 => ⟨S800000x64, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S1, .i32⟩
  | 76 => ⟨S_, .i32⟩
  | 77 => ⟨S800000x1, .i32⟩
  | 78 => ⟨S800000x1, .i1⟩
  | 79 => ⟨S1x1, .i32⟩
  | 80 => ⟨S800000x1, .i32⟩
  | 81 => ⟨S800000x1, .i1⟩
  | 82 => ⟨S800000x1, .i1⟩
  | 83 => ⟨S_, .i1⟩
  | 84 => ⟨S800000, .i1⟩
  | 85 => ⟨S800000x2, .f32⟩
  | 86 => ⟨S800000x2, .i1⟩
  | 87 => ⟨S_, .f32⟩
  | 88 => ⟨S800000x2, .f32⟩
  | 89 => ⟨S800000x2, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S1, .i32⟩
  | 99 => ⟨S_, .i32⟩
  | 100 => ⟨S800000x1, .i32⟩
  | 101 => ⟨S800000x1, .i1⟩
  | 102 => ⟨S1x1, .i32⟩
  | 103 => ⟨S800000x1, .i32⟩
  | 104 => ⟨S800000x1, .i1⟩
  | 105 => ⟨S800000x1, .i1⟩
  | 106 => ⟨S_, .i1⟩
  | 107 => ⟨S800000, .i1⟩
  | 108 => ⟨S800000x2, .f32⟩
  | 109 => ⟨S800000x2, .i1⟩
  | 110 => ⟨S_, .f32⟩
  | 111 => ⟨S800000x2, .f32⟩
  | 112 => ⟨S800000x2, .f32⟩
  | 113 => ⟨S800000x2, .f32⟩
  | 114 => ⟨S800000x2, .f32⟩
  | 115 => ⟨S_, .f32⟩
  | 116 => ⟨S800000, .f32⟩
  | 117 => ⟨S800000x1, .f32⟩
  | 118 => ⟨S800000x64, .f32⟩
  | 119 => ⟨S800000x2, .f32⟩
  | 120 => ⟨S_, .f32⟩
  | 121 => ⟨S50000x64, .f32⟩
  | 122 => ⟨S800000x1, .i32⟩
  | 123 => ⟨S50000x64, .f32⟩
  | 124 => ⟨S_, .f32⟩
  | 125 => ⟨S50000x2, .f32⟩
  | 126 => ⟨S800000x1, .i32⟩
  | 127 => ⟨S50000x2, .f32⟩
  | _ => ⟨S50000x64, .f32⟩

abbrev hbmTy0_1 (i : Nat) : BufTy := match i % 128 with
  | 0 => ⟨S_, .f32⟩
  | 1 => ⟨S800000, .f32⟩
  | 2 => ⟨S_, .f32⟩
  | 3 => ⟨S50000, .f32⟩
  | 4 => ⟨S800000x1, .i32⟩
  | 5 => ⟨S50000, .f32⟩
  | 6 => ⟨S50000x1, .f32⟩
  | 7 => ⟨S50000x64, .f32⟩
  | 8 => ⟨S50000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S3200x1, .f32⟩
  | .local _ .vmem, ⟨5, _⟩ => ⟨S3200x1, .f32⟩
  | .local _ .vmem, ⟨6, _⟩ => ⟨S3200x2, .f32⟩
  | .local _ .vmem, ⟨7, _⟩ => ⟨S3200x2, .f32⟩
  | .local _ .vmem, ⟨8, _⟩ => ⟨S129x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S64x1, .f32⟩
  | .local _ .vmem, ⟨15, _⟩ => ⟨S1, .f32⟩
  | .local _ .vmem, ⟨16, _⟩ => ⟨S3200x64, .f32⟩
  | .local _ .vmem, ⟨17, _⟩ => ⟨S3200x64, .f32⟩
  | .local _ .vmem, ⟨18, _⟩ => ⟨S3200x2, .f32⟩
  | .local _ .vmem, ⟨19, _⟩ => ⟨S3200x2, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x2, .f32⟩
  | .local _ .vmem, ⟨25, _⟩ => ⟨S2000x2, .f32⟩
  | .local _ .vmem, ⟨26, _⟩ => ⟨S2000x2, .f32⟩
  | .local _ .vmem, ⟨27, _⟩ => ⟨S2000x2, .f32⟩
  | .local _ .vmem, ⟨28, _⟩ => ⟨S2000x1, .f32⟩
  | .local _ .vmem, ⟨29, _⟩ => ⟨S2000x1, .f32⟩
  | .local _ .vmem, ⟨30, _⟩ => ⟨S128x64, .f32⟩
  | .local _ .vmem, ⟨31, _⟩ => ⟨S64, .f32⟩
  | .local _ .vmem, ⟨32, _⟩ => ⟨S64x64, .f32⟩
  | .local _ .vmem, ⟨33, _⟩ => ⟨S64, .f32⟩
  | .local _ .vmem, ⟨34, _⟩ => ⟨S2000x64, .f32⟩
  | .local _ .vmem, ⟨35, _⟩ => ⟨S2000x64, .f32⟩
  | .local _ .vmem, ⟨36, _⟩ => ⟨S2000x2, .f32⟩
  | .local _ .vmem, ⟨37, _⟩ => ⟨S2000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v5 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v6 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v7 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v8 : Ref sig .tc := ⟨.hbm, 112, rfl⟩
abbrev main_v9 : Ref sig .tc := ⟨.hbm, 113, rfl⟩
abbrev main_v10 : Ref sig .tc := ⟨.hbm, 114, rfl⟩
abbrev main_cst : Ref sig .tc := ⟨.hbm, 115, rfl⟩
abbrev main_v11 : Ref sig .tc := ⟨.hbm, 116, rfl⟩
abbrev main_v12 : Ref sig .tc := ⟨.hbm, 117, rfl⟩
abbrev main_v13_0 : Ref sig .tc := ⟨.hbm, 118, rfl⟩
abbrev main_v13_1 : Ref sig .tc := ⟨.hbm, 119, rfl⟩
abbrev main_cst_0 : Ref sig .tc := ⟨.hbm, 120, rfl⟩
abbrev main_v14 : Ref sig .tc := ⟨.hbm, 121, rfl⟩
abbrev main_v15 : Ref sig .tc := ⟨.hbm, 122, rfl⟩
abbrev main_v16 : Ref sig .tc := ⟨.hbm, 123, rfl⟩
abbrev main_cst_1 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_cst_2 : Ref sig .tc := ⟨.hbm, 128, rfl⟩
abbrev main_v20 : Ref sig .tc := ⟨.hbm, 129, rfl⟩
abbrev main_cst_3 : Ref sig .tc := ⟨.hbm, 130, rfl⟩
abbrev main_v21 : Ref sig .tc := ⟨.hbm, 131, rfl⟩
abbrev main_v22 : Ref sig .tc := ⟨.hbm, 132, rfl⟩
abbrev main_v23 : Ref sig .tc := ⟨.hbm, 133, rfl⟩
abbrev main_v24 : Ref sig .tc := ⟨.hbm, 134, rfl⟩
abbrev main_v25_0 : Ref sig .tc := ⟨.hbm, 135, rfl⟩
abbrev main_v25_1 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem9_1 : DmaSem sig := 35
abbrev cc1_sem10_0 : DmaSem sig := 36
abbrev cc1_sem10_1 : DmaSem sig := 37

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S129x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3200x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3200x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000_S800000x2_0 : S800000.BroadcastsInDim S800000x2 (![0] : Fin 1 → Fin S800000x2.rank)
  bcast_S_S800000x2 : S_.BroadcastsInDim S800000x2 (![] : Fin 0 → Fin S800000x2.rank)
  reducesTo_S800000x2_S800000_d1 : S800000x2.ReducesTo [1] S800000
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  inb_S3200x2_S3200x2_0_0 : ∀ a, (![0, 0] : Fin 2 → Nat) a + S3200x2.size a ≤ S3200x2.size a
  h_S3200x2 : 0 < S3200x2.numel
  shapeCasts_S3200x2_S3200x2 : S3200x2.ShapeCasts S3200x2
  concatenates_S3200x64_S3200x64_S3200x1_S3200x129_d1 : Shape.Concatenates [S3200x64, S3200x64, S3200x1] S3200x129 1
  inb_S129x64_S129x64_0_0 : ∀ a, (![0, 0] : Fin 2 → Nat) a + S129x64.size a ≤ S129x64.size a
  h_S129x64 : 0 < S129x64.numel
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S3200x64 : S1x64.Broadcasts S3200x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S3200x1 : S1x1.Broadcasts S3200x1
  broadcasts_S3200x1_S3200x2 : S3200x1.Broadcasts S3200x2
  bcast_S_S50000x64 : S_.BroadcastsInDim S50000x64 (![] : Fin 0 → Fin S50000x64.rank)
  bcast_S_S50000x2 : S_.BroadcastsInDim S50000x2 (![] : Fin 0 → Fin S50000x2.rank)
  bcast_S_S50000 : S_.BroadcastsInDim S50000 (![] : Fin 0 → Fin S50000.rank)
  shapeCasts_S50000_S50000x1 : S50000.ShapeCasts S50000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  concatenates_S2000x64_S2000x64_S2000x128_d1 : Shape.Concatenates [S2000x64, S2000x64] S2000x128 1
  inb_S128x64_S128x64_0_0 : ∀ a, (![0, 0] : Fin 2 → Nat) a + S128x64.size a ≤ S128x64.size a
  h_S128x64 : 0 < S128x64.numel
  broadcasts_S1x64_S2000x64 : S1x64.Broadcasts S2000x64
  broadcasts_S2000x1_S2000x2 : S2000x1.Broadcasts S2000x2
  gather_S50000x64_S800000x1_S800000x64_1_0_n_n_0_1_164_wf : GatherDims.WF S50000x64 S800000x1 S800000x64 [1] [0] [] [0] [] 1 ![1, 64]
  gather_S50000x2_S800000x1_S800000x2_1_0_n_n_0_1_12_wf : GatherDims.WF S50000x2 S800000x1 S800000x2 [1] [0] [] [0] [] 1 ![1, 2]
  dot_S3200x129_S129x64_S3200x64_1_0_0_1_n_n_wf : DotDims.WF S3200x129 S129x64 S3200x64 [1] [0] [0] [1] [] []
  dot_S3200x64_S64x64_S3200x64_1_0_0_1_n_n_wf : DotDims.WF S3200x64 S64x64 S3200x64 [1] [0] [0] [1] [] []
  dot_S3200x64_S64x1_S3200x1_1_0_0_1_n_n_wf : DotDims.WF S3200x64 S64x1 S3200x1 [1] [0] [0] [1] [] []
  scatter_S50000x64_S800000x1_S800000x64_1_0_0_1_wf : ScatterDims.WF S50000x64 S800000x1 S800000x64 [1] [0] [0] 1
  scatter_S50000x2_S800000x1_S800000x2_1_0_0_1_wf : ScatterDims.WF S50000x2 S800000x1 S800000x2 [1] [0] [0] 1
  scatter_S50000_S800000x1_S800000_n_0_0_1_wf : ScatterDims.WF S50000 S800000x1 S800000 [] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x1.size a ≤ S800000x1.size a
  hwx0_2 : ∀ i : grid0.Coords, EltTy.bits .f32 = 32 ∨ (Rect.block (s := S800000x1) S3200x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x2.size a ≤ S800000x2.size a
  hwx0_3 : ∀ i : grid0.Coords, EltTy.bits .f32 = 32 ∨ (Rect.block (s := S800000x2) S3200x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S129x64.size a ≤ S129x64.size a
  hwx0_4 : ∀ i : grid0.Coords, EltTy.bits .f32 = 32 ∨ (Rect.block (s := S129x64) S129x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S64x1.size a
  hwx0_10 : ∀ i : grid0.Coords, EltTy.bits .f32 = 32 ∨ (Rect.block (s := S64x1) S64x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x64.size a ≤ S800000x64.size a
  hwx0_12 : ∀ i : grid0.Coords, EltTy.bits .f32 = 32 ∨ (Rect.block (s := S800000x64) S3200x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3200x2.size a ≤ S800000x2.size a
  hwx0_13 : ∀ i : grid0.Coords, EltTy.bits .f32 = 32 ∨ (Rect.block (s := S800000x2) S3200x2.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x2.size a ≤ S50000x2.size a
  hwx1_2 : ∀ i : grid1.Coords, EltTy.bits .f32 = 32 ∨ (Rect.block (s := S50000x2) S2000x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x2.size a ≤ S50000x2.size a
  hwx1_3 : ∀ i : grid1.Coords, EltTy.bits .f32 = 32 ∨ (Rect.block (s := S50000x2) S2000x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S50000x64.size a
  hwx1_9 : ∀ i : grid1.Coords, EltTy.bits .f32 = 32 ∨ (Rect.block (s := S50000x64) S2000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x2.size a ≤ S50000x2.size a
  hwx1_10 : ∀ i : grid1.Coords, EltTy.bits .f32 = 32 ∨ (Rect.block (s := S50000x2) S2000x2.size (cc1_transform_10 i) (hinb1_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def dot_S3200x129_S129x64_S3200x64_1_0_0_1_n_n : DotDims S3200x129 S129x64 S3200x64 where
  lhsContracting := [1]
  rhsContracting := [0]
  lhsNonContracting := [0]
  rhsNonContracting := [1]
  lhsBatch := []
  rhsBatch := []
  wf := dot_S3200x129_S129x64_S3200x64_1_0_0_1_n_n_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x64_S64x1_S3200x1_1_0_0_1_n_n : DotDims S3200x64 S64x1 S3200x1 where
  lhsContracting := [1]
  rhsContracting := [0]
  lhsNonContracting := [0]
  rhsNonContracting := [1]
  lhsBatch := []
  rhsBatch := []
  wf := dot_S3200x64_S64x1_S3200x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v5) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S3200x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S129x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13_0) S3200x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v13_1) S3200x2.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x2.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25_0) S2000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v25_1) S2000x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x2 : Shape := ⟨2, ![50000, 2]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S800000x64 : Shape := ⟨2, ![800000, 64]⟩
abbrev S800000x129 : Shape := ⟨2, ![800000, 129]⟩
abbrev S1x64 : Shape := ⟨2, ![1, 64]⟩
abbrev S1x1 : Shape := ⟨2, ![1, 1]⟩
abbrev S50000 : Shape := ⟨1, ![50000]⟩
abbrev S50000x1 : Shape := ⟨2, ![50000, 1]⟩
abbrev S50000x128 : Shape := ⟨2, ![50000, 128]⟩

abbrev nBuf : Space → Nat
  | .hbm => 148
  | .vmem => 0
  | .smem => 0
  | _ => 0

abbrev hbmTy0_0 (i : Nat) : BufTy := match i % 128 with
  | 0 => ⟨S50000x64, .f32⟩
  | 1 => ⟨S50000x2, .f32⟩
  | 2 => ⟨S50000x64, .f32⟩
  | 3 => ⟨S129x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S128x64, .f32⟩
  | 12 => ⟨S64, .f32⟩
  | 13 => ⟨S64x64, .f32⟩
  | 14 => ⟨S64, .f32⟩
  | 15 => ⟨S2x800000, .i32⟩
  | 16 => ⟨S50000x64, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x2, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x2, .f32⟩
  | 39 => ⟨S800000x2, .f32⟩
  | 40 => ⟨S800000x2, .f32⟩
  | 41 => ⟨S_, .f32⟩
  | 42 => ⟨S800000, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S800000x129, .f32⟩
  | 63 => ⟨S800000x64, .f32⟩
  | 64 => ⟨S1x64, .f32⟩
  | 65 => ⟨S800000x64, .f32⟩
  | 66 => ⟨S800000x64, .f32⟩
  | 67 => ⟨S800000x64, .f32⟩
  | 68 => ⟨S800000x64, .f32⟩
  | 69 => ⟨S_, .f32⟩
  | 70 => ⟨S800000x64, .f32⟩
  | 71 => ⟨S800000x64, .f32⟩
  | 72 => ⟨S_, .f32⟩
  | 73 => ⟨S800000x64, .f32⟩
  | 74 => ⟨S800000x64, .f32⟩
  | 75 => ⟨S800000x64, .f32⟩
  | 76 => ⟨S800000x64, .f32⟩
  | 77 => ⟨S1x64, .f32⟩
  | 78 => ⟨S800000x64, .f32⟩
  | 79 => ⟨S800000x64, .f32⟩
  | 80 => ⟨S800000x64, .f32⟩
  | 81 => ⟨S800000x64, .f32⟩
  | 82 => ⟨S_, .f32⟩
  | 83 => ⟨S800000x64, .f32⟩
  | 84 => ⟨S800000x64, .f32⟩
  | 85 => ⟨S_, .f32⟩
  | 86 => ⟨S800000x64, .f32⟩
  | 87 => ⟨S800000x64, .f32⟩
  | 88 => ⟨S800000x64, .f32⟩
  | 89 => ⟨S800000x64, .f32⟩
  | 90 => ⟨S1x64, .f32⟩
  | 91 => ⟨S800000x64, .f32⟩
  | 92 => ⟨S800000x64, .f32⟩
  | 93 => ⟨S800000x64, .f32⟩
  | 94 => ⟨S800000x64, .f32⟩
  | 95 => ⟨S_, .f32⟩
  | 96 => ⟨S800000x64, .f32⟩
  | 97 => ⟨S800000x64, .f32⟩
  | 98 => ⟨S_, .f32⟩
  | 99 => ⟨S800000x64, .f32⟩
  | 100 => ⟨S800000x64, .f32⟩
  | 101 => ⟨S800000x64, .f32⟩
  | 102 => ⟨S800000x1, .f32⟩
  | 103 => ⟨S1x1, .f32⟩
  | 104 => ⟨S800000x1, .f32⟩
  | 105 => ⟨S800000x1, .f32⟩
  | 106 => ⟨S_, .f32⟩
  | 107 => ⟨S800000, .f32⟩
  | 108 => ⟨S_, .f32⟩
  | 109 => ⟨S50000, .f32⟩
  | 110 => ⟨S800000x1, .i32⟩
  | 111 => ⟨S50000, .f32⟩
  | 112 => ⟨S800000x2, .f32⟩
  | 113 => ⟨S800000x2, .f32⟩
  | 114 => ⟨S_, .f32⟩
  | 115 => ⟨S50000x2, .f32⟩
  | 116 => ⟨S800000x1, .i32⟩
  | 117 => ⟨S50000x2, .f32⟩
  | 118 => ⟨S_, .f32⟩
  | 119 => ⟨S50000, .f32⟩
  | 120 => ⟨S50000, .f32⟩
  | 121 => ⟨S50000x1, .f32⟩
  | 122 => ⟨S50000x2, .f32⟩
  | 123 => ⟨S50000x2, .f32⟩
  | 124 => ⟨S_, .f32⟩
  | 125 => ⟨S50000x64, .f32⟩
  | 126 => ⟨S800000x1, .i32⟩
  | 127 => ⟨S50000x64, .f32⟩
  | _ => ⟨S50000x64, .f32⟩

abbrev hbmTy0_1 (i : Nat) : BufTy := match i % 128 with
  | 0 => ⟨S50000x128, .f32⟩
  | 1 => ⟨S50000x64, .f32⟩
  | 2 => ⟨S1x64, .f32⟩
  | 3 => ⟨S50000x64, .f32⟩
  | 4 => ⟨S50000x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S50000x64, .f32⟩
  | 19 => ⟨S50000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_7 : Ref sig .tc := ⟨.hbm, 106, rfl⟩
abbrev main_v57 : Ref sig .tc := ⟨.hbm, 107, rfl⟩
abbrev main_cst_8 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_9 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_10 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_11 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x2_S800000_d1 : S800000x2.ReducesTo [1] S800000
  h_S_ : 0 < S_.numel
  concatenates_S800000x64_S800000x64_S800000x1_S800000x129_d1 : Shape.Concatenates [S800000x64, S800000x64, S800000x1] S800000x129 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S50000 : S_.BroadcastsInDim S50000 (![] : Fin 0 → Fin S50000.rank)
  bcast_S800000x1_S800000x2_0_1 : S800000x1.BroadcastsInDim S800000x2 (![0, 1] : Fin 2 → Fin S800000x2.rank)
  bcast_S_S50000x2 : S_.BroadcastsInDim S50000x2 (![] : Fin 0 → Fin S50000x2.rank)
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x2_S800000x1_S800000x2_1_0_n_n_0_1_12_wf : GatherDims.WF S50000x2 S800000x1 S800000x2 [1] [0] [] [0] [] 1 ![1, 2]
  gather_S50000x64_S800000x1_S800000x64_1_0_n_n_0_1_164_wf : GatherDims.WF S50000x64 S800000x1 S800000x64 [1] [0] [] [0] [] 1 ![1, 64]
  dot_S800000x129_S129x64_S800000x64_1_0_0_1_n_n_wf : DotDims.WF S800000x129 S129x64 S800000x64 [1] [0] [0] [1] [] []
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []
  scatter_S50000_S800000x1_S800000_n_0_0_1_wf : ScatterDims.WF S50000 S800000x1 S800000 [] [0] [0] 1
  scatter_S50000x2_S800000x1_S800000x2_1_0_0_1_wf : ScatterDims.WF S50000x2 S800000x1 S800000x2 [1] [0] [0] 1
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x64_S800000x64_1_0_0_1_n_n : DotDims S800000x129 S129x64 S800000x64 where
  lhsContracting := [1]
  rhsContracting := [0]
  lhsNonContracting := [0]
  rhsNonContracting := [1]
  lhsBatch := []
  rhsBatch := []
  wf := dot_S800000x129_S129x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.PreRange.lean ====
import proofs.«419480_j27238682591241_1_alg».proof.Defs
import proofs.«419480_j27238682591241_1_alg».proof.Proof.Gen.Pre_finite_inputs
import Idealize.ShloMosaic.Lib.ReduceAll
import Idealize.ShloMosaic.Lib.StableHlo.Predicate
import Idealize.ShloMosaic.Lib.ValueIdx

/-!
  The index range read out of the precondition.

  The precondition is a conjunction of one-bit words; its two outermost conjuncts say that every
  entry of the edge index array is at least 0 and less than 50000 (each an `and`-reduction of a
  signed word comparison over the whole array). A conjunction that is 1 has both conjuncts 1, a
  full `and`-reduction that is 1 has every operand word 1, and a signed comparison word that is 1
  says that the comparison of the signed values holds.
-/

noncomputable section

namespace Cert.PreRange

open Idealize.ShloMosaic Cert.Pre_finite_inputs

/-- The rank-0 shape has a single index. -/
instance : Subsingleton S_.Idx := ⟨fun a b => funext fun d => d.elim0⟩

/-- The last part of the predicate: if it is 1, every entry of the index array lies in `[0, 50000)`.
    Only the two outermost conjuncts are opened; the others are split off unread. -/
theorem range_of_part4 [Facts] {F : FTy → Type} [FloatOps F] (a14 : FVec F S64 .f32) (a15 : IVec S2x800000 32)
    (v63 v67 : IVec S_ 1) (h : fn_part4 (F := F) a14 a15 v63 v67 = fun _ => 1#1) :
    ∀ i : S2x800000.Idx, 0 ≤ (a15 i).toInt ∧ (a15 i).toInt < 50000 := by
  intro i
  have e := congrFun h ValueIdx.ix0
  dsimp only [fn_part4, andi] at e
  obtain ⟨e1, e80⟩ := IntOp.andi_eq_one.1 e
  obtain ⟨_, e76⟩ := IntOp.andi_eq_one.1 e1
  have g0 := Host.reduce_andi_all _ _ _ _ _ e76 i
  have g1 := Host.reduce_andi_all _ _ _ _ _ e80 i
  dsimp only [cmpi, broadcastInDim, constantI] at g0 g1
  have z0 : (0#32 : BitVec 32).toInt = 0 := by decide
  have z1 : (50000#32 : BitVec 32).toInt = 50000 := by decide
  have k0 := IntOp.cmpi_sge.1 g0
  have k1 := IntOp.cmpi_slt.1 g1
  rw [z0] at k0
  rw [z1] at k1
  exact ⟨k0, k1⟩

/-- The whole predicate: it is its last part applied to the earlier conjuncts, so the same range follows. -/
theorem range_of_fn [Facts] {F : FTy → Type} [FloatOps F]
    (a0 : FVec F S50000x64 .f32) (a1 : FVec F S50000x2 .f32) (a2 : FVec F S50000x64 .f32) (a3 : FVec F S129x64 .f32)
    (a4 : FVec F S64 .f32) (a5 : FVec F S64x64 .f32) (a6 : FVec F S64 .f32) (a7 : FVec F S64x64 .f32)
    (a8 : FVec F S64 .f32) (a9 : FVec F S64x1 .f32) (a10 : FVec F S1 .f32) (a11 : FVec F S128x64 .f32)
    (a12 : FVec F S64 .f32) (a13 : FVec F S64x64 .f32) (a14 : FVec F S64 .f32) (a15 : IVec S2x800000 32)
    (h : fn (F := F) a0 a1 a2 a3 a4 a5 a6 a7 a8 a9 a10 a11 a12 a13 a14 a15 = fun _ => 1#1) :
    ∀ i : S2x800000.Idx, 0 ≤ (a15 i).toInt ∧ (a15 i).toInt < 50000 := by
  unfold fn fn_part1 fn_part2 fn_part3 at h
  exact range_of_part4 a14 a15 _ _ h

/-- Under the precondition every entry of the edge index array is a node number: it lies in `[0, 50000)`. -/
theorem range_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S2x800000.Idx,
      0 ≤ (m ((c.tc : Thread Cert.KernelIdeal.nD Cert.KernelIdeal.τ).loc Cert.KernelIdeal.main_arg15) i).toInt ∧
      (m ((c.tc : Thread Cert.KernelIdeal.nD Cert.KernelIdeal.τ).loc Cert.KernelIdeal.main_arg15) i).toInt < 50000 :=
  range_of_fn _ _ _ _ _ _ _ _ _ _ _ _ _ _ _ _ (h c)

end Cert.PreRange

end
-- ==== Proof.Spec.lean ====
/-
  The mathematics both programs compute, row by row, over the extended reals.

  One edge's message is a two-layer perceptron with the activation x · σ(x) applied to the row
  [h(dst), h(src), |pos(dst) − pos(src)|²]; its coordinate weight is a further two-layer perceptron
  of the message; a node's new feature row is its old row plus a two-layer perceptron of [h, Σ messages].
  Every function below is ROW-LOCAL: row r of the result depends on row r of the row-indexed operands
  only. So the same definition, at n = the rows of a block or n = the rows of the whole array, describes
  a block of the result and the whole result, and a block of the whole result is the result of the blocks.
-/
import Idealize.ShloMosaic.PureOps.Ideal
import Idealize.ShloMosaic.Lib.ValueIdx

noncomputable section

open scoped BigOperators
open Idealize.ShloMosaic Idealize.ShloMosaic.ValueIdx

namespace Cert.Spec

/-- A matrix of extended reals with n rows and k columns, indexed as the printed arrays are. -/
abbrev Mat (n k : Nat) := (⟨2, ![n, k]⟩ : Shape).Idx → EReal
/-- A vector of k extended reals, indexed as the printed arrays are. -/
abbrev Row (k : Nat) := (⟨1, ![k]⟩ : Shape).Idx → EReal

/-- The activation x · σ(x), σ the logistic function. -/
def silu (x : EReal) : EReal := x * Ideal.logistic x

/-- Output j of an affine layer: Σₖ x k · W (k, j) + b j. -/
def dense {K J : Nat} (x : Fin K → EReal) (W : Mat K J) (b : Row J) (j : Fin J) : EReal :=
  (∑ k : Fin K, x k * W (ix2 k j)) + b (ix1 j)

/-- Row r of a matrix. -/
def row {n k : Nat} (X : Mat n k) (r : Fin n) : Fin k → EReal := fun l => X (ix2 r l)

/-- Two rows of 64 and one scalar, side by side: a row of 129. -/
def cat3 (a b : Fin 64 → EReal) (d : EReal) : Fin 129 → EReal := fun l =>
  if h : l.val < 64 then a ⟨l.val, h⟩
  else if h' : l.val < 128 then b ⟨l.val - 64, by omega⟩ else d

/-- Two rows of 64 side by side: a row of 128. -/
def cat2 (a b : Fin 64 → EReal) : Fin 128 → EReal := fun l =>
  if h : l.val < 64 then a ⟨l.val, h⟩ else b ⟨l.val - 64, by omega⟩

/-- One edge's message from its 129 features. -/
def msgRow (x : Fin 129 → EReal) (W1 : Mat 129 64) (b1 : Row 64) (W2 : Mat 64 64) (b2 : Row 64) : Fin 64 → EReal :=
  fun j => silu (dense (fun k => silu (dense x W1 b1 k)) W2 b2 j)

/-- The hidden layer of the coordinate weight, from one edge's message. -/
def gateRow (mr : Fin 64 → EReal) (Wp1 : Mat 64 64) (bp1 : Row 64) : Fin 64 → EReal :=
  fun k => silu (dense mr Wp1 bp1 k)

/-- One edge's coordinate weight, from that hidden layer. -/
def coordWeight (g : Fin 64 → EReal) (Wp2 : Mat 64 1) (bp2 : Row 1) : EReal := dense g Wp2 bp2 0

/-- One node's new feature row from its row and its summed messages. -/
def nodeRow (hr ar : Fin 64 → EReal) (Wh1 : Mat 128 64) (bh1 : Row 64) (Wh2 : Mat 64 64) (bh2 : Row 64) : Fin 64 → EReal :=
  fun j => hr j + dense (fun k => silu (dense (cat2 hr ar) Wh1 bh1 k)) Wh2 bh2 j

variable {n : Nat}

/-- The messages of n edges. -/
def msg (hd hs : Mat n 64) (d2 : Mat n 1) (W1 : Mat 129 64) (b1 : Row 64) (W2 : Mat 64 64) (b2 : Row 64) : Mat n 64 :=
  fun i => msgRow (cat3 (row hd ⟨(i 0).val, idx2_lt0 i⟩) (row hs ⟨(i 0).val, idx2_lt0 i⟩) (d2 (ix2 ⟨(i 0).val, idx2_lt0 i⟩ 0)))
    W1 b1 W2 b2 ⟨(i 1).val, idx2_lt1 i⟩

/-- The coordinate weights' hidden layer for n edges. -/
def gate (mm : Mat n 64) (Wp1 : Mat 64 64) (bp1 : Row 64) : Mat n 64 :=
  fun i => gateRow (row mm ⟨(i 0).val, idx2_lt0 i⟩) Wp1 bp1 ⟨(i 1).val, idx2_lt1 i⟩

/-- The weighted relative positions of n edges. -/
def relw (rel : Mat n 2) (g : Mat n 64) (Wp2 : Mat 64 1) (bp2 : Row 1) : Mat n 2 :=
  fun i => rel i * coordWeight (row g ⟨(i 0).val, idx2_lt0 i⟩) Wp2 bp2

/-- The new features of n nodes. -/
def nodeH (H agg : Mat n 64) (Wh1 : Mat 128 64) (bh1 : Row 64) (Wh2 : Mat 64 64) (bh2 : Row 64) : Mat n 64 :=
  fun i => nodeRow (row H ⟨(i 0).val, idx2_lt0 i⟩) (row agg ⟨(i 0).val, idx2_lt0 i⟩) Wh1 bh1 Wh2 bh2 ⟨(i 1).val, idx2_lt1 i⟩

/-- The new positions of n nodes: the old one plus the summed weighted relative positions over max(degree, 1). -/
def nodeP (pos posu : Mat n 2) (deg : Mat n 1) : Mat n 2 :=
  fun i => pos i + Ideal.div (posu i) (max (deg (ix2 ⟨(i 0).val, idx2_lt0 i⟩ 0)) (Ideal.ofBits .f32 0x3F800000#32))

theorem msg_ix2 (hd hs : Mat n 64) (d2 : Mat n 1) (W1 : Mat 129 64) (b1 : Row 64) (W2 : Mat 64 64) (b2 : Row 64)
    (r : Fin n) (j : Fin 64) :
    msg hd hs d2 W1 b1 W2 b2 (ix2 r j) = msgRow (cat3 (row hd r) (row hs r) (d2 (ix2 r 0))) W1 b1 W2 b2 j := rfl

theorem gate_ix2 (mm : Mat n 64) (Wp1 : Mat 64 64) (bp1 : Row 64) (r : Fin n) (j : Fin 64) :
    gate mm Wp1 bp1 (ix2 r j) = gateRow (row mm r) Wp1 bp1 j := rfl

theorem relw_ix2 (rel : Mat n 2) (g : Mat n 64) (Wp2 : Mat 64 1) (bp2 : Row 1) (r : Fin n) (p : Fin 2) :
    relw rel g Wp2 bp2 (ix2 r p) = rel (ix2 r p) * coordWeight (row g r) Wp2 bp2 := rfl

theorem nodeH_ix2 (H agg : Mat n 64) (Wh1 : Mat 128 64) (bh1 : Row 64) (Wh2 : Mat 64 64) (bh2 : Row 64)
    (r : Fin n) (j : Fin 64) :
    nodeH H agg Wh1 bh1 Wh2 bh2 (ix2 r j) = nodeRow (row H r) (row agg r) Wh1 bh1 Wh2 bh2 j := rfl

theorem nodeP_ix2 (pos posu : Mat n 2) (deg : Mat n 1) (r : Fin n) (p : Fin 2) :
    nodeP pos posu deg (ix2 r p)
      = pos (ix2 r p) + Ideal.div (posu (ix2 r p)) (max (deg (ix2 r 0)) (Ideal.ofBits .f32 0x3F800000#32)) := rfl

/-! ## Row-locality: a block of rows of the result is the result of the blocks

Row r of a block is row R of the whole array; the statements read the block's result at (r, j) as the whole
result at (R, j). -/

variable {N : Nat}

theorem msg_rows (hdB hsB : Mat n 64) (d2B : Mat n 1) (hd hs : Mat N 64) (d2 : Mat N 1)
    (W1 : Mat 129 64) (b1 : Row 64) (W2 : Mat 64 64) (b2 : Row 64) (r : Fin n) (R : Fin N) (j : Fin 64)
    (h1 : ∀ l, hdB (ix2 r l) = hd (ix2 R l)) (h2 : ∀ l, hsB (ix2 r l) = hs (ix2 R l)) (h3 : d2B (ix2 r 0) = d2 (ix2 R 0)) :
    msg hdB hsB d2B W1 b1 W2 b2 (ix2 r j) = msg hd hs d2 W1 b1 W2 b2 (ix2 R j) := by
  rw [msg_ix2, msg_ix2, h3, show row hdB r = row hd R from funext h1, show row hsB r = row hs R from funext h2]

theorem gate_rows (mB : Mat n 64) (mm : Mat N 64) (Wp1 : Mat 64 64) (bp1 : Row 64) (r : Fin n) (R : Fin N) (j : Fin 64)
    (h1 : ∀ l, mB (ix2 r l) = mm (ix2 R l)) :
    gate mB Wp1 bp1 (ix2 r j) = gate mm Wp1 bp1 (ix2 R j) := by
  rw [gate_ix2, gate_ix2, show row mB r = row mm R from funext h1]

theorem relw_rows (relB : Mat n 2) (gB : Mat n 64) (rel : Mat N 2) (g : Mat N 64) (Wp2 : Mat 64 1) (bp2 : Row 1)
    (r : Fin n) (R : Fin N) (p : Fin 2)
    (h1 : relB (ix2 r p) = rel (ix2 R p)) (h2 : ∀ l, gB (ix2 r l) = g (ix2 R l)) :
    relw relB gB Wp2 bp2 (ix2 r p) = relw rel g Wp2 bp2 (ix2 R p) := by
  rw [relw_ix2, relw_ix2, h1, show row gB r = row g R from funext h2]

theorem nodeH_rows (HB aggB : Mat n 64) (H agg : Mat N 64) (Wh1 : Mat 128 64) (bh1 : Row 64) (Wh2 : Mat 64 64) (bh2 : Row 64)
    (r : Fin n) (R : Fin N) (j : Fin 64)
    (h1 : ∀ l, HB (ix2 r l) = H (ix2 R l)) (h2 : ∀ l, aggB (ix2 r l) = agg (ix2 R l)) :
    nodeH HB aggB Wh1 bh1 Wh2 bh2 (ix2 r j) = nodeH H agg Wh1 bh1 Wh2 bh2 (ix2 R j) := by
  rw [nodeH_ix2, nodeH_ix2, show row HB r = row H R from funext h1, show row aggB r = row agg R from funext h2]

theorem nodeP_rows (posB posuB : Mat n 2) (degB : Mat n 1) (pos posu : Mat N 2) (deg : Mat N 1)
    (r : Fin n) (R : Fin N) (p : Fin 2)
    (h1 : posB (ix2 r p) = pos (ix2 R p)) (h2 : posuB (ix2 r p) = posu (ix2 R p)) (h3 : degB (ix2 r 0) = deg (ix2 R 0)) :
    nodeP posB posuB degB (ix2 r p) = nodeP pos posu deg (ix2 R p) := by
  rw [nodeP_ix2, nodeP_ix2, h1, h2, h3]

end Cert.Spec

end
-- ==== Proof.EdgePay.lean ====
/-
  The edge kernel's block arithmetic is the specification's row-wise functions at 3200 rows.
  Each matrix product into a zero accumulator is a plain sum over the contraction index; a bias is one row
  repeated along the rows; the three pieces laid side by side are a row of 129; x · σ(x) is elementwise.
-/
import proofs.«419480_j27238682591241_1_alg».proof.Proof.Gen.KernelIdeal.Skeleton
import proofs.«419480_j27238682591241_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KPay

open Cert.KernelIdeal Cert.KernelIdeal.Gen Cert.Spec Idealize.ShloMosaic Idealize.ShloMosaic.ValueIdx

/-- Operand indices of the [3200, 129] × [129, 64] product at an output index and a contraction index, axis by axis. -/
theorem lhs_a_0 (i : S3200x64.Idx) (q : dot_S3200x129_S129x64_S3200x64_1_0_0_1_n_n.contr.Idx) :
    (dot_S3200x129_S129x64_S3200x64_1_0_0_1_n_n.lhsIdx i q 0).val = (i 0).val := by
  unfold DotDims.lhsIdx
  rw [dif_neg (show ¬(0 : Fin S3200x129.rank) ∈ dot_S3200x129_S129x64_S3200x64_1_0_0_1_n_n.lhsBatch by decide), dif_pos (show (0 : Fin S3200x129.rank) ∈ dot_S3200x129_S129x64_S3200x64_1_0_0_1_n_n.lhsNonContracting by decide)]
  rfl
theorem lhs_a_1 (i : S3200x64.Idx) (q : dot_S3200x129_S129x64_S3200x64_1_0_0_1_n_n.contr.Idx) :
    (dot_S3200x129_S129x64_S3200x64_1_0_0_1_n_n.lhsIdx i q 1).val = (q ⟨0, by decide⟩).val :=
  dot_S3200x129_S129x64_S3200x64_1_0_0_1_n_n.lhsIdx_val_of_single rfl i q
theorem rhs_a_0 (i : S3200x64.Idx) (q : dot_S3200x129_S129x64_S3200x64_1_0_0_1_n_n.contr.Idx) :
    (dot_S3200x129_S129x64_S3200x64_1_0_0_1_n_n.rhsIdx i q 0).val = (q ⟨0, by decide⟩).val :=
  dot_S3200x129_S129x64_S3200x64_1_0_0_1_n_n.rhsIdx_val_of_single rfl i q
theorem rhs_a_1 (i : S3200x64.Idx) (q : dot_S3200x129_S129x64_S3200x64_1_0_0_1_n_n.contr.Idx) :
    (dot_S3200x129_S129x64_S3200x64_1_0_0_1_n_n.rhsIdx i q 1).val = (i 1).val := by
  unfold DotDims.rhsIdx
  rw [dif_neg (show ¬(1 : Fin S129x64.rank) ∈ dot_S3200x129_S129x64_S3200x64_1_0_0_1_n_n.rhsBatch by decide), dif_pos (show (1 : Fin S129x64.rank) ∈ dot_S3200x129_S129x64_S3200x64_1_0_0_1_n_n.rhsNonContracting by decide)]
  rfl

/-- The product into a zero accumulator, read at (r, j): Σₖ x (r, k) · W (k, j). -/
theorem matmul_a_apply (x : FVec Ideal S3200x129 .bf16) (W : FVec Ideal S129x64 .bf16) (r : Fin 3200) (j : Fin 64) :
    matmul dot_S3200x129_S129x64_S3200x64_1_0_0_1_n_n none x W (constant (F := Ideal) S3200x64 .f32 0x00000000#32) (ix2 r j)
      = ∑ k : Fin 129, x (ix2 r k) * W (ix2 k j) := by
  simp only [matmul]
  rw [Ideal.matmul_constant_zero_apply, ← Equiv.sum_comp (contrEquiv1 dot_S3200x129_S129x64_S3200x64_1_0_0_1_n_n 129 rfl rfl).symm]
  refine Finset.sum_congr rfl fun k _ => ?_
  have hk := contrEquiv1_symm_val dot_S3200x129_S129x64_S3200x64_1_0_0_1_n_n 129 rfl rfl k
  have el : dot_S3200x129_S129x64_S3200x64_1_0_0_1_n_n.lhsIdx (ix2 r j) ((contrEquiv1 dot_S3200x129_S129x64_S3200x64_1_0_0_1_n_n 129 rfl rfl).symm k) = ix2 r k := funext fun a => Fin.ext (by
    match a with
    | ⟨0, _⟩ => exact lhs_a_0 _ _
    | ⟨1, _⟩ => exact (lhs_a_1 _ _).trans hk)
  have er : dot_S3200x129_S129x64_S3200x64_1_0_0_1_n_n.rhsIdx (ix2 r j) ((contrEquiv1 dot_S3200x129_S129x64_S3200x64_1_0_0_1_n_n 129 rfl rfl).symm k) = ix2 k j := funext fun a => Fin.ext (by
    match a with
    | ⟨0, _⟩ => exact (rhs_a_0 _ _).trans hk
    | ⟨1, _⟩ => exact rhs_a_1 _ _)
  rw [el, er]

/-- Operand indices of the [3200, 64] × [64, 64] product at an output index and a contraction index, axis by axis. -/
theorem lhs_b_0 (i : S3200x64.Idx) (q : dot_S3200x64_S64x64_S3200x64_1_0_0_1_n_n.contr.Idx) :
    (dot_S3200x64_S64x64_S3200x64_1_0_0_1_n_n.lhsIdx i q 0).val = (i 0).val := by
  unfold DotDims.lhsIdx
  rw [dif_neg (show ¬(0 : Fin S3200x64.rank) ∈ dot_S3200x64_S64x64_S3200x64_1_0_0_1_n_n.lhsBatch by decide), dif_pos (show (0 : Fin S3200x64.rank) ∈ dot_S3200x64_S64x64_S3200x64_1_0_0_1_n_n.lhsNonContracting by decide)]
  rfl
theorem lhs_b_1 (i : S3200x64.Idx) (q : dot_S3200x64_S64x64_S3200x64_1_0_0_1_n_n.contr.Idx) :
    (dot_S3200x64_S64x64_S3200x64_1_0_0_1_n_n.lhsIdx i q 1).val = (q ⟨0, by decide⟩).val :=
  dot_S3200x64_S64x64_S3200x64_1_0_0_1_n_n.lhsIdx_val_of_single rfl i q
theorem rhs_b_0 (i : S3200x64.Idx) (q : dot_S3200x64_S64x64_S3200x64_1_0_0_1_n_n.contr.Idx) :
    (dot_S3200x64_S64x64_S3200x64_1_0_0_1_n_n.rhsIdx i q 0).val = (q ⟨0, by decide⟩).val :=
  dot_S3200x64_S64x64_S3200x64_1_0_0_1_n_n.rhsIdx_val_of_single rfl i q
theorem rhs_b_1 (i : S3200x64.Idx) (q : dot_S3200x64_S64x64_S3200x64_1_0_0_1_n_n.contr.Idx) :
    (dot_S3200x64_S64x64_S3200x64_1_0_0_1_n_n.rhsIdx i q 1).val = (i 1).val := by
  unfold DotDims.rhsIdx
  rw [dif_neg (show ¬(1 : Fin S64x64.rank) ∈ dot_S3200x64_S64x64_S3200x64_1_0_0_1_n_n.rhsBatch by decide), dif_pos (show (1 : Fin S64x64.rank) ∈ dot_S3200x64_S64x64_S3200x64_1_0_0_1_n_n.rhsNonContracting by decide)]
  rfl

/-- The product into a zero accumulator, read at (r, j): Σₖ x (r, k) · W (k, j). -/
theorem matmul_b_apply (x : FVec Ideal S3200x64 .bf16) (W : FVec Ideal S64x64 .bf16) (r : Fin 3200) (j : Fin 64) :
    matmul dot_S3200x64_S64x64_S3200x64_1_0_0_1_n_n none x W (constant (F := Ideal) S3200x64 .f32 0x00000000#32) (ix2 r j)
      = ∑ k : Fin 64, x (ix2 r k) * W (ix2 k j) := by
  simp only [matmul]
  rw [Ideal.matmul_constant_zero_apply, ← Equiv.sum_comp (contrEquiv1 dot_S3200x64_S64x64_S3200x64_1_0_0_1_n_n 64 rfl rfl).symm]
  refine Finset.sum_congr rfl fun k _ => ?_
  have hk := contrEquiv1_symm_val dot_S3200x64_S64x64_S3200x64_1_0_0_1_n_n 64 rfl rfl k
  have el : dot_S3200x64_S64x64_S3200x64_1_0_0_1_n_n.lhsIdx (ix2 r j) ((contrEquiv1 dot_S3200x64_S64x64_S3200x64_1_0_0_1_n_n 64 rfl rfl).symm k) = ix2 r k := funext fun a => Fin.ext (by
    match a with
    | ⟨0, _⟩ => exact lhs_b_0 _ _
    | ⟨1, _⟩ => exact (lhs_b_1 _ _).trans hk)
  have er : dot_S3200x64_S64x64_S3200x64_1_0_0_1_n_n.rhsIdx (ix2 r j) ((contrEquiv1 dot_S3200x64_S64x64_S3200x64_1_0_0_1_n_n 64 rfl rfl).symm k) = ix2 k j := funext fun a => Fin.ext (by
    match a with
    | ⟨0, _⟩ => exact (rhs_b_0 _ _).trans hk
    | ⟨1, _⟩ => exact rhs_b_1 _ _)
  rw [el, er]

/-- Operand indices of the [3200, 64] × [64, 1] product at an output index and a contraction index, axis by axis. -/
theorem lhs_c_0 (i : S3200x1.Idx) (q : dot_S3200x64_S64x1_S3200x1_1_0_0_1_n_n.contr.Idx) :
    (dot_S3200x64_S64x1_S3200x1_1_0_0_1_n_n.lhsIdx i q 0).val = (i 0).val := by
  unfold DotDims.lhsIdx
  rw [dif_neg (show ¬(0 : Fin S3200x64.rank) ∈ dot_S3200x64_S64x1_S3200x1_1_0_0_1_n_n.lhsBatch by decide), dif_pos (show (0 : Fin S3200x64.rank) ∈ dot_S3200x64_S64x1_S3200x1_1_0_0_1_n_n.lhsNonContracting by decide)]
  rfl
theorem lhs_c_1 (i : S3200x1.Idx) (q : dot_S3200x64_S64x1_S3200x1_1_0_0_1_n_n.contr.Idx) :
    (dot_S3200x64_S64x1_S3200x1_1_0_0_1_n_n.lhsIdx i q 1).val = (q ⟨0, by decide⟩).val :=
  dot_S3200x64_S64x1_S3200x1_1_0_0_1_n_n.lhsIdx_val_of_single rfl i q
theorem rhs_c_0 (i : S3200x1.Idx) (q : dot_S3200x64_S64x1_S3200x1_1_0_0_1_n_n.contr.Idx) :
    (dot_S3200x64_S64x1_S3200x1_1_0_0_1_n_n.rhsIdx i q 0).val = (q ⟨0, by decide⟩).val :=
  dot_S3200x64_S64x1_S3200x1_1_0_0_1_n_n.rhsIdx_val_of_single rfl i q
theorem rhs_c_1 (i : S3200x1.Idx) (q : dot_S3200x64_S64x1_S3200x1_1_0_0_1_n_n.contr.Idx) :
    (dot_S3200x64_S64x1_S3200x1_1_0_0_1_n_n.rhsIdx i q 1).val = (i 1).val := by
  unfold DotDims.rhsIdx
  rw [dif_neg (show ¬(1 : Fin S64x1.rank) ∈ dot_S3200x64_S64x1_S3200x1_1_0_0_1_n_n.rhsBatch by decide), dif_pos (show (1 : Fin S64x1.rank) ∈ dot_S3200x64_S64x1_S3200x1_1_0_0_1_n_n.rhsNonContracting by decide)]
  rfl

/-- The product into a zero accumulator, read at (r, j): Σₖ x (r, k) · W (k, j). -/
theorem matmul_c_apply (x : FVec Ideal S3200x64 .bf16) (W : FVec Ideal S64x1 .bf16) (r : Fin 3200) (j : Fin 1) :
    matmul dot_S3200x64_S64x1_S3200x1_1_0_0_1_n_n none x W (constant (F := Ideal) S3200x1 .f32 0x00000000#32) (ix2 r j)
      = ∑ k : Fin 64, x (ix2 r k) * W (ix2 k j) := by
  simp only [matmul]
  rw [Ideal.matmul_constant_zero_apply, ← Equiv.sum_comp (contrEquiv1 dot_S3200x64_S64x1_S3200x1_1_0_0_1_n_n 64 rfl rfl).symm]
  refine Finset.sum_congr rfl fun k _ => ?_
  have hk := contrEquiv1_symm_val dot_S3200x64_S64x1_S3200x1_1_0_0_1_n_n 64 rfl rfl k
  have el : dot_S3200x64_S64x1_S3200x1_1_0_0_1_n_n.lhsIdx (ix2 r j) ((contrEquiv1 dot_S3200x64_S64x1_S3200x1_1_0_0_1_n_n 64 rfl rfl).symm k) = ix2 r k := funext fun a => Fin.ext (by
    match a with
    | ⟨0, _⟩ => exact lhs_c_0 _ _
    | ⟨1, _⟩ => exact (lhs_c_1 _ _).trans hk)
  have er : dot_S3200x64_S64x1_S3200x1_1_0_0_1_n_n.rhsIdx (ix2 r j) ((contrEquiv1 dot_S3200x64_S64x1_S3200x1_1_0_0_1_n_n 64 rfl rfl).symm k) = ix2 k j := funext fun a => Fin.ext (by
    match a with
    | ⟨0, _⟩ => exact (rhs_c_0 _ _).trans hk
    | ⟨1, _⟩ => exact rhs_c_1 _ _)
  rw [el, er]

/-! ## Layout operations of the kernel's body read at an index -/

/-- A bias row [64] → [1, 64] → [3200, 64] read at (r, j) is entry j of the bias. -/
theorem bias64_apply (b : Vec Ideal S64 .f32) (r : Fin 3200) (j : Fin 64) :
    broadcastTo S3200x64 (shapeCast S1x64 b shapeCasts_S64_S1x64) broadcasts_S1x64_S3200x64 (ix2 r j) = b (ix1 j) := by
  rw [broadcastTo_1b_ab_apply, shapeCast_a_1a_apply]

/-- A bias [1] → [1, 1] → [3200, 1] read at (r, 0) is the bias's one entry. -/
theorem bias1_apply (b : Vec Ideal S1 .f32) (r : Fin 3200) (j : Fin 1) :
    broadcastTo S3200x1 (shapeCast S1x1 b shapeCasts_S1_S1x1) broadcasts_S1x1_S3200x1 (ix2 r j) = b (ix1 j) := by
  rw [broadcastTo_1b_ab_apply, shapeCast_a_1a_apply]

/-- A column [3200, 1] broadcast to [3200, 2] read at (r, p) is the column's entry of row r. -/
theorem bcastCol_apply (v : FVec Ideal S3200x1 .f32) (r : Fin 3200) (p : Fin 2) :
    broadcastTo S3200x2 v broadcasts_S3200x1_S3200x2 (ix2 r p) = v (ix2 r 0) := by
  refine broadcastTo_apply v _ (ix2 r p) (ix2 r (0 : Fin 1)) fun ax => ?_
  match ax with
  | ⟨0, _⟩ => rfl
  | ⟨1, _⟩ => rfl

/-- Two [3200, 64] arrays and a [3200, 1] column laid side by side, read at (r, l): the row of 129. -/
theorem cat_apply (A B : FVec Ideal S3200x64 .f32) (C : FVec Ideal S3200x1 .f32) (r : Fin 3200) (l : Fin 129) :
    concatenate S3200x129 1 [⟨S3200x64, A⟩, ⟨S3200x64, B⟩, ⟨S3200x1, C⟩] concatenates_S3200x64_S3200x64_S3200x1_S3200x129_d1 (ix2 r l)
      = cat3 (row A r) (row B r) (C (ix2 r 0)) l := by
  unfold cat3
  by_cases h : l.val < 64
  · rw [dif_pos h]
    refine concatenate_apply_piece (1 : Fin S3200x129.rank) _ _ (ix2 r l) 0 (by simp) S3200x64 A rfl rfl 0 rfl
      (ix2 r ⟨l.val, h⟩) (fun b hb => ?_) ?_
    · match b with
      | ⟨0, _⟩ => rfl
      | ⟨1, _⟩ => exact absurd rfl hb
    · show 0 + l.val = l.val
      omega
  · rw [dif_neg h]
    by_cases h' : l.val < 128
    · rw [dif_pos h']
      refine concatenate_apply_piece (1 : Fin S3200x129.rank) _ _ (ix2 r l) 1 (by simp) S3200x64 B rfl rfl 64 rfl
        (ix2 r ⟨l.val - 64, by omega⟩) (fun b hb => ?_) ?_
      · match b with
        | ⟨0, _⟩ => rfl
        | ⟨1, _⟩ => exact absurd rfl hb
      · show 64 + (l.val - 64) = l.val
        omega
    · rw [dif_neg h']
      refine concatenate_apply_piece (1 : Fin S3200x129.rank) _ _ (ix2 r l) 2 (by simp) S3200x1 C rfl rfl 128 rfl
        (ix2 r (0 : Fin 1)) (fun b hb => ?_) ?_
      · match b with
        | ⟨0, _⟩ => rfl
        | ⟨1, _⟩ => exact absurd rfl hb
      · show 128 + 0 = l.val
        have := l.isLt
        omega

/-! ## The affine layers and the activation read at an index -/

/-- x · σ(x) elementwise, read at an index. -/
theorem silu_apply {s : Shape} (y : FVec Ideal s .f32) (i : s.Idx) : mulf y (logistic y) i = silu (y i) := rfl

/-- The 129 → 64 layer read at (r, j): the affine map of row r of the input. -/
theorem dense_a_apply (x : FVec Ideal S3200x129 .f32) (W : Vec Ideal S129x64 .f32) (b : Vec Ideal S64 .f32) (r : Fin 3200) (j : Fin 64) :
    addf (matmul dot_S3200x129_S129x64_S3200x64_1_0_0_1_n_n none (truncf .bf16 x bitsLt_bf16_f32) (truncf .bf16 W bitsLt_bf16_f32)
          (constant (F := Ideal) S3200x64 .f32 0x00000000#32))
        (broadcastTo S3200x64 (shapeCast S1x64 b shapeCasts_S64_S1x64) broadcasts_S1x64_S3200x64) (ix2 r j)
      = dense (fun k => x (ix2 r k)) W b j := by
  rw [addf_apply, matmul_a_apply, bias64_apply]
  rfl

/-- The 64 → 64 layer read at (r, j). -/
theorem dense_b_apply (x : FVec Ideal S3200x64 .f32) (W : Vec Ideal S64x64 .f32) (b : Vec Ideal S64 .f32) (r : Fin 3200) (j : Fin 64) :
    addf (matmul dot_S3200x64_S64x64_S3200x64_1_0_0_1_n_n none (truncf .bf16 x bitsLt_bf16_f32) (truncf .bf16 W bitsLt_bf16_f32)
          (constant (F := Ideal) S3200x64 .f32 0x00000000#32))
        (broadcastTo S3200x64 (shapeCast S1x64 b shapeCasts_S64_S1x64) broadcasts_S1x64_S3200x64) (ix2 r j)
      = dense (fun k => x (ix2 r k)) W b j := by
  rw [addf_apply, matmul_b_apply, bias64_apply]
  rfl

/-- The 64 → 1 layer read at (r, 0). -/
theorem dense_c_apply (x : FVec Ideal S3200x64 .f32) (W : Vec Ideal S64x1 .f32) (b : Vec Ideal S1 .f32) (r : Fin 3200) (j : Fin 1) :
    addf (matmul dot_S3200x64_S64x1_S3200x1_1_0_0_1_n_n none (truncf .bf16 x bitsLt_bf16_f32) (truncf .bf16 W bitsLt_bf16_f32)
          (constant (F := Ideal) S3200x1 .f32 0x00000000#32))
        (broadcastTo S3200x1 (shapeCast S1x1 b shapeCasts_S1_S1x1) broadcasts_S1x1_S3200x1) (ix2 r j)
      = dense (fun k => x (ix2 r k)) W b j := by
  rw [addf_apply, matmul_c_apply, bias1_apply]
  rfl

/-! ## The payloads -/

/-- The message block at (r, j) is the message of edge r, entry j. -/
theorem pay3_ix2 (v0 v2 : Vec Ideal S3200x64 .f32) (v4 : Vec Ideal S3200x1 .f32) (v9 : Vec Ideal S129x64 .f32) (v13 : Vec Ideal S64 .f32)
    (v19 : Vec Ideal S64x64 .f32) (v23 : Vec Ideal S64 .f32) (r : Fin 3200) (j : Fin 64) :
    k0_pay3 (F := Ideal) v0 v2 v4 v9 v13 v19 v23 (ix2 r j)
      = msgRow (cat3 (row v0 r) (row v2 r) (v4 (ix2 r 0))) v9 v13 v19 v23 j := by
  unfold k0_pay3 msgRow
  rw [shapeCast_self v0, shapeCast_self v2, shapeCast_self v4]
  rw [silu_apply, dense_b_apply]
  congr 2
  funext k
  rw [silu_apply, dense_a_apply]
  congr 2
  funext l
  exact cat_apply v0 v2 v4 r l

theorem pay3_eq (v0 v2 : Vec Ideal S3200x64 .f32) (v4 : Vec Ideal S3200x1 .f32) (v9 : Vec Ideal S129x64 .f32) (v13 : Vec Ideal S64 .f32) (v19 : Vec Ideal S64x64 .f32) (v23 : Vec Ideal S64 .f32) :
    k0_pay3 (F := Ideal) v0 v2 v4 v9 v13 v19 v23 = msg (n := 3200) v0 v2 v4 v9 v13 v19 v23 := by
  funext i
  obtain ⟨r, j, rfl⟩ : ∃ (r : Fin 3200) (j : Fin 64), i = ix2 r j := ⟨i 0, i 1, eq_ix2 i⟩
  rw [msg_ix2, pay3_ix2]

theorem pay4_eq (v0 v2 : Vec Ideal S3200x64 .f32) (v4 : Vec Ideal S3200x1 .f32) (v9 : Vec Ideal S129x64 .f32) (v13 : Vec Ideal S64 .f32) (v19 : Vec Ideal S64x64 .f32) (v23 : Vec Ideal S64 .f32) (v29 : Vec Ideal S64x64 .f32) (v33 : Vec Ideal S64 .f32) :
    k0_pay4 (F := Ideal) v0 v2 v4 v9 v13 v19 v23 v29 v33 = gate (n := 3200) (msg (n := 3200) v0 v2 v4 v9 v13 v19 v23) v29 v33 := by
  funext i
  obtain ⟨r, j, rfl⟩ : ∃ (r : Fin 3200) (j : Fin 64), i = ix2 r j := ⟨i 0, i 1, eq_ix2 i⟩
  rw [gate_ix2]
  unfold k0_pay4 gateRow
  rw [silu_apply, dense_b_apply, pay3_eq]
  rfl

theorem pay1_eq (v7 : FVec Ideal S3200x2 .f32) (v38 : FVec Ideal S3200x64 .f32) (v39 : Vec Ideal S64x1 .f32) (v43 : Vec Ideal S1 .f32) :
    k0_pay1 (F := Ideal) v7 v38 v39 v43 = relw (n := 3200) v7 v38 v39 v43 := by
  funext i
  obtain ⟨r, p, rfl⟩ : ∃ (r : Fin 3200) (p : Fin 2), i = ix2 r p := ⟨i 0, i 1, eq_ix2 i⟩
  rw [relw_ix2]
  unfold k0_pay1 coordWeight
  rw [mulf_apply, bcastCol_apply, dense_c_apply]
  rfl

theorem pay2_eq (v6 : Vec Ideal S3200x2 .f32) : k0_pay2 (F := Ideal) v6 = v6 := by
  unfold k0_pay2
  exact shapeCast_self v6 _

end Cert.KPay

end
-- ==== Proof.NodePay.lean ====
/-
  The node update's arithmetic, read entry by entry.

  Entry (r, j) of the stored feature block is h(r, j) plus the second affine layer applied to the activations
  x · σ(x) of the first affine layer of the row [h(r, ·), agg(r, ·)]; entry (r, p) of the returned position block is
  pos(r, p) + upd(r, p) / max(deg(r), 1). Each product of matrices accumulates into zero, so its entry is the plain
  sum over the contracted coordinate; over the extended reals the narrowing of the operands changes nothing.
-/
import proofs.«419480_j27238682591241_1_alg».proof.Proof.Gen.KernelIdeal.Skeleton
import proofs.«419480_j27238682591241_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KPayNode

open Cert.KernelIdeal Cert.KernelIdeal.Gen Cert.Spec Idealize.ShloMosaic Idealize.ShloMosaic.ValueIdx

/-! ## The two matrix products read at an index -/

/-- The left operand's row coordinate at output index i is i's row. -/
theorem lhsA_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand's column coordinate is the contraction coordinate. -/
theorem lhsA_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's row coordinate is the contraction coordinate. -/
theorem rhsA_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- The right operand's column coordinate at output index i is i's column. -/
theorem rhsA_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The product of an n × 128 array with a 128 × 64 array, accumulated into zero, read at (r, j): Σₖ x (r, k) · W (k, j). -/
theorem matmulA_apply (x : FVec Ideal S2000x128 .bf16) (W : FVec Ideal S128x64 .bf16) (r : Fin 2000) (j : Fin 64) :
    matmul dot_S2000x128_S128x64_S2000x64_1_0_0_1_n_n none x W (constant (F := Ideal) S2000x64 .f32 0x00000000#32) (ix2 r j)
      = ∑ k : Fin 128, x (ix2 r k) * W (ix2 k j) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 r j) ((ValueIdx.contrEquiv1 dot_S2000x128_S128x64_S2000x64_1_0_0_1_n_n 128 rfl rfl).symm k) = ix2 r k := funext fun a => Fin.ext (by
    match a with
    | ⟨0, _⟩ => exact lhsA_0 _ _
    | ⟨1, _⟩ => exact (lhsA_1 _ _).trans hk)
  have er : dot_S2000x128_S128x64_S2000x64_1_0_0_1_n_n.rhsIdx (ix2 r j) ((ValueIdx.contrEquiv1 dot_S2000x128_S128x64_S2000x64_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-- The left operand's row coordinate at output index i is i's row. -/
theorem lhsB_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column coordinate is the contraction coordinate. -/
theorem lhsB_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row coordinate is the contraction coordinate. -/
theorem rhsB_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column coordinate at output index i is i's column. -/
theorem rhsB_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product of an n × 64 array with a 64 × 64 array, accumulated into zero, read at (r, j): Σₖ x (r, k) · W (k, j). -/
theorem matmulB_apply (x : FVec Ideal S2000x64 .bf16) (W : FVec Ideal S64x64 .bf16) (r : Fin 2000) (j : Fin 64) :
    matmul dot_S2000x64_S64x64_S2000x64_1_0_0_1_n_n none x W (constant (F := Ideal) S2000x64 .f32 0x00000000#32) (ix2 r j)
      = ∑ k : Fin 64, x (ix2 r k) * W (ix2 k j) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 r j) ((ValueIdx.contrEquiv1 dot_S2000x64_S64x64_S2000x64_1_0_0_1_n_n 64 rfl rfl).symm k) = ix2 r k := funext fun a => Fin.ext (by
    match a with
    | ⟨0, _⟩ => exact lhsB_0 _ _
    | ⟨1, _⟩ => exact (lhsB_1 _ _).trans hk)
  have er : dot_S2000x64_S64x64_S2000x64_1_0_0_1_n_n.rhsIdx (ix2 r j) ((ValueIdx.contrEquiv1 dot_S2000x64_S64x64_S2000x64_1_0_0_1_n_n 64 rfl rfl).symm k) = ix2 k j := funext fun a => Fin.ext (by
    match a with
    | ⟨0, _⟩ => exact (rhsB_0 _ _).trans hk
    | ⟨1, _⟩ => exact rhsB_1 _ _)
  rw [el, er]

/-! ## The bias row and the concatenation read at an index -/

/-- A bias of 64 entries, laid as one row and repeated over 2000 rows, read at (r, j) is its entry j. -/
theorem bias_apply (b : Vec Ideal S64 .f32) (r : Fin 2000) (j : Fin 64) :
    broadcastTo S2000x64 (shapeCast S1x64 b shapeCasts_S64_S1x64) broadcasts_S1x64_S2000x64 (ix2 r j) = b (ix1 j) := by
  rw [broadcastTo_1b_ab_apply, shapeCast_a_1a_apply]

/-- Two 2000 × 64 arrays side by side, read at (r, l): the first array's row r below column 64, the second's past it. -/
theorem concat_apply (a b : FVec Ideal S2000x64 .f32) (r : Fin 2000) (l : Fin 128) :
    concatenate S2000x128 1 [⟨S2000x64, a⟩, ⟨S2000x64, b⟩] concatenates_S2000x64_S2000x64_S2000x128_d1 (ix2 r l)
      = cat2 (fun k => a (ix2 r k)) (fun k => b (ix2 r k)) l := by
  unfold cat2
  by_cases h : l.val < 64
  · rw [dif_pos h]
    refine concatenate_pair_apply_left (t := S2000x128) (s₁ := S2000x64) (s₂ := S2000x64) (1 : Fin 2) a b _ (ix2 r l) rfl
      (ix2 r ⟨l.val, h⟩) fun c => ?_
    match c with
    | ⟨0, _⟩ => rfl
    | ⟨1, _⟩ => rfl
  · rw [dif_neg h]
    refine concatenate_pair_apply_right (t := S2000x128) (s₁ := S2000x64) (s₂ := S2000x64) (1 : Fin 2) a b _ (ix2 r l) rfl rfl
      (ix2 r ⟨l.val - 64, by omega⟩) (fun c hc => ?_) ?_
    · match c with
      | ⟨0, _⟩ => rfl
      | ⟨1, _⟩ => exact absurd rfl hc
    · show (l.val - 64) + 64 = l.val
      omega

/-- A column of 2000 entries repeated over two columns, read at (r, p), is its entry r. -/
theorem column_apply (v : FVec Ideal S2000x1 .f32) (r : Fin 2000) (p : Fin 2) :
    broadcastTo S2000x2 v broadcasts_S2000x1_S2000x2 (ix2 r p) = v (ix2 r 0) := by
  refine broadcastTo_apply v _ (ix2 r p) (ix2 r (0 : Fin 1)) fun ax => ?_
  match ax with
  | ⟨0, _⟩ => rfl
  | ⟨1, _⟩ => rfl

/-! ## The layers read at an index -/

/-- The first layer at (r, j): the affine map with weights W and bias b applied to row r of x. -/
theorem denseA_apply (x : FVec Ideal S2000x128 .f32) (W : Vec Ideal S128x64 .f32) (b : Vec Ideal S64 .f32) (r : Fin 2000) (j : Fin 64) :
    addf (matmul dot_S2000x128_S128x64_S2000x64_1_0_0_1_n_n none (truncf .bf16 x bitsLt_bf16_f32) (truncf .bf16 W bitsLt_bf16_f32) (constant (F := Ideal) S2000x64 .f32 0x00000000#32))
        (broadcastTo S2000x64 (shapeCast S1x64 b shapeCasts_S64_S1x64) broadcasts_S1x64_S2000x64) (ix2 r j)
      = dense (fun k => x (ix2 r k)) W b j := by
  rw [addf_apply, matmulA_apply, bias_apply]
  rfl

/-- The second layer at (r, j): the affine map with weights W and bias b applied to row r of x. -/
theorem denseB_apply (x : FVec Ideal S2000x64 .f32) (W : Vec Ideal S64x64 .f32) (b : Vec Ideal S64 .f32) (r : Fin 2000) (j : Fin 64) :
    addf (matmul dot_S2000x64_S64x64_S2000x64_1_0_0_1_n_n none (truncf .bf16 x bitsLt_bf16_f32) (truncf .bf16 W bitsLt_bf16_f32) (constant (F := Ideal) S2000x64 .f32 0x00000000#32))
        (broadcastTo S2000x64 (shapeCast S1x64 b shapeCasts_S64_S1x64) broadcasts_S1x64_S2000x64) (ix2 r j)
      = dense (fun k => x (ix2 r k)) W b j := by
  rw [addf_apply, matmulB_apply, bias_apply]
  rfl

/-- y · σ(y) entry by entry is the activation of each entry. -/
theorem silu_apply (y : FVec Ideal S2000x64 .f32) (i : S2000x64.Idx) : mulf y (logistic y) i = silu (y i) := rfl

/-! ## The node kernel's two results -/

/-- The stored feature block is the specification's new features of its 2000 rows. -/
theorem node_pay1_eq (v0 v2 : Vec Ideal S2000x64 .f32) (v10 : Vec Ideal S128x64 .f32) (v14 : Vec Ideal S64 .f32) (v20 : Vec Ideal S64x64 .f32) (v24 : Vec Ideal S64 .f32) :
    k1_pay1 (F := Ideal) v0 v2 v10 v14 v20 v24 = nodeH (n := 2000) v0 v2 v10 v14 v20 v24 := by
  funext i
  obtain ⟨r, j, rfl⟩ : ∃ (r : Fin 2000) (j : Fin 64), i = ix2 r j := ⟨i 0, i 1, eq_ix2 i⟩
  rw [nodeH_ix2]
  unfold k1_pay1
  simp only [shapeCast_self]
  rw [addf_apply, denseB_apply]
  simp only [silu_apply, denseA_apply, concat_apply, shapeCast_self]
  rfl

/-- The returned position block is the specification's new positions of its 2000 rows. -/
theorem node_pay2_eq (v4 v5 : Vec Ideal S2000x2 .f32) (v7 : Vec Ideal S2000x1 .f32) :
    k1_pay2 (F := Ideal) v4 v5 v7 = nodeP (n := 2000) v4 v5 v7 := by
  funext i
  obtain ⟨r, p, rfl⟩ : ∃ (r : Fin 2000) (p : Fin 2), i = ix2 r p := ⟨i 0, i 1, eq_ix2 i⟩
  rw [nodeP_ix2]
  unfold k1_pay2
  simp only [shapeCast_self]
  rw [addf_apply, divf_apply, column_apply, maximumf_apply, broadcast_apply]
  rfl

end Cert.KPayNode

end
-- ==== Proof.RefSpec.lean ====
/-
  The reference program's stage values are the specification's functions of earlier stage values.

  Each stage is read at an index (r, j): an affine layer is the sum over k of the operand's row r times the
  weight's column j plus the bias at j; the activation is written out as x · (1 / (1 + e⁻ˣ)), which is x · σ(x);
  a join of matrices along the columns, read at (r, l), is column l of the joined row r.
-/
import proofs.«419480_j27238682591241_1_alg».proof.Proof.Gen.ReferenceIdeal.Read
import proofs.«419480_j27238682591241_1_alg».proof.Proof.Spec
import Idealize.ShloMosaic.Lib.IdealHost
import Idealize.ShloMosaic.Lib.Pipeline.Value
import Idealize.ShloMosaic.Lib.ValueIdx
import Idealize.ShloMosaic.PureOps.Ideal.Laws

noncomputable section

open scoped BigOperators

namespace Cert.RefSpec

open Cert.ReferenceIdeal Cert.ReferenceIdeal.Gen Cert.ReferenceIdeal.Read Cert.Spec Idealize.ShloMosaic Idealize.ShloMosaic.ValueIdx

/-- A rank-2 index whose coordinates are a and b is the index (a, b). -/
theorem idx2_eq {n0 n1 : Nat} (a : Fin n0) (b : Fin n1) (f : (⟨2, ![n0, n1]⟩ : Shape).Idx)
    (h0 : (f 0).val = a.val) (h1 : (f 1).val = b.val) : f = ix2 a b :=
  funext fun d => Fin.ext (by match d with | ⟨0, _⟩ => exact h0 | ⟨1, _⟩ => exact h1)

/-- A rank-1 index whose coordinate is a is the index (a). -/
theorem idx1_eq {n : Nat} (a : Fin n) (f : (⟨1, ![n]⟩ : Shape).Idx) (h0 : (f 0).val = a.val) : f = ix1 a :=
  funext fun d => Fin.ext (by match d with | ⟨0, _⟩ => exact h0)

/-- The expansion x · (1 / (1 + e⁻ˣ)), both ones written as the f32 word of 1.0, is x · σ(x). -/
theorem silu_expand (x : EReal) :
    x * Ideal.div (Ideal.ofBits .f32 0x3F800000#32) (Ideal.ofBits .f32 0x3F800000#32 + Ideal.exp (-x)) = silu x := by
  rw [Ideal.ofBits_one_f32]; rfl

/-- Two matrices of 64 columns and one column joined along the columns, read at (r, l): column l of the
    129-long row made of row r of each. -/
theorem cat3_read (ya yb : Mat 800000 64) (yd : Mat 800000 1) (r : Fin 800000) (l : Fin 129) :
    concatenate S800000x129 1 [⟨S800000x64, ya⟩, ⟨S800000x64, yb⟩, ⟨S800000x1, yd⟩]
        concatenates_S800000x64_S800000x64_S800000x1_S800000x129_d1 (ix2 r l)
      = cat3 (row ya r) (row yb r) (yd (ix2 r 0)) l := by
  unfold cat3 row
  by_cases h : l.val < 64
  · rw [dif_pos h]
    exact concatenate_apply_piece (t := S800000x129) 1 [⟨S800000x64, ya⟩, ⟨S800000x64, yb⟩, ⟨S800000x1, yd⟩]
      concatenates_S800000x64_S800000x64_S800000x1_S800000x129_d1 (ix2 r l) 0 (by show 0 < 3; omega) S800000x64 ya rfl rfl 0 rfl
      (ix2 r ⟨l.val, h⟩)
      (fun b => match b with
        | ⟨0, _⟩ => fun _ => rfl
        | ⟨1, _⟩ => fun hb => absurd rfl hb)
      (by show 0 + l.val = l.val; omega)
  · rw [dif_neg h]
    by_cases h' : l.val < 128
    · rw [dif_pos h']
      exact concatenate_apply_piece (t := S800000x129) 1 [⟨S800000x64, ya⟩, ⟨S800000x64, yb⟩, ⟨S800000x1, yd⟩]
        concatenates_S800000x64_S800000x64_S800000x1_S800000x129_d1 (ix2 r l) 1 (by show 1 < 3; omega) S800000x64 yb rfl rfl 64 rfl
        (ix2 r ⟨l.val - 64, by omega⟩)
        (fun b => match b with
          | ⟨0, _⟩ => fun _ => rfl
          | ⟨1, _⟩ => fun hb => absurd rfl hb)
        (by show 64 + (l.val - 64) = l.val; omega)
    · rw [dif_neg h']
      exact concatenate_apply_piece (t := S800000x129) 1 [⟨S800000x64, ya⟩, ⟨S800000x64, yb⟩, ⟨S800000x1, yd⟩]
        concatenates_S800000x64_S800000x64_S800000x1_S800000x129_d1 (ix2 r l) 2 (by show 2 < 3; omega) S800000x1 yd rfl rfl 128 rfl
        (ix2 r 0)
        (fun b => match b with
          | ⟨0, _⟩ => fun _ => rfl
          | ⟨1, _⟩ => fun hb => absurd rfl hb)
        (by show 128 + 0 = l.val; have := l.isLt; omega)

/-- Two matrices of 64 columns joined along the columns, read at (r, l): column l of the 128-long row made
    of row r of each. -/
theorem cat2_read (ya yb : Mat 50000 64) (r : Fin 50000) (l : Fin 128) :
    concatenate S50000x128 1 [⟨S50000x64, ya⟩, ⟨S50000x64, yb⟩] concatenates_S50000x64_S50000x64_S50000x128_d1 (ix2 r l)
      = cat2 (row ya r) (row yb r) l := by
  unfold cat2 row
  by_cases h : l.val < 64
  · rw [dif_pos h]
    exact concatenate_apply_piece (t := S50000x128) 1 [⟨S50000x64, ya⟩, ⟨S50000x64, yb⟩]
      concatenates_S50000x64_S50000x64_S50000x128_d1 (ix2 r l) 0 (by show 0 < 2; omega) S50000x64 ya rfl rfl 0 rfl
      (ix2 r ⟨l.val, h⟩)
      (fun b => match b with
        | ⟨0, _⟩ => fun _ => rfl
        | ⟨1, _⟩ => fun hb => absurd rfl hb)
      (by show 0 + l.val = l.val; omega)
  · rw [dif_neg h]
    exact concatenate_apply_piece (t := S50000x128) 1 [⟨S50000x64, ya⟩, ⟨S50000x64, yb⟩]
      concatenates_S50000x64_S50000x64_S50000x128_d1 (ix2 r l) 1 (by show 1 < 2; omega) S50000x64 yb rfl rfl 64 rfl
      (ix2 r ⟨l.val - 64, by have := l.isLt; omega⟩)
      (fun b => match b with
        | ⟨0, _⟩ => fun _ => rfl
        | ⟨1, _⟩ => fun hb => absurd rfl hb)
      (by show 64 + (l.val - 64) = l.val; omega)

/-- The reference's messages are the specification's, of the gathered rows and the squared distances. -/
theorem msg_eq (x0 : (⟨S50000x64, .f32⟩ : BufTy).Contents (Elt Ideal)) (x1 : (⟨S50000x2, .f32⟩ : BufTy).Contents (Elt Ideal)) (x2 : (⟨S50000x64, .f32⟩ : BufTy).Contents (Elt Ideal)) (x3 : (⟨S129x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x15 : (⟨S2x800000, .i32⟩ : BufTy).Contents (Elt Ideal)) :
    val_main_v47 (F := Ideal) x0 x1 x2 x3 x4 x5 x6 x15 = msg (n := 800000) (val_main_v29 (F := Ideal) x0 x2 x15) (val_main_v36 (F := Ideal) x0 x2 x15) (val_main_v22 (F := Ideal) x1 x15) x3 x4 x5 x6 := by
  funext i
  obtain ⟨r, j, rfl⟩ : ∃ (r : Fin 800000) (j : Fin 64), i = ix2 r j := ⟨_, _, eq_ix2 i⟩
  rw [msg_ix2]
  -- the first layer before its activation, at (r, k)
  have h41 : ∀ k : Fin 64, val_main_v41 (F := Ideal) x0 x1 x2 x3 x4 x15 (ix2 r k) = dense (cat3 (row (val_main_v29 (F := Ideal) x0 x2 x15) r) (row (val_main_v36 (F := Ideal) x0 x2 x15) r) (val_main_v22 (F := Ideal) x1 x15 (ix2 r 0))) x3 x4 k := by
    intro k
    rw [val_main_v41_apply, val_main_v38_apply, val_main_v40_apply, val_main_v39_apply, Ideal.addf_def]
    unfold dense
    refine congrArg₂ (fun a b : EReal => a + b) (Finset.sum_congr rfl fun l _ => ?_) (congrArg x4 (idx1_eq k _ rfl))
    rw [idx2_eq r l (lidx_main_v38 (ix2 r k) l) rfl rfl, idx2_eq l k (ridx_main_v38 (ix2 r k) l) rfl rfl]
    unfold val_main_v37
    rw [cat3_read]
  have h42 : ∀ k : Fin 64, val_main_v42 (F := Ideal) x0 x1 x2 x3 x4 x15 (ix2 r k) = silu (val_main_v41 (F := Ideal) x0 x1 x2 x3 x4 x15 (ix2 r k)) := by
    intro k
    rw [val_main_v42_apply, val_main_call0_v5_apply, val_main_call0_v4_apply, val_main_call0_cst_0_apply,
      val_main_call0_v3_apply, val_main_call0_v2_apply, val_main_call0_cst_apply, val_main_call0_v1_apply,
      val_main_call0_v0_apply]
    exact silu_expand _
  -- the second layer before its activation, at (r, j)
  have h46 : val_main_v46 (F := Ideal) x0 x1 x2 x3 x4 x5 x6 x15 (ix2 r j) = dense (fun k => val_main_v42 (F := Ideal) x0 x1 x2 x3 x4 x15 (ix2 r k)) x5 x6 j := by
    rw [val_main_v46_apply, val_main_v43_apply, val_main_v45_apply, val_main_v44_apply, Ideal.addf_def]
    unfold dense
    refine congrArg₂ (fun a b : EReal => a + b) (Finset.sum_congr rfl fun l _ => ?_) (congrArg x6 (idx1_eq j _ rfl))
    rw [idx2_eq r l (lidx_main_v43 (ix2 r j) l) rfl rfl, idx2_eq l j (ridx_main_v43 (ix2 r j) l) rfl rfl]
  have h47 : val_main_v47 (F := Ideal) x0 x1 x2 x3 x4 x5 x6 x15 (ix2 r j) = silu (val_main_v46 (F := Ideal) x0 x1 x2 x3 x4 x5 x6 x15 (ix2 r j)) := by
    rw [val_main_v47_apply, val_main_call1_v5_apply, val_main_call1_v4_apply, val_main_call1_cst_0_apply,
      val_main_call1_v3_apply, val_main_call1_v2_apply, val_main_call1_cst_apply, val_main_call1_v1_apply,
      val_main_call1_v0_apply]
    exact silu_expand _
  rw [h47, h46, show (fun k => val_main_v42 (F := Ideal) x0 x1 x2 x3 x4 x15 (ix2 r k)) = fun k => silu (dense (cat3 (row (val_main_v29 (F := Ideal) x0 x2 x15) r) (row (val_main_v36 (F := Ideal) x0 x2 x15) r) (val_main_v22 (F := Ideal) x1 x15 (ix2 r 0))) x3 x4 k)
    from funext fun k => (h42 k).trans (congrArg silu (h41 k))]
  rfl

/-- The reference's hidden layer of the coordinate weight is the specification's, of the messages. -/
theorem gate_eq (x0 : (⟨S50000x64, .f32⟩ : BufTy).Contents (Elt Ideal)) (x1 : (⟨S50000x2, .f32⟩ : BufTy).Contents (Elt Ideal)) (x2 : (⟨S50000x64, .f32⟩ : BufTy).Contents (Elt Ideal)) (x3 : (⟨S129x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x15 : (⟨S2x800000, .i32⟩ : BufTy).Contents (Elt Ideal)) :
    val_main_v52 (F := Ideal) x0 x1 x2 x3 x4 x5 x6 x7 x8 x15 = gate (n := 800000) (val_main_v47 (F := Ideal) x0 x1 x2 x3 x4 x5 x6 x15) x7 x8 := by
  funext i
  obtain ⟨r, j, rfl⟩ : ∃ (r : Fin 800000) (j : Fin 64), i = ix2 r j := ⟨_, _, eq_ix2 i⟩
  rw [gate_ix2]
  have h51 : val_main_v51 (F := Ideal) x0 x1 x2 x3 x4 x5 x6 x7 x8 x15 (ix2 r j) = dense (row (val_main_v47 (F := Ideal) x0 x1 x2 x3 x4 x5 x6 x15) r) x7 x8 j := by
    unfold row
    rw [val_main_v51_apply, val_main_v48_apply, val_main_v50_apply, val_main_v49_apply, Ideal.addf_def]
    unfold dense
    refine congrArg₂ (fun a b : EReal => a + b) (Finset.sum_congr rfl fun l _ => ?_) (congrArg x8 (idx1_eq j _ rfl))
    rw [idx2_eq r l (lidx_main_v48 (ix2 r j) l) rfl rfl, idx2_eq l j (ridx_main_v48 (ix2 r j) l) rfl rfl]
  have h52 : val_main_v52 (F := Ideal) x0 x1 x2 x3 x4 x5 x6 x7 x8 x15 (ix2 r j) = silu (val_main_v51 (F := Ideal) x0 x1 x2 x3 x4 x5 x6 x7 x8 x15 (ix2 r j)) := by
    rw [val_main_v52_apply, val_main_call2_v5_apply, val_main_call2_v4_apply, val_main_call2_cst_0_apply,
      val_main_call2_v3_apply, val_main_call2_v2_apply, val_main_call2_cst_apply, val_main_call2_v1_apply,
      val_main_call2_v0_apply]
    exact silu_expand _
  rw [h52, h51]
  rfl

/-- The reference's weighted relative positions are the specification's. -/
theorem relw_eq (x0 : (⟨S50000x64, .f32⟩ : BufTy).Contents (Elt Ideal)) (x1 : (⟨S50000x2, .f32⟩ : BufTy).Contents (Elt Ideal)) (x2 : (⟨S50000x64, .f32⟩ : BufTy).Contents (Elt Ideal)) (x3 : (⟨S129x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x1, .f32⟩ : BufTy).Contents (Elt Ideal)) (x10 : (⟨S1, .f32⟩ : BufTy).Contents (Elt Ideal)) (x15 : (⟨S2x800000, .i32⟩ : BufTy).Contents (Elt Ideal)) :
    val_main_v62 (F := Ideal) x0 x1 x2 x3 x4 x5 x6 x7 x8 x9 x10 x15 = relw (n := 800000) (val_main_v19 (F := Ideal) x1 x15) (val_main_v52 (F := Ideal) x0 x1 x2 x3 x4 x5 x6 x7 x8 x15) x9 x10 := by
  funext i
  obtain ⟨r, p, rfl⟩ : ∃ (r : Fin 800000) (p : Fin 2), i = ix2 r p := ⟨_, _, eq_ix2 i⟩
  -- the weight of edge r: the last affine layer, of one output
  have h56 : val_main_v56 (F := Ideal) x0 x1 x2 x3 x4 x5 x6 x7 x8 x9 x10 x15 (ix2 r (0 : Fin 1)) = coordWeight (row (val_main_v52 (F := Ideal) x0 x1 x2 x3 x4 x5 x6 x7 x8 x15) r) x9 x10 := by
    unfold coordWeight row
    rw [val_main_v56_apply, val_main_v53_apply, val_main_v55_apply, val_main_v54_apply, Ideal.addf_def]
    unfold dense
    refine congrArg₂ (fun a b : EReal => a + b) (Finset.sum_congr rfl fun l _ => ?_) (congrArg x10 (idx1_eq (0 : Fin 1) _ rfl))
    rw [idx2_eq r l (lidx_main_v53 (ix2 r (0 : Fin 1)) l) rfl rfl, idx2_eq l (0 : Fin 1) (ridx_main_v53 (ix2 r (0 : Fin 1)) l) rfl rfl]
  rw [relw_ix2, val_main_v62_apply, val_main_v61_apply, Ideal.mulf_def,
    idx2_eq r (0 : Fin 1) (idx_main_v61 (ix2 r p)) rfl rfl, h56]

/-- The reference's new features are the specification's, of the summed features and the summed messages. -/
theorem nodeH_eq (x0 : (⟨S50000x64, .f32⟩ : BufTy).Contents (Elt Ideal)) (x1 : (⟨S50000x2, .f32⟩ : BufTy).Contents (Elt Ideal)) (x2 : (⟨S50000x64, .f32⟩ : BufTy).Contents (Elt Ideal)) (x3 : (⟨S129x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x11 : (⟨S128x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S2x800000, .i32⟩ : BufTy).Contents (Elt Ideal)) :
    val_main_v84 (F := Ideal) x0 x1 x2 x3 x4 x5 x6 x11 x12 x13 x14 x15 = nodeH (n := 50000) (val_main_v0 (F := Ideal) x0 x2) (val_main_v73 (F := Ideal) x0 x1 x2 x3 x4 x5 x6 x15) x11 x12 x13 x14 := by
  funext i
  obtain ⟨r, j, rfl⟩ : ∃ (r : Fin 50000) (j : Fin 64), i = ix2 r j := ⟨_, _, eq_ix2 i⟩
  rw [nodeH_ix2]
  have h78 : ∀ k : Fin 64, val_main_v78 (F := Ideal) x0 x1 x2 x3 x4 x5 x6 x11 x12 x15 (ix2 r k) = dense (cat2 (row (val_main_v0 (F := Ideal) x0 x2) r) (row (val_main_v73 (F := Ideal) x0 x1 x2 x3 x4 x5 x6 x15) r)) x11 x12 k := by
    intro k
    rw [val_main_v78_apply, val_main_v75_apply, val_main_v77_apply, val_main_v76_apply, Ideal.addf_def]
    unfold dense
    refine congrArg₂ (fun a b : EReal => a + b) (Finset.sum_congr rfl fun l _ => ?_) (congrArg x12 (idx1_eq k _ rfl))
    rw [idx2_eq r l (lidx_main_v75 (ix2 r k) l) rfl rfl, idx2_eq l k (ridx_main_v75 (ix2 r k) l) rfl rfl]
    unfold val_main_v74
    rw [cat2_read]
  have h79 : ∀ k : Fin 64, val_main_v79 (F := Ideal) x0 x1 x2 x3 x4 x5 x6 x11 x12 x15 (ix2 r k) = silu (val_main_v78 (F := Ideal) x0 x1 x2 x3 x4 x5 x6 x11 x12 x15 (ix2 r k)) := by
    intro k
    rw [val_main_v79_apply, val_main_call3_v5_apply, val_main_call3_v4_apply, val_main_call3_cst_0_apply,
      val_main_call3_v3_apply, val_main_call3_v2_apply, val_main_call3_cst_apply, val_main_call3_v1_apply,
      val_main_call3_v0_apply]
    exact silu_expand _
  have h83 : val_main_v83 (F := Ideal) x0 x1 x2 x3 x4 x5 x6 x11 x12 x13 x14 x15 (ix2 r j) = dense (fun k => val_main_v79 (F := Ideal) x0 x1 x2 x3 x4 x5 x6 x11 x12 x15 (ix2 r k)) x13 x14 j := by
    rw [val_main_v83_apply, val_main_v80_apply, val_main_v82_apply, val_main_v81_apply, Ideal.addf_def]
    unfold dense
    refine congrArg₂ (fun a b : EReal => a + b) (Finset.sum_congr rfl fun l _ => ?_) (congrArg x14 (idx1_eq j _ rfl))
    rw [idx2_eq r l (lidx_main_v80 (ix2 r j) l) rfl rfl, idx2_eq l j (ridx_main_v80 (ix2 r j) l) rfl rfl]
  rw [val_main_v84_apply, Ideal.addf_def, h83, show (fun k => val_main_v79 (F := Ideal) x0 x1 x2 x3 x4 x5 x6 x11 x12 x15 (ix2 r k)) = fun k => silu (dense (cat2 (row (val_main_v0 (F := Ideal) x0 x2) r) (row (val_main_v73 (F := Ideal) x0 x1 x2 x3 x4 x5 x6 x15) r)) x11 x12 k)
    from funext fun k => (h79 k).trans (congrArg silu (h78 k))]
  rfl

/-- The reference's new positions are the specification's, the degree vector read as a column. -/
theorem nodeP_eq (x0 : (⟨S50000x64, .f32⟩ : BufTy).Contents (Elt Ideal)) (x1 : (⟨S50000x2, .f32⟩ : BufTy).Contents (Elt Ideal)) (x2 : (⟨S50000x64, .f32⟩ : BufTy).Contents (Elt Ideal)) (x3 : (⟨S129x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x1, .f32⟩ : BufTy).Contents (Elt Ideal)) (x10 : (⟨S1, .f32⟩ : BufTy).Contents (Elt Ideal)) (x15 : (⟨S2x800000, .i32⟩ : BufTy).Contents (Elt Ideal)) :
    val_main_v85 (F := Ideal) x0 x1 x2 x3 x4 x5 x6 x7 x8 x9 x10 x15 = nodeP (n := 50000) x1 (val_main_v65 (F := Ideal) x0 x1 x2 x3 x4 x5 x6 x7 x8 x9 x10 x15)
      (fun i => val_main_v60 (F := Ideal) x15 (ix1 ⟨(i 0).val, idx2_lt0 i⟩)) := by
  funext i
  obtain ⟨r, p, rfl⟩ : ∃ (r : Fin 50000) (p : Fin 2), i = ix2 r p := ⟨_, _, eq_ix2 i⟩
  rw [nodeP_ix2, val_main_v85_apply, val_main_v70_apply, val_main_v69_apply, val_main_v68_apply, val_main_v67_apply,
    val_main_v66_apply, val_main_cst_10_apply, idx1_eq r (idx_main_v68 (idx_main_v69 (ix2 r p))) rfl,
    Ideal.addf_def, Ideal.hostDivf_def, Ideal.maximumf_def, Ideal.ofBits_def]

end Cert.RefSpec

end
-- ==== Proof.EdgeArr.lean ====
/-
  The first kernel region, from blocks to arrays.

  The region walks 250 grid points; point t stages rows 3200 t … 3200 t + 3199 of the four edge-indexed arrays
  (gathered destination features, gathered source features, squared distances, relative positions), stages the eight
  weight and bias arrays whole, and writes back rows 3200 t … 3200 t + 3199 of its two results. Every function of
  the specification is row-local, so the block a point writes back is the same rows of the specification applied
  to the whole arrays; the 250 blocks tile the 800000 rows, so after the last point each result array IS the
  specification of the whole arrays: the messages, and the relative positions scaled by the coordinate weights.

  What the kernel body computes on one block is taken here as a hypothesis (the body's payloads equal the
  specification at 3200 rows); this module only carries those block equations to the arrays.
-/
import proofs.«419480_j27238682591241_1_alg».proof.Proof.Gen.KernelIdeal.Frame
import proofs.«419480_j27238682591241_1_alg».proof.Proof.Spec
import Idealize.ShloMosaic.PureOps.Ideal
import Idealize.ShloMosaic.Lib.Pipeline.Value
import Idealize.ShloMosaic.Lib.ValueIdx

noncomputable section

namespace Cert.KArrEdge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Zero offsets, however spelt -/

theorem zero2 : (![0, 0] : Fin 2 → Nat) = fun _ => 0 := funext fun a => by fin_cases a <;> rfl
theorem zero1 : (![0] : Fin 1 → Nat) = fun _ => 0 := funext fun a => by fin_cases a; rfl

/-! ## The index maps over the 250 grid points

The row-blocked windows (both gathered feature arrays, the squared distances, the relative positions, and the two
results) sit at block row t, block column 0; the weight windows always at block 0. -/

theorem index_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

theorem index_weights : ∀ t : Fin cfg0.N,
    (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ win0_11.index t (0 : Fin 1) = 0 :=
  (by decide +kernel : ∀ t : Fin grid0.N, _)

theorem points : cfg0.N = 250 := N_0

/-! ## The windows' blocks as parts of their arrays -/

/-- Row r of the destination-feature block at point t is row 3200 t + r of the gathered destination features. -/
theorem dstBlk_apply (c : Dev nD) (t : Fin cfg0.N) (r : Fin 3200) (l : Fin 64) (R : Fin 800000)
    (hR : R.val = 3200 * t.val + r.val) :
    (iblk0 V c 0 t : S3200x64.Idx → EReal) (ix2 r l) = (V c main_v5 : S800000x64.Idx → EReal) (ix2 R l) := by
  have e := index_rows t
  unfold iblk0
  rw [View.read_apply]
  show V c main_v5 _ = V c main_v5 _
  congr 1
  funext a
  apply Fin.ext
  match a with
  | ⟨0, _⟩ => show win0_0.index t (0 : Fin 2) * 3200 + 1 * r.val = R.val; rw [hR]; omega
  | ⟨1, _⟩ => show win0_0.index t (1 : Fin 2) * 64 + 1 * l.val = l.val; omega

/-- Row r of the source-feature block at point t is row 3200 t + r of the gathered source features. -/
theorem srcBlk_apply (c : Dev nD) (t : Fin cfg0.N) (r : Fin 3200) (l : Fin 64) (R : Fin 800000)
    (hR : R.val = 3200 * t.val + r.val) :
    (iblk0 V c 1 t : S3200x64.Idx → EReal) (ix2 r l) = (V c main_v6 : S800000x64.Idx → EReal) (ix2 R l) := by
  have e := index_rows t
  unfold iblk0
  rw [View.read_apply]
  show V c main_v6 _ = V c main_v6 _
  congr 1
  funext a
  apply Fin.ext
  match a with
  | ⟨0, _⟩ => show win0_1.index t (0 : Fin 2) * 3200 + 1 * r.val = R.val; rw [hR]; omega
  | ⟨1, _⟩ => show win0_1.index t (1 : Fin 2) * 64 + 1 * l.val = l.val; omega

/-- Row r of the squared-distance block at point t is row 3200 t + r of the squared distances. -/
theorem distBlk_apply (c : Dev nD) (t : Fin cfg0.N) (r : Fin 3200) (l : Fin 1) (R : Fin 800000)
    (hR : R.val = 3200 * t.val + r.val) :
    (iblk0 V c 2 t : S3200x1.Idx → EReal) (ix2 r l) = (V c main_v12 : S800000x1.Idx → EReal) (ix2 R l) := by
  have e := index_rows t
  unfold iblk0
  rw [View.read_apply]
  show V c main_v12 _ = V c main_v12 _
  congr 1
  funext a
  apply Fin.ext
  match a with
  | ⟨0, _⟩ => show win0_2.index t (0 : Fin 2) * 3200 + 1 * r.val = R.val; rw [hR]; omega
  | ⟨1, _⟩ => show win0_2.index t (1 : Fin 2) * 1 + 1 * l.val = l.val; omega

/-- Row r of the relative-position block at point t is row 3200 t + r of the relative positions. -/
theorem relBlk_apply (c : Dev nD) (t : Fin cfg0.N) (r : Fin 3200) (l : Fin 2) (R : Fin 800000)
    (hR : R.val = 3200 * t.val + r.val) :
    (iblk0 V c 3 t : S3200x2.Idx → EReal) (ix2 r l) = (V c main_v9 : S800000x2.Idx → EReal) (ix2 R l) := by
  have e := index_rows t
  unfold iblk0
  rw [View.read_apply]
  show V c main_v9 _ = V c main_v9 _
  congr 1
  funext a
  apply Fin.ext
  match a with
  | ⟨0, _⟩ => show win0_3.index t (0 : Fin 2) * 3200 + 1 * r.val = R.val; rw [hR]; omega
  | ⟨1, _⟩ => show win0_3.index t (1 : Fin 2) * 2 + 1 * l.val = l.val; omega

/-- The first message layer's weight window is its whole array at every point. -/
theorem w1Blk_eq (c : Dev nD) (t : Fin cfg0.N) : (iblk0 V c 4 t : S129x64.Idx → EReal) = (V c main_arg3 : S129x64.Idx → EReal) := by
  have e := index_weights t
  funext y
  unfold iblk0
  rw [View.read_apply]
  show V c main_arg3 _ = V c main_arg3 _
  congr 1
  funext a
  apply Fin.ext
  match a with
  | ⟨0, _⟩ => show win0_4.index t (0 : Fin 2) * 129 + 1 * (y 0).val = (y 0).val; omega
  | ⟨1, _⟩ => show win0_4.index t (1 : Fin 2) * 64 + 1 * (y 1).val = (y 1).val; omega

/-- The first message layer's bias window is its whole array at every point. -/
theorem b1Blk_eq (c : Dev nD) (t : Fin cfg0.N) : (iblk0 V c 5 t : S64.Idx → EReal) = (V c main_arg4 : S64.Idx → EReal) := by
  have e := index_weights t
  funext y
  unfold iblk0
  rw [View.read_apply]
  show V c main_arg4 _ = V c main_arg4 _
  congr 1
  funext a
  apply Fin.ext
  match a with
  | ⟨0, _⟩ => show win0_5.index t (0 : Fin 1) * 64 + 1 * (y 0).val = (y 0).val; omega

/-- The second message layer's weight window is its whole array at every point. -/
theorem w2Blk_eq (c : Dev nD) (t : Fin cfg0.N) : (iblk0 V c 6 t : S64x64.Idx → EReal) = (V c main_arg5 : S64x64.Idx → EReal) := by
  have e := index_weights t
  funext y
  unfold iblk0
  rw [View.read_apply]
  show V c main_arg5 _ = V c main_arg5 _
  congr 1
  funext a
  apply Fin.ext
  match a with
  | ⟨0, _⟩ => show win0_6.index t (0 : Fin 2) * 64 + 1 * (y 0).val = (y 0).val; omega
  | ⟨1, _⟩ => show win0_6.index t (1 : Fin 2) * 64 + 1 * (y 1).val = (y 1).val; omega

/-- The second message layer's bias window is its whole array at every point. -/
theorem b2Blk_eq (c : Dev nD) (t : Fin cfg0.N) : (iblk0 V c 7 t : S64.Idx → EReal) = (V c main_arg6 : S64.Idx → EReal) := by
  have e := index_weights t
  funext y
  unfold iblk0
  rw [View.read_apply]
  show V c main_arg6 _ = V c main_arg6 _
  congr 1
  funext a
  apply Fin.ext
  match a with
  | ⟨0, _⟩ => show win0_7.index t (0 : Fin 1) * 64 + 1 * (y 0).val = (y 0).val; omega

/-- The coordinate weight's hidden-layer weight window is its whole array at every point. -/
theorem wp1Blk_eq (c : Dev nD) (t : Fin cfg0.N) : (iblk0 V c 8 t : S64x64.Idx → EReal) = (V c main_arg7 : S64x64.Idx → EReal) := by
  have e := index_weights t
  funext y
  unfold iblk0
  rw [View.read_apply]
  show V c main_arg7 _ = V c main_arg7 _
  congr 1
  funext a
  apply Fin.ext
  match a with
  | ⟨0, _⟩ => show win0_8.index t (0 : Fin 2) * 64 + 1 * (y 0).val = (y 0).val; omega
  | ⟨1, _⟩ => show win0_8.index t (1 : Fin 2) * 64 + 1 * (y 1).val = (y 1).val; omega

/-- The coordinate weight's hidden-layer bias window is its whole array at every point. -/
theorem bp1Blk_eq (c : Dev nD) (t : Fin cfg0.N) : (iblk0 V c 9 t : S64.Idx → EReal) = (V c main_arg8 : S64.Idx → EReal) := by
  have e := index_weights t
  funext y
  unfold iblk0
  rw [View.read_apply]
  show V c main_arg8 _ = V c main_arg8 _
  congr 1
  funext a
  apply Fin.ext
  match a with
  | ⟨0, _⟩ => show win0_9.index t (0 : Fin 1) * 64 + 1 * (y 0).val = (y 0).val; omega

/-- The coordinate weight's output weight window is its whole array at every point. -/
theorem wp2Blk_eq (c : Dev nD) (t : Fin cfg0.N) : (iblk0 V c 10 t : S64x1.Idx → EReal) = (V c main_arg9 : S64x1.Idx → EReal) := by
  have e := index_weights t
  funext y
  unfold iblk0
  rw [View.read_apply]
  show V c main_arg9 _ = V c main_arg9 _
  congr 1
  funext a
  apply Fin.ext
  match a with
  | ⟨0, _⟩ => show win0_10.index t (0 : Fin 2) * 64 + 1 * (y 0).val = (y 0).val; omega
  | ⟨1, _⟩ => show win0_10.index t (1 : Fin 2) * 1 + 1 * (y 1).val = (y 1).val; omega

/-- The coordinate weight's output bias window is its whole array at every point. -/
theorem bp2Blk_eq (c : Dev nD) (t : Fin cfg0.N) : (iblk0 V c 11 t : S1.Idx → EReal) = (V c main_arg10 : S1.Idx → EReal) := by
  have e := index_weights t
  funext y
  unfold iblk0
  rw [View.read_apply]
  show V c main_arg10 _ = V c main_arg10 _
  congr 1
  funext a
  apply Fin.ext
  match a with
  | ⟨0, _⟩ => show win0_11.index t (0 : Fin 1) * 1 + 1 * (y 0).val = (y 0).val; omega

/-! ## The results' blocks cover their arrays -/

/-- An index of the message array is in point t's block iff, on each axis, it is in the block's range. -/
theorem msg_mem_blk (t : Fin cfg0.N) (i : S800000x64.Idx) :
    i ∈ ((cfg0.win 12).blk t).view.set ↔ ∀ a : Fin 2, win0_12.index t a * S3200x64.size a ≤ (i a).val ∧ (i a).val < win0_12.index t a * S3200x64.size a + S3200x64.size a := by
  show i ∈ ((View.whole main_v13_0).slice (win0_12.rect t)).set ↔ _
  rw [View.set_slice_whole, Rect.mem_set_unit]
  exact Iff.rfl

/-- Row R of the message array is in the block of point R / 3200, and every point writes its block back. -/
theorem msg_cover (i : S800000x64.Idx) :
    ∃ t : Fin cfg0.N, (cfg0.win 12).flush t = true ∧ i ∈ ((cfg0.win 12).blk t).view.set := by
  have hN : cfg0.N = 250 := N_0
  have hi0 : (i 0).val < 800000 := (i 0).isLt
  have hi1 : (i 1).val < 64 := (i 1).isLt
  obtain ⟨t, htv⟩ : ∃ t : Fin cfg0.N, t.val = (i 0).val / 3200 := ⟨⟨(i 0).val / 3200, by rw [hN]; omega⟩, rfl⟩
  obtain ⟨-, -, -, -, ⟨e0, e1⟩, -⟩ := index_rows t
  refine ⟨t, flush0_12 t, ?_⟩
  rw [msg_mem_blk]
  intro a
  match a with
  | ⟨0, _⟩ =>
    show win0_12.index t (0 : Fin 2) * 3200 ≤ (i 0).val ∧ (i 0).val < win0_12.index t (0 : Fin 2) * 3200 + 3200
    rw [e0, htv]; omega
  | ⟨1, _⟩ =>
    show win0_12.index t (1 : Fin 2) * 64 ≤ (i 1).val ∧ (i 1).val < win0_12.index t (1 : Fin 2) * 64 + 64
    rw [e1]; omega

/-- An index of the weighted-relative-position array is in point t's block iff, on each axis, it is in the block's range. -/
theorem relw_mem_blk (t : Fin cfg0.N) (i : S800000x2.Idx) :
    i ∈ ((cfg0.win 13).blk t).view.set ↔ ∀ a : Fin 2, win0_13.index t a * S3200x2.size a ≤ (i a).val ∧ (i a).val < win0_13.index t a * S3200x2.size a + S3200x2.size a := by
  show i ∈ ((View.whole main_v13_1).slice (win0_13.rect t)).set ↔ _
  rw [View.set_slice_whole, Rect.mem_set_unit]
  exact Iff.rfl

/-- Row R of the weighted-relative-position array is in the block of point R / 3200, and every point writes its block back. -/
theorem relw_cover (i : S800000x2.Idx) :
    ∃ t : Fin cfg0.N, (cfg0.win 13).flush t = true ∧ i ∈ ((cfg0.win 13).blk t).view.set := by
  have hN : cfg0.N = 250 := N_0
  have hi0 : (i 0).val < 800000 := (i 0).isLt
  have hi1 : (i 1).val < 2 := (i 1).isLt
  obtain ⟨t, htv⟩ : ∃ t : Fin cfg0.N, t.val = (i 0).val / 3200 := ⟨⟨(i 0).val / 3200, by rw [hN]; omega⟩, rfl⟩
  obtain ⟨-, -, -, -, -, e0, e1⟩ := index_rows t
  refine ⟨t, flush0_13 t, ?_⟩
  rw [relw_mem_blk]
  intro a
  match a with
  | ⟨0, _⟩ =>
    show win0_13.index t (0 : Fin 2) * 3200 ≤ (i 0).val ∧ (i 0).val < win0_13.index t (0 : Fin 2) * 3200 + 3200
    rw [e0, htv]; omega
  | ⟨1, _⟩ =>
    show win0_13.index t (1 : Fin 2) * 2 ≤ (i 1).val ∧ (i 1).val < win0_13.index t (1 : Fin 2) * 2 + 2
    rw [e1]; omega

/-! ## What each point writes back -/

/-- Point t writes back block t of the messages of all 800000 edges. -/
theorem flushed_msg (hpay3 : ∀ v0 v2 v4 v9 v13 v19 v23, k0_pay3 (F := Ideal) v0 v2 v4 v9 v13 v19 v23 = Cert.Spec.msg (n := 3200) v0 v2 v4 v9 v13 v19 v23)
    (c : Dev nD) (t : Fin cfg0.N) :
    (dat0 (F := Ideal) V c).flushed 12 t = ((cfg0.win 12).blk t).view.read (Elt Ideal)
      (Cert.Spec.msg (n := 800000) (V c main_v5) (V c main_v6) (V c main_v12) (V c main_arg3) (V c main_arg4) (V c main_arg5) (V c main_arg6)) := by
  show (cfg0.win 12).cut (grid0.coords t) ((dat0 V c).after 12 t) = _
  rw [after0_12]
  unfold out0_12
  rw [View.canon_unit_zero zero2]
  simp only [View.ld_unit_zero (S := S3200x64) zero2, View.ld_unit_zero (S := S3200x1) zero2, View.ld_unit_zero (S := S129x64) zero2,
    View.ld_unit_zero (S := S64x64) zero2, View.ld_unit_zero (S := S64) zero1]
  rw [hpay3]
  refine funext fun (j : S3200x64.Idx) => ?_
  obtain ⟨r, l, rfl⟩ : ∃ (r : Fin 3200) (l : Fin 64), j = ix2 r l := ⟨j 0, j 1, eq_ix2 j⟩
  have hN : cfg0.N = 250 := N_0
  have ht : t.val < 250 := Nat.lt_of_lt_of_eq t.isLt hN
  have hR : 3200 * t.val + r.val < 800000 := by omega
  have hemb : ((cfg0.win 12).blk t).view.emb (ix2 r l) = (ix2 ⟨3200 * t.val + r.val, hR⟩ l : S800000x64.Idx) := by
    obtain ⟨-, -, -, -, ⟨e0, e1⟩, -⟩ := index_rows t
    funext a; apply Fin.ext
    match a with
    | ⟨0, _⟩ => show win0_12.index t (0 : Fin 2) * 3200 + 1 * r.val = 3200 * t.val + r.val; rw [e0]; omega
    | ⟨1, _⟩ => show win0_12.index t (1 : Fin 2) * 64 + 1 * l.val = l.val; rw [e1]; omega
  show Cert.Spec.msg (n := 3200) (iblk0 V c 0 t) (iblk0 V c 1 t) (iblk0 V c 2 t) (iblk0 V c 4 t) (iblk0 V c 5 t) (iblk0 V c 6 t) (iblk0 V c 7 t) (ix2 r l)
     = Cert.Spec.msg (n := 800000) (V c main_v5) (V c main_v6) (V c main_v12) (V c main_arg3) (V c main_arg4) (V c main_arg5) (V c main_arg6) (((cfg0.win 12).blk t).view.emb (ix2 r l))
  rw [hemb, w1Blk_eq, b1Blk_eq, w2Blk_eq, b2Blk_eq]
  exact Cert.Spec.msg_rows _ _ _ _ _ _ _ _ _ _ r ⟨_, hR⟩ l (fun l' => dstBlk_apply V c t r l' _ rfl) (fun l' => srcBlk_apply V c t r l' _ rfl) (distBlk_apply V c t r 0 _ rfl)

/-- After all 250 points the first result array holds the messages of all 800000 edges. -/
theorem edge_msg_arr (hpay3 : ∀ v0 v2 v4 v9 v13 v19 v23, k0_pay3 (F := Ideal) v0 v2 v4 v9 v13 v19 v23 = Cert.Spec.msg (n := 3200) v0 v2 v4 v9 v13 v19 v23) (c : Dev nD) :
    (dat0 (F := Ideal) V c).arrAt 12 cfg0.N = Cert.Spec.msg (n := 800000) (V c main_v5) (V c main_v6) (V c main_v12) (V c main_arg3) (V c main_arg4) (V c main_arg5) (V c main_arg6) :=
  (dat0 (F := Ideal) V c).arrAt_eq_of_cover 12 _ (fun t _ => flushed_msg V hpay3 c t) msg_cover

/-- Point t writes back block t of the weighted relative positions of all 800000 edges. -/
theorem flushed_relw (hpay1 : ∀ v7 v38 v39 v43, k0_pay1 (F := Ideal) v7 v38 v39 v43 = Cert.Spec.relw (n := 3200) v7 v38 v39 v43)
    (hpay2 : ∀ v6, k0_pay2 (F := Ideal) v6 = v6)
    (hpay4 : ∀ v0 v2 v4 v9 v13 v19 v23 v29 v33, k0_pay4 (F := Ideal) v0 v2 v4 v9 v13 v19 v23 v29 v33 = Cert.Spec.gate (n := 3200) (Cert.Spec.msg (n := 3200) v0 v2 v4 v9 v13 v19 v23) v29 v33)
    (c : Dev nD) (t : Fin cfg0.N) :
    (dat0 (F := Ideal) V c).flushed 13 t = ((cfg0.win 13).blk t).view.read (Elt Ideal)
      (Cert.Spec.relw (n := 800000) (V c main_v9) (Cert.Spec.gate (n := 800000) (Cert.Spec.msg (n := 800000) (V c main_v5) (V c main_v6) (V c main_v12) (V c main_arg3) (V c main_arg4) (V c main_arg5) (V c main_arg6)) (V c main_arg7) (V c main_arg8)) (V c main_arg9) (V c main_arg10)) := by
  show (cfg0.win 13).cut (grid0.coords t) ((dat0 V c).after 13 t) = _
  rw [after0_13]
  unfold out0_13
  rw [View.canon_unit_zero zero2]
  simp only [View.ld_unit_zero (S := S3200x64) zero2, View.ld_unit_zero (S := S3200x1) zero2, View.ld_unit_zero (S := S3200x2) zero2,
    View.ld_unit_zero (S := S129x64) zero2, View.ld_unit_zero (S := S64x64) zero2, View.ld_unit_zero (S := S64x1) zero2,
    View.ld_unit_zero (S := S64) zero1, View.ld_unit_zero (S := S1) zero1]
  rw [hpay1, hpay2, hpay4]
  refine funext fun (j : S3200x2.Idx) => ?_
  obtain ⟨r, p, rfl⟩ : ∃ (r : Fin 3200) (p : Fin 2), j = ix2 r p := ⟨j 0, j 1, eq_ix2 j⟩
  have hN : cfg0.N = 250 := N_0
  have ht : t.val < 250 := Nat.lt_of_lt_of_eq t.isLt hN
  have hR : 3200 * t.val + r.val < 800000 := by omega
  have hemb : ((cfg0.win 13).blk t).view.emb (ix2 r p) = (ix2 ⟨3200 * t.val + r.val, hR⟩ p : S800000x2.Idx) := by
    obtain ⟨-, -, -, -, -, e0, e1⟩ := index_rows t
    funext a; apply Fin.ext
    match a with
    | ⟨0, _⟩ => show win0_13.index t (0 : Fin 2) * 3200 + 1 * r.val = 3200 * t.val + r.val; rw [e0]; omega
    | ⟨1, _⟩ => show win0_13.index t (1 : Fin 2) * 2 + 1 * p.val = p.val; rw [e1]; omega
  show Cert.Spec.relw (n := 3200) (iblk0 V c 3 t) (Cert.Spec.gate (n := 3200) (Cert.Spec.msg (n := 3200) (iblk0 V c 0 t) (iblk0 V c 1 t) (iblk0 V c 2 t) (iblk0 V c 4 t) (iblk0 V c 5 t) (iblk0 V c 6 t) (iblk0 V c 7 t)) (iblk0 V c 8 t) (iblk0 V c 9 t)) (iblk0 V c 10 t) (iblk0 V c 11 t) (ix2 r p)
     = Cert.Spec.relw (n := 800000) (V c main_v9) (Cert.Spec.gate (n := 800000) (Cert.Spec.msg (n := 800000) (V c main_v5) (V c main_v6) (V c main_v12) (V c main_arg3) (V c main_arg4) (V c main_arg5) (V c main_arg6)) (V c main_arg7) (V c main_arg8)) (V c main_arg9) (V c main_arg10) (((cfg0.win 13).blk t).view.emb (ix2 r p))
  rw [hemb, w1Blk_eq, b1Blk_eq, w2Blk_eq, b2Blk_eq, wp1Blk_eq, bp1Blk_eq, wp2Blk_eq, bp2Blk_eq]
  exact Cert.Spec.relw_rows _ _ _ _ _ _ r ⟨_, hR⟩ p (relBlk_apply V c t r p _ rfl)
    (fun l' => Cert.Spec.gate_rows _ _ _ _ r ⟨_, hR⟩ l'
      (fun l'' => Cert.Spec.msg_rows _ _ _ _ _ _ _ _ _ _ r ⟨_, hR⟩ l'' (fun k => dstBlk_apply V c t r k _ rfl) (fun k => srcBlk_apply V c t r k _ rfl) (distBlk_apply V c t r 0 _ rfl)))

/-- After all 250 points the second result array holds the weighted relative positions of all 800000 edges. -/
theorem edge_relw_arr (hpay1 : ∀ v7 v38 v39 v43, k0_pay1 (F := Ideal) v7 v38 v39 v43 = Cert.Spec.relw (n := 3200) v7 v38 v39 v43)
    (hpay2 : ∀ v6, k0_pay2 (F := Ideal) v6 = v6)
    (hpay4 : ∀ v0 v2 v4 v9 v13 v19 v23 v29 v33, k0_pay4 (F := Ideal) v0 v2 v4 v9 v13 v19 v23 v29 v33 = Cert.Spec.gate (n := 3200) (Cert.Spec.msg (n := 3200) v0 v2 v4 v9 v13 v19 v23) v29 v33)
    (c : Dev nD) :
    (dat0 (F := Ideal) V c).arrAt 13 cfg0.N = Cert.Spec.relw (n := 800000) (V c main_v9) (Cert.Spec.gate (n := 800000) (Cert.Spec.msg (n := 800000) (V c main_v5) (V c main_v6) (V c main_v12) (V c main_arg3) (V c main_arg4) (V c main_arg5) (V c main_arg6)) (V c main_arg7) (V c main_arg8)) (V c main_arg9) (V c main_arg10) :=
  (dat0 (F := Ideal) V c).arrAt_eq_of_cover 13 _ (fun t _ => flushed_relw V hpay1 hpay2 hpay4 c t) relw_cover

end Cert.KArrEdge

end
-- ==== Proof.NodeArr.lean ====
/-
  From blocks to the array, for the node update.

  The node update runs over 25 grid points; point t works on rows 2000 t … 2000 t + 1999 of the row-indexed
  arrays (node features, summed messages, positions, summed weighted relative positions, degrees) and on the
  whole of the four small weight arrays, and writes rows 2000 t … 2000 t + 1999 of the two results. The new
  features and the new positions are row-local functions, so what point t writes is block t of the function
  of the whole arrays; the 25 blocks tile the 50000 rows; hence each result array ends holding that function
  of the arrays as the update finds them.
-/
import proofs.«419480_j27238682591241_1_alg».proof.Proof.Gen.KernelIdeal.Frame
import proofs.«419480_j27238682591241_1_alg».proof.Proof.Spec
import Idealize.ShloMosaic.PureOps.Ideal
import Idealize.ShloMosaic.Lib.ValueIdx
import Idealize.ShloMosaic.Lib.Pipeline.Value

noncomputable section

namespace Cert.KArrNode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.Spec (Mat Row nodeH nodeP)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-! ## The index maps over the grid -/

/-- Every row-indexed window, input or output, sits at block (t, 0) at point t. -/
theorem row_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- Every weight window sits at block 0 at every point: its block is the whole array. -/
theorem weight_maps : ∀ t : Fin cfg1.N,
    win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-! ## Each input block, read off its array -/

/-- Row r of point t's block of the node features is row 2000 t + r of the array. -/
theorem featBlk_apply (c : Dev nD) (t : Fin cfg1.N) (r : Fin 2000) (l : Fin 64) (R : Fin 50000)
    (hR : R.val = 2000 * t.val + r.val) :
    (iblk1 V c 0 t : Vec Ideal S2000x64 .f32) (ix2 r l) = (V c main_v0 : Vec Ideal S50000x64 .f32) (ix2 R l) := by
  obtain ⟨e0, e1, -⟩ := row_maps t
  unfold iblk1
  rw [View.read_apply]
  show V c main_v0 _ = V c main_v0 _
  congr 1
  funext a
  apply Fin.ext
  match a with
  | ⟨0, _⟩ => show win1_0.index t (0 : Fin 2) * 2000 + 1 * r.val = R.val; rw [e0, hR]; omega
  | ⟨1, _⟩ => show win1_0.index t (1 : Fin 2) * 64 + 1 * l.val = l.val; rw [e1]; omega

/-- Row r of point t's block of the summed messages is row 2000 t + r of the array. -/
theorem aggBlk_apply (c : Dev nD) (t : Fin cfg1.N) (r : Fin 2000) (l : Fin 64) (R : Fin 50000)
    (hR : R.val = 2000 * t.val + r.val) :
    (iblk1 V c 1 t : Vec Ideal S2000x64 .f32) (ix2 r l) = (V c main_v16 : Vec Ideal S50000x64 .f32) (ix2 R l) := by
  obtain ⟨-, -, e0, e1, -⟩ := row_maps t
  unfold iblk1
  rw [View.read_apply]
  show V c main_v16 _ = V c main_v16 _
  congr 1
  funext a
  apply Fin.ext
  match a with
  | ⟨0, _⟩ => show win1_1.index t (0 : Fin 2) * 2000 + 1 * r.val = R.val; rw [e0, hR]; omega
  | ⟨1, _⟩ => show win1_1.index t (1 : Fin 2) * 64 + 1 * l.val = l.val; rw [e1]; omega

/-- Row r of point t's block of the positions is row 2000 t + r of the array. -/
theorem posBlk_apply (c : Dev nD) (t : Fin cfg1.N) (r : Fin 2000) (p : Fin 2) (R : Fin 50000)
    (hR : R.val = 2000 * t.val + r.val) :
    (iblk1 V c 2 t : Vec Ideal S2000x2 .f32) (ix2 r p) = (V c main_arg1 : Vec Ideal S50000x2 .f32) (ix2 R p) := by
  obtain ⟨-, -, -, -, e0, e1, -⟩ := row_maps t
  unfold iblk1
  rw [View.read_apply]
  show V c main_arg1 _ = V c main_arg1 _
  congr 1
  funext a
  apply Fin.ext
  match a with
  | ⟨0, _⟩ => show win1_2.index t (0 : Fin 2) * 2000 + 1 * r.val = R.val; rw [e0, hR]; omega
  | ⟨1, _⟩ => show win1_2.index t (1 : Fin 2) * 2 + 1 * p.val = p.val; rw [e1]; omega

/-- Row r of point t's block of the summed weighted relative positions is row 2000 t + r of the array. -/
theorem posuBlk_apply (c : Dev nD) (t : Fin cfg1.N) (r : Fin 2000) (p : Fin 2) (R : Fin 50000)
    (hR : R.val = 2000 * t.val + r.val) :
    (iblk1 V c 3 t : Vec Ideal S2000x2 .f32) (ix2 r p) = (V c main_v19 : Vec Ideal S50000x2 .f32) (ix2 R p) := by
  obtain ⟨-, -, -, -, -, -, e0, e1, -⟩ := row_maps t
  unfold iblk1
  rw [View.read_apply]
  show V c main_v19 _ = V c main_v19 _
  congr 1
  funext a
  apply Fin.ext
  match a with
  | ⟨0, _⟩ => show win1_3.index t (0 : Fin 2) * 2000 + 1 * r.val = R.val; rw [e0, hR]; omega
  | ⟨1, _⟩ => show win1_3.index t (1 : Fin 2) * 2 + 1 * p.val = p.val; rw [e1]; omega

/-- Row r of point t's block of the degrees is row 2000 t + r of the array. -/
theorem degBlk_apply (c : Dev nD) (t : Fin cfg1.N) (r : Fin 2000) (q : Fin 1) (R : Fin 50000)
    (hR : R.val = 2000 * t.val + r.val) :
    (iblk1 V c 4 t : Vec Ideal S2000x1 .f32) (ix2 r q) = (V c main_v24 : Vec Ideal S50000x1 .f32) (ix2 R q) := by
  obtain ⟨-, -, -, -, -, -, -, -, e0, e1, -⟩ := row_maps t
  unfold iblk1
  rw [View.read_apply]
  show V c main_v24 _ = V c main_v24 _
  congr 1
  funext a
  apply Fin.ext
  match a with
  | ⟨0, _⟩ => show win1_4.index t (0 : Fin 2) * 2000 + 1 * r.val = R.val; rw [e0, hR]; omega
  | ⟨1, _⟩ => show win1_4.index t (1 : Fin 2) * 1 + 1 * q.val = q.val; rw [e1]; omega

/-- The first layer's weights: the block is the array. -/
theorem w1Blk_eq (c : Dev nD) (t : Fin cfg1.N) :
    (iblk1 V c 5 t : Vec Ideal S128x64 .f32) = (V c main_arg11 : Vec Ideal S128x64 .f32) := by
  obtain ⟨e0, e1, -⟩ := weight_maps t
  funext y
  unfold iblk1
  rw [View.read_apply]
  show V c main_arg11 _ = V c main_arg11 y
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 64 + 1 * (y 1).val = (y 1).val; rw [e1]; omega

/-- The first layer's bias: the block is the array. -/
theorem b1Blk_eq (c : Dev nD) (t : Fin cfg1.N) :
    (iblk1 V c 6 t : Vec Ideal S64 .f32) = (V c main_arg12 : Vec Ideal S64 .f32) := by
  obtain ⟨-, -, e0, -⟩ := weight_maps t
  funext y
  unfold iblk1
  rw [View.read_apply]
  show V c main_arg12 _ = V c main_arg12 y
  congr 1
  funext a
  apply Fin.ext
  match a with
  | ⟨0, _⟩ => show win1_6.index t (0 : Fin 1) * 64 + 1 * (y 0).val = (y 0).val; rw [e0]; omega

/-- The second layer's weights: the block is the array. -/
theorem w2Blk_eq (c : Dev nD) (t : Fin cfg1.N) :
    (iblk1 V c 7 t : Vec Ideal S64x64 .f32) = (V c main_arg13 : Vec Ideal S64x64 .f32) := by
  obtain ⟨-, -, -, e0, e1, -⟩ := weight_maps t
  funext y
  unfold iblk1
  rw [View.read_apply]
  show V c main_arg13 _ = V c main_arg13 y
  congr 1
  funext a
  apply Fin.ext
  match a with
  | ⟨0, _⟩ => show win1_7.index t (0 : Fin 2) * 64 + 1 * (y 0).val = (y 0).val; rw [e0]; omega
  | ⟨1, _⟩ => show win1_7.index t (1 : Fin 2) * 64 + 1 * (y 1).val = (y 1).val; rw [e1]; omega

/-- The second layer's bias: the block is the array. -/
theorem b2Blk_eq (c : Dev nD) (t : Fin cfg1.N) :
    (iblk1 V c 8 t : Vec Ideal S64 .f32) = (V c main_arg14 : Vec Ideal S64 .f32) := by
  obtain ⟨-, -, -, -, -, e0⟩ := weight_maps t
  funext y
  unfold iblk1
  rw [View.read_apply]
  show V c main_arg14 _ = V c main_arg14 y
  congr 1
  funext a
  apply Fin.ext
  match a with
  | ⟨0, _⟩ => show win1_8.index t (0 : Fin 1) * 64 + 1 * (y 0).val = (y 0).val; rw [e0]; omega

/-! ## Row-locality at a block: the function of the blocks is the block of the function -/

/-- New features: entry (r, l) of the function of block t's rows is entry (2000 t + r, l) of the function of the arrays. -/
theorem nodeH_block (t : Nat) (HB aggB : Mat 2000 64) (H agg : Mat 50000 64)
    (W1B W1 : Mat 128 64) (b1B b1 : Row 64) (W2B W2 : Mat 64 64) (b2B b2 : Row 64)
    (hH : ∀ (r : Fin 2000) (l : Fin 64) (R : Fin 50000), R.val = 2000 * t + r.val → HB (ix2 r l) = H (ix2 R l))
    (hA : ∀ (r : Fin 2000) (l : Fin 64) (R : Fin 50000), R.val = 2000 * t + r.val → aggB (ix2 r l) = agg (ix2 R l))
    (hW1 : W1B = W1) (hb1 : b1B = b1) (hW2 : W2B = W2) (hb2 : b2B = b2)
    (j : (⟨2, ![2000, 64]⟩ : Shape).Idx) (i : (⟨2, ![50000, 64]⟩ : Shape).Idx)
    (hi0 : (i 0).val = 2000 * t + (j 0).val) (hi1 : (i 1).val = (j 1).val) :
    nodeH HB aggB W1B b1B W2B b2B j = nodeH H agg W1 b1 W2 b2 i := by
  subst hW1 hb1 hW2 hb2
  obtain ⟨r, l, rfl⟩ : ∃ (r : Fin 2000) (l : Fin 64), j = ix2 r l := ⟨j 0, j 1, eq_ix2 j⟩
  obtain ⟨R, l', rfl⟩ : ∃ (R : Fin 50000) (l' : Fin 64), i = ix2 R l' := ⟨i 0, i 1, eq_ix2 i⟩
  obtain rfl : l' = l := Fin.ext hi1
  exact Cert.Spec.nodeH_rows HB aggB H agg W1B b1B W2B b2B r R l' (fun l => hH r l R hi0) (fun l => hA r l R hi0)

/-- New positions: entry (r, p) of the function of block t's rows is entry (2000 t + r, p) of the function of the arrays. -/
theorem nodeP_block (t : Nat) (posB posuB : Mat 2000 2) (degB : Mat 2000 1) (pos posu : Mat 50000 2) (deg : Mat 50000 1)
    (h1 : ∀ (r : Fin 2000) (p : Fin 2) (R : Fin 50000), R.val = 2000 * t + r.val → posB (ix2 r p) = pos (ix2 R p))
    (h2 : ∀ (r : Fin 2000) (p : Fin 2) (R : Fin 50000), R.val = 2000 * t + r.val → posuB (ix2 r p) = posu (ix2 R p))
    (h3 : ∀ (r : Fin 2000) (q : Fin 1) (R : Fin 50000), R.val = 2000 * t + r.val → degB (ix2 r q) = deg (ix2 R q))
    (j : (⟨2, ![2000, 2]⟩ : Shape).Idx) (i : (⟨2, ![50000, 2]⟩ : Shape).Idx)
    (hi0 : (i 0).val = 2000 * t + (j 0).val) (hi1 : (i 1).val = (j 1).val) :
    nodeP posB posuB degB j = nodeP pos posu deg i := by
  obtain ⟨r, p, rfl⟩ : ∃ (r : Fin 2000) (p : Fin 2), j = ix2 r p := ⟨j 0, j 1, eq_ix2 j⟩
  obtain ⟨R, p', rfl⟩ : ∃ (R : Fin 50000) (p' : Fin 2), i = ix2 R p' := ⟨i 0, i 1, eq_ix2 i⟩
  obtain rfl : p' = p := Fin.ext hi1
  exact Cert.Spec.nodeP_rows posB posuB degB pos posu deg r R p' (h1 r p' R hi0) (h2 r p' R hi0) (h3 r 0 R hi0)

/-! ## What a point writes back -/

/-- Point t writes back block t of the new features of the whole arrays. -/
theorem featFlushed_eq
    (hp1 : ∀ (v0 v2 : Vec Ideal S2000x64 .f32) (v10 : Vec Ideal S128x64 .f32) (v14 : Vec Ideal S64 .f32)
      (v20 : Vec Ideal S64x64 .f32) (v24 : Vec Ideal S64 .f32),
      k1_pay1 (F := Ideal) v0 v2 v10 v14 v20 v24 = nodeH (n := 2000) v0 v2 v10 v14 v20 v24)
    (c : Dev nD) (t : Fin cfg1.N) :
    (dat1 (F := Ideal) V c).flushed 9 t = ((cfg1.win 9).blk t).view.read (Elt Ideal)
      (nodeH (n := 50000) (V c main_v0) (V c main_v16) (V c main_arg11) (V c main_arg12) (V c main_arg13) (V c main_arg14)) := by
  show (cfg1.win 9).cut (grid1.coords t) ((dat1 (F := Ideal) V c).after 9 t) = _
  rw [after1_9]
  unfold out1_9
  rw [View.canon_unit_zero zero2]
  simp only [View.ld_unit_zero (S := S2000x64) zero2, View.ld_unit_zero (S := S128x64) zero2,
    View.ld_unit_zero (S := S64x64) zero2, View.ld_unit_zero (S := S64) zero1]
  rw [hp1]
  obtain ⟨-, -, -, -, -, -, -, -, -, -, e0, e1, -⟩ := row_maps t
  funext j
  show nodeH (n := 2000) (iblk1 V c 0 t) (iblk1 V c 1 t) (iblk1 V c 5 t) (iblk1 V c 6 t) (iblk1 V c 7 t) (iblk1 V c 8 t) j
    = nodeH (n := 50000) (V c main_v0) (V c main_v16) (V c main_arg11) (V c main_arg12) (V c main_arg13) (V c main_arg14)
        (((cfg1.win 9).blk t).view.emb j)
  refine nodeH_block t.val (iblk1 V c 0 t) (iblk1 V c 1 t) (V c main_v0) (V c main_v16)
    (iblk1 V c 5 t) (V c main_arg11) (iblk1 V c 6 t) (V c main_arg12) (iblk1 V c 7 t) (V c main_arg13) (iblk1 V c 8 t) (V c main_arg14)
    (fun r l R hR => featBlk_apply V c t r l R hR) (fun r l R hR => aggBlk_apply V c t r l R hR)
    (w1Blk_eq V c t) (b1Blk_eq V c t) (w2Blk_eq V c t) (b2Blk_eq V c t) j (((cfg1.win 9).blk t).view.emb j) ?_ ?_
  · show win1_9.index t (0 : Fin 2) * 2000 + 1 * (j 0).val = 2000 * t.val + (j 0).val
    rw [e0]; omega
  · show win1_9.index t (1 : Fin 2) * 64 + 1 * (j 1).val = (j 1).val
    rw [e1]; omega

/-- Point t writes back block t of the new positions of the whole arrays. -/
theorem posFlushed_eq
    (hp2 : ∀ (v4 v5 : Vec Ideal S2000x2 .f32) (v7 : Vec Ideal S2000x1 .f32),
      k1_pay2 (F := Ideal) v4 v5 v7 = nodeP (n := 2000) v4 v5 v7)
    (c : Dev nD) (t : Fin cfg1.N) :
    (dat1 (F := Ideal) V c).flushed 10 t = ((cfg1.win 10).blk t).view.read (Elt Ideal)
      (nodeP (n := 50000) (V c main_arg1) (V c main_v19) (V c main_v24)) := by
  show (cfg1.win 10).cut (grid1.coords t) ((dat1 (F := Ideal) V c).after 10 t) = _
  rw [after1_10]
  unfold out1_10
  rw [View.canon_unit_zero zero2]
  simp only [View.ld_unit_zero (S := S2000x2) zero2, View.ld_unit_zero (S := S2000x1) zero2]
  rw [hp2]
  obtain ⟨-, -, -, -, -, -, -, -, -, -, -, -, e0, e1⟩ := row_maps t
  funext j
  show nodeP (n := 2000) (iblk1 V c 2 t) (iblk1 V c 3 t) (iblk1 V c 4 t) j
    = nodeP (n := 50000) (V c main_arg1) (V c main_v19) (V c main_v24) (((cfg1.win 10).blk t).view.emb j)
  refine nodeP_block t.val (iblk1 V c 2 t) (iblk1 V c 3 t) (iblk1 V c 4 t) (V c main_arg1) (V c main_v19) (V c main_v24)
    (fun r p R hR => posBlk_apply V c t r p R hR) (fun r p R hR => posuBlk_apply V c t r p R hR)
    (fun r q R hR => degBlk_apply V c t r q R hR) j (((cfg1.win 10).blk t).view.emb j) ?_ ?_
  · show win1_10.index t (0 : Fin 2) * 2000 + 1 * (j 0).val = 2000 * t.val + (j 0).val
    rw [e0]; omega
  · show win1_10.index t (1 : Fin 2) * 2 + 1 * (j 1).val = (j 1).val
    rw [e1]; omega

/-! ## The blocks tile the rows -/

/-- An index of the feature result is in point t's block iff each coordinate is in the block's range. -/
theorem featMem_blk (t : Fin cfg1.N) (i : S50000x64.Idx) :
    i ∈ ((cfg1.win 9).blk t).view.set ↔ ∀ a : Fin 2, win1_9.index t a * S2000x64.size a ≤ (i a).val
      ∧ (i a).val < win1_9.index t a * S2000x64.size a + S2000x64.size a := by
  show i ∈ ((View.whole main_v25_0).slice (win1_9.rect t)).set ↔ _
  rw [View.set_slice_whole, Rect.mem_set_unit]
  exact Iff.rfl

/-- An index of the position result is in point t's block iff each coordinate is in the block's range. -/
theorem posMem_blk (t : Fin cfg1.N) (i : S50000x2.Idx) :
    i ∈ ((cfg1.win 10).blk t).view.set ↔ ∀ a : Fin 2, win1_10.index t a * S2000x2.size a ≤ (i a).val
      ∧ (i a).val < win1_10.index t a * S2000x2.size a + S2000x2.size a := by
  show i ∈ ((View.whole main_v25_1).slice (win1_10.rect t)).set ↔ _
  rw [View.set_slice_whole, Rect.mem_set_unit]
  exact Iff.rfl

/-- Row R of the feature result is written by point R / 2000. -/
theorem featCover (i : S50000x64.Idx) :
    ∃ t : Fin cfg1.N, (cfg1.win 9).flush t = true ∧ i ∈ ((cfg1.win 9).blk t).view.set := by
  have hi0 : (i 0).val < 50000 := (i 0).isLt
  have hi1 : (i 1).val < 64 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, e0, e1, -⟩ := row_maps t
  refine ⟨t, flush1_9 t, ?_⟩
  rw [featMem_blk]
  intro a
  match a with
  | ⟨0, _⟩ =>
    show win1_9.index t (0 : Fin 2) * 2000 ≤ (i 0).val ∧ (i 0).val < win1_9.index t (0 : Fin 2) * 2000 + 2000
    rw [e0, ht]; omega
  | ⟨1, _⟩ =>
    show win1_9.index t (1 : Fin 2) * 64 ≤ (i 1).val ∧ (i 1).val < win1_9.index t (1 : Fin 2) * 64 + 64
    rw [e1]; omega

/-- Row R of the position result is written by point R / 2000. -/
theorem posCover (i : S50000x2.Idx) :
    ∃ t : Fin cfg1.N, (cfg1.win 10).flush t = true ∧ i ∈ ((cfg1.win 10).blk t).view.set := by
  have hi0 : (i 0).val < 50000 := (i 0).isLt
  have hi1 : (i 1).val < 2 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, -, -, e0, e1⟩ := row_maps t
  refine ⟨t, flush1_10 t, ?_⟩
  rw [posMem_blk]
  intro a
  match a with
  | ⟨0, _⟩ =>
    show win1_10.index t (0 : Fin 2) * 2000 ≤ (i 0).val ∧ (i 0).val < win1_10.index t (0 : Fin 2) * 2000 + 2000
    rw [e0, ht]; omega
  | ⟨1, _⟩ =>
    show win1_10.index t (1 : Fin 2) * 2 ≤ (i 1).val ∧ (i 1).val < win1_10.index t (1 : Fin 2) * 2 + 2
    rw [e1]; omega

/-! ## The result arrays after the last point -/

/-- The feature result ends holding the new features of the arrays as the update finds them. -/
theorem node_h_arr
    (hp1 : ∀ (v0 v2 : Vec Ideal S2000x64 .f32) (v10 : Vec Ideal S128x64 .f32) (v14 : Vec Ideal S64 .f32)
      (v20 : Vec Ideal S64x64 .f32) (v24 : Vec Ideal S64 .f32),
      k1_pay1 (F := Ideal) v0 v2 v10 v14 v20 v24 = Cert.Spec.nodeH (n := 2000) v0 v2 v10 v14 v20 v24)
    (c : Dev nD) :
    (dat1 (F := Ideal) V c).arrAt 9 cfg1.N
      = Cert.Spec.nodeH (n := 50000) (V c main_v0) (V c main_v16) (V c main_arg11) (V c main_arg12) (V c main_arg13) (V c main_arg14) :=
  (dat1 (F := Ideal) V c).arrAt_eq_of_cover 9
    (Cert.Spec.nodeH (n := 50000) (V c main_v0) (V c main_v16) (V c main_arg11) (V c main_arg12) (V c main_arg13) (V c main_arg14))
    (fun t _ => featFlushed_eq V hp1 c t) featCover

/-- The position result ends holding the new positions of the arrays as the update finds them. -/
theorem node_p_arr
    (hp2 : ∀ (v4 v5 : Vec Ideal S2000x2 .f32) (v7 : Vec Ideal S2000x1 .f32),
      k1_pay2 (F := Ideal) v4 v5 v7 = Cert.Spec.nodeP (n := 2000) v4 v5 v7)
    (c : Dev nD) :
    (dat1 (F := Ideal) V c).arrAt 10 cfg1.N
      = Cert.Spec.nodeP (n := 50000) (V c main_arg1) (V c main_v19) (V c main_v24) :=
  (dat1 (F := Ideal) V c).arrAt_eq_of_cover 10
    (Cert.Spec.nodeP (n := 50000) (V c main_arg1) (V c main_v19) (V c main_v24))
    (fun t _ => posFlushed_eq V hp2 c t) posCover

end Cert.KArrNode

end
-- ==== Proof.EdgeInputs.lean ====
/-
  The host operations before the first kernel region: the four gathered arrays and the squared distance.

  The kernel's program takes rows of a table by an index row with a masked gather: a negative index is moved up
  by the table's 50000 rows, the rows whose index lies in [0, 49999] keep the gathered row, and the others get a
  fixed constant. The reference indexes the table directly: the same wrap, then the plain gather. When every entry of the
  edge index lies in [0, 50000) the mask is 1 at every row, so the masked gather is the plain one, and the arrays the
  first region finds are the reference's stages: the node features at the two edge rows, the difference of the
  positions at the two edge rows, and its squared length as a column.
-/
import proofs.«419480_j27238682591241_1_alg».proof.Proof.Gen.KernelIdeal.Frame
import proofs.«419480_j27238682591241_1_alg».proof.Proof.Gen.ReferenceIdeal.Read
import Idealize.ShloMosaic.PureOps.Ideal
import Idealize.ShloMosaic.Lib.ValueIdx
import Idealize.ShloMosaic.Lib.Pipeline.Value

set_option maxRecDepth 16384

noncomputable section

namespace Cert.KHostEdge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

namespace Take

/-! ## Words in range, folds and broadcasts of ones -/

/-- A fold of conjunctions from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A conjunction-reduce, from the constant 1, of an array of ones is 1 at every index. -/
theorem reduce_andi_ones {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  unfold Host.reduce
  rw [hi]
  exact foldl_andi_one (fun n => x (s.rowMajor.symm n)) _ fun n _ => hx _

/-- What holds of every element of an array holds of every element of a broadcast of it. -/
theorem bcast_forall {α : Type} {s t : Shape} (dims : Fin s.rank → Fin t.rank) (h : s.BroadcastsInDim t dims)
    (x : s.Idx → α) (P : α → Prop) (hx : ∀ k, P (x k)) (j : t.Idx) : P (broadcastInDim t dims h x j) := by
  unfold broadcastInDim
  exact hx _

/-- A select by a broadcast of a mask of ones is its first branch. -/
theorem select_bcast_ones {α : Type} {s t : Shape} (dims : Fin s.rank → Fin t.rank) (h : s.BroadcastsInDim t dims)
    (mask : IVec s 1) (hm : ∀ j, mask j = 1#1) (a b : t.Idx → α) :
    select (broadcastInDim t dims h mask) a b = a := by
  funext i
  show Scalar.select (broadcastInDim t dims h mask i) (a i) (b i) = a i
  rw [bcast_forall dims h mask (· = 1#1) hm i]
  exact ValueIdx.select_one _ _

/-- A non-negative word is not wrapped. -/
theorem word_wrap (a : BitVec 32) (h0 : 0 ≤ a.toInt) :
    Scalar.select (IntOp.cmpi .slt a 0#32) (IntOp.addi a 50000#32) a = a := by
  have e : IntOp.cmpi .slt a 0#32 = 0#1 := by
    simp only [IntOp.cmpi, BitVec.slt, BitVec.toInt_zero]
    rw [decide_eq_false (by omega)]; rfl
  rw [e]
  exact if_neg (by decide)

/-- A word in [0, 50000) passes the two bound tests. -/
theorem word_mask (a : BitVec 32) (h0 : 0 ≤ a.toInt) (h1 : a.toInt < 50000) :
    IntOp.andi (IntOp.cmpi .sge a 0#32) (IntOp.cmpi .sle a 49999#32) = 1#1 := by
  have e49 : (49999#32 : BitVec 32).toInt = 49999 := by decide
  have e1 : IntOp.cmpi .sge a 0#32 = 1#1 := by
    simp only [IntOp.cmpi, BitVec.sle, BitVec.toInt_zero]
    rw [decide_eq_true h0]; rfl
  have e2 : IntOp.cmpi .sle a 49999#32 = 1#1 := by
    simp only [IntOp.cmpi, BitVec.sle, e49]
    rw [decide_eq_true (by omega)]; rfl
  rw [e1, e2]; rfl

/-- A value moved along an equation of types and back is itself. -/
theorem cast_cast_id {α β : Type} (h1 : β = α) (h2 : α = β) (v : α) : cast h1 (cast h2 v) = v := by
  subst h2; rfl

/-! ## A take as the kernel's program prints it, over variables -/

/-- The index row of a take: an entry below zero moved up by the table's 50000 rows. -/
def wrapRow (v : (⟨S800000, .i32⟩ : BufTy).Contents (Elt Ideal)) : (⟨S800000, .i32⟩ : BufTy).Contents (Elt Ideal) :=
  select (cmpi .slt v (broadcastInDim S800000 ![] bcast_S_S800000 (constantI S_ 32 0#32)))
    (addi v (broadcastInDim S800000 ![] bcast_S_S800000 (constantI S_ 32 50000#32))) v

/-- The same as a column. -/
def wrapCol (v : (⟨S800000, .i32⟩ : BufTy).Contents (Elt Ideal)) : (⟨S800000x1, .i32⟩ : BufTy).Contents (Elt Ideal) :=
  broadcastInDim S800000x1 ![0] bcast_S800000_S800000x1_0 (wrapRow v)

/-- The row mask of a take: the index column lies in [0, 49999]. -/
def inRange (idx : (⟨S800000x1, .i32⟩ : BufTy).Contents (Elt Ideal)) : (⟨S800000, .i1⟩ : BufTy).Contents (Elt Ideal) :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- A take of rows of 64: the gathered rows where the mask holds, a fixed constant elsewhere. -/
def take64 (x : (⟨S50000x64, .f32⟩ : BufTy).Contents (Elt Ideal)) (v : (⟨S800000, .i32⟩ : BufTy).Contents (Elt Ideal)) :
    (⟨S800000x64, .f32⟩ : BufTy).Contents (Elt Ideal) :=
  select (broadcastInDim S800000x64 ![0] bcast_S800000_S800000x64_0 (inRange (wrapCol v)))
    (Host.gather gather_S50000x64_S800000x1_S800000x64_1_0_n_n_0_1_164 x (wrapCol v))
    (broadcastInDim S800000x64 ![] bcast_S_S800000x64 (constant (F := Ideal) S_ .f32 0x7FC00000#32))

/-- A take of rows of 2. -/
def take2 (x : (⟨S50000x2, .f32⟩ : BufTy).Contents (Elt Ideal)) (v : (⟨S800000, .i32⟩ : BufTy).Contents (Elt Ideal)) :
    (⟨S800000x2, .f32⟩ : BufTy).Contents (Elt Ideal) :=
  select (broadcastInDim S800000x2 ![0] bcast_S800000_S800000x2_0 (inRange (wrapCol v)))
    (Host.gather gather_S50000x2_S800000x1_S800000x2_1_0_n_n_0_1_12 x (wrapCol v))
    (broadcastInDim S800000x2 ![] bcast_S_S800000x2 (constant (F := Ideal) S_ .f32 0x7FC00000#32))

/-- Indices in [0, 50000) are not wrapped. -/
theorem wrapRow_eq (v : (⟨S800000, .i32⟩ : BufTy).Contents (Elt Ideal))
    (hv : ∀ i, 0 ≤ (v i).toInt ∧ (v i).toInt < 50000) : wrapRow v = v := by
  funext i
  show Scalar.select (IntOp.cmpi .slt (v i) 0#32) (IntOp.addi (v i) 50000#32) (v i) = v i
  exact word_wrap _ (hv i).1

/-- A column of indices in [0, 50000) passes the two bound tests at every row. -/
theorem col_mask (v : IVec S800000 32) (hv : ∀ i, 0 ≤ (v i).toInt ∧ (v i).toInt < 50000) (k : S800000x1.Idx) :
    IntOp.andi (IntOp.cmpi .sge (broadcastInDim S800000x1 ![0] bcast_S800000_S800000x1_0 v k) 0#32)
      (IntOp.cmpi .sle (broadcastInDim S800000x1 ![0] bcast_S800000_S800000x1_0 v k) 49999#32) = 1#1 := by
  unfold broadcastInDim
  exact word_mask _ (hv _).1 (hv _).2

/-- The lower bound's column is 0 at every row. -/
theorem col_zero (k : S800000x1.Idx) :
    broadcastInDim S800000x1 ![] bcast_S_S800000x1 (constantI S_ 32 0#32) k = 0#32 := by
  unfold broadcastInDim constantI
  rfl

/-- The upper bound's column is 49999 at every row. -/
theorem col_top (k : S800000x1.Idx) :
    broadcastInDim S800000x1 ![0, 1] bcast_S1x1_S800000x1_0_1
        (broadcastInDim S1x1 ![1] bcast_S1_S1x1_1 (constantI S1 32 49999#32)) k = 49999#32 := by
  unfold broadcastInDim constantI
  rfl

/-- Over indices in [0, 50000) the row mask is 1 at every row. -/
theorem inRange_one (v : (⟨S800000, .i32⟩ : BufTy).Contents (Elt Ideal))
    (hv : ∀ i, 0 ≤ (v i).toInt ∧ (v i).toInt < 50000) (j : S800000.Idx) : inRange (wrapCol v) j = 1#1 := by
  unfold wrapCol
  rw [wrapRow_eq v hv]
  unfold inRange
  refine reduce_andi_ones _ _ _ _ rfl (fun k => ?_) j
  unfold andi cmpi
  rw [col_zero k, col_top k]
  exact col_mask v hv k

/-- Over indices in [0, 50000) a take of rows of 64 is the plain gather at the index column. -/
theorem take64_eq (x : (⟨S50000x64, .f32⟩ : BufTy).Contents (Elt Ideal)) (v : (⟨S800000, .i32⟩ : BufTy).Contents (Elt Ideal))
    (hv : ∀ i, 0 ≤ (v i).toInt ∧ (v i).toInt < 50000) :
    take64 x v = Host.gather gather_S50000x64_S800000x1_S800000x64_1_0_n_n_0_1_164 x (wrapCol v) := by
  unfold take64
  exact select_bcast_ones _ _ _ (inRange_one v hv) _ _

/-- The same for rows of 2. -/
theorem take2_eq (x : (⟨S50000x2, .f32⟩ : BufTy).Contents (Elt Ideal)) (v : (⟨S800000, .i32⟩ : BufTy).Contents (Elt Ideal))
    (hv : ∀ i, 0 ≤ (v i).toInt ∧ (v i).toInt < 50000) :
    take2 x v = Host.gather gather_S50000x2_S800000x1_S800000x2_1_0_n_n_0_1_12 x (wrapCol v) := by
  unfold take2
  exact select_bcast_ones _ _ _ (inRange_one v hv) _ _

/-! ## Each stretch of host operations, read at any contents before it -/

/-- The take of the node features at the second edge row. -/
theorem st1 (V : Valuation τ sig (Elt Ideal)) :
    StableHlo.after (hostOps0_1 (F := Ideal)) V (Proc.devRef .tc main_v5)
      = take64 (V (Proc.devRef .tc main_v0)) (V (Proc.devRef .tc main_v4)) := by
  dsimp only [hostOps0_1]
  after_results_simp
  simp only [StableHlo.TRef.ofBuf, StableHlo.TRef.toBuf]
  simp only [cast_cast_id]
  rw [cast_eq, cast_eq, cast_eq]
  unfold take64 inRange wrapCol wrapRow
  rfl

/-- The take of the node features at the first edge row. -/
theorem st2 (V : Valuation τ sig (Elt Ideal)) :
    StableHlo.after (hostOps0_2 (F := Ideal)) V (Proc.devRef .tc main_v6)
      = take64 (V (Proc.devRef .tc main_v0)) (V (Proc.devRef .tc main_v2)) := by
  dsimp only [hostOps0_2]
  after_results_simp
  simp only [StableHlo.TRef.ofBuf, StableHlo.TRef.toBuf]
  simp only [cast_cast_id]
  rw [cast_eq, cast_eq, cast_eq]
  unfold take64 inRange wrapCol wrapRow
  rfl

/-- The take of the positions at the second edge row. -/
theorem st3 (V : Valuation τ sig (Elt Ideal)) :
    StableHlo.after (hostOps0_3 (F := Ideal)) V (Proc.devRef .tc main_v7)
      = take2 (V (Proc.devRef .tc main_arg1)) (V (Proc.devRef .tc main_v4)) := by
  dsimp only [hostOps0_3]
  after_results_simp
  simp only [StableHlo.TRef.ofBuf, StableHlo.TRef.toBuf]
  simp only [cast_cast_id]
  rw [cast_eq, cast_eq, cast_eq]
  unfold take2 inRange wrapCol wrapRow
  rfl

/-- The take of the positions at the first edge row. -/
theorem st4 (V : Valuation τ sig (Elt Ideal)) :
    StableHlo.after (hostOps0_4 (F := Ideal)) V (Proc.devRef .tc main_v8)
      = take2 (V (Proc.devRef .tc main_arg1)) (V (Proc.devRef .tc main_v2)) := by
  dsimp only [hostOps0_4]
  after_results_simp
  simp only [StableHlo.TRef.ofBuf, StableHlo.TRef.toBuf]
  simp only [cast_cast_id]
  rw [cast_eq, cast_eq, cast_eq]
  unfold take2 inRange wrapCol wrapRow
  rfl

/-! ## The first and the last stretch -/

/-- The squared distance column of two position arrays: the row sums of the squared differences, as a column. -/
def d2Of (p q : (⟨S800000x2, .f32⟩ : BufTy).Contents (Elt Ideal)) : (⟨S800000x1, .f32⟩ : BufTy).Contents (Elt Ideal) :=
  broadcastInDim S800000x1 ![0] bcast_S800000_S800000x1_0
    (Host.reduceAdd (F := Ideal) (mulf (subf p q) (subf p q)) (constant (F := Ideal) S_ .f32 0x00000000#32)
      reducesTo_S800000x2_S800000_d1 h_S_)

/-- The difference of two position arrays. -/
def relOf (p q : (⟨S800000x2, .f32⟩ : BufTy).Contents (Elt Ideal)) : (⟨S800000x2, .f32⟩ : BufTy).Contents (Elt Ideal) :=
  subf (F := Ideal) (φ := .f32) p q

theorem st0_h (V : Valuation τ sig (Elt Ideal)) :
    StableHlo.after (hostOps0 (F := Ideal)) V (Proc.devRef .tc main_v0)
      = Cert.ReferenceIdeal.Read.val_main_v0 (F := Ideal) (V (Proc.devRef .tc main_arg0)) (V (Proc.devRef .tc main_arg2)) := by
  dsimp only [hostOps0]; after_results_simp
  rfl

theorem st0_dst (V : Valuation τ sig (Elt Ideal)) :
    StableHlo.after (hostOps0 (F := Ideal)) V (Proc.devRef .tc main_v4)
      = Cert.ReferenceIdeal.Read.val_main_v4 (F := Ideal) (V (Proc.devRef .tc main_arg15)) := by
  dsimp only [hostOps0]; after_results_simp
  unfold Cert.ReferenceIdeal.Read.val_main_v4 Cert.ReferenceIdeal.Read.val_main_v3
  rfl

theorem st0_src (V : Valuation τ sig (Elt Ideal)) :
    StableHlo.after (hostOps0 (F := Ideal)) V (Proc.devRef .tc main_v2)
      = Cert.ReferenceIdeal.Read.val_main_v2 (F := Ideal) (V (Proc.devRef .tc main_arg15)) := by
  dsimp only [hostOps0]; after_results_simp
  unfold Cert.ReferenceIdeal.Read.val_main_v2 Cert.ReferenceIdeal.Read.val_main_v1
  rfl

theorem st5_rel (V : Valuation τ sig (Elt Ideal)) :
    StableHlo.after (hostOps0_5 (F := Ideal)) V (Proc.devRef .tc main_v9)
      = relOf (V (Proc.devRef .tc main_v7)) (V (Proc.devRef .tc main_v8)) := by
  dsimp only [hostOps0_5]; after_results_simp
  rfl

theorem st5_d2 (V : Valuation τ sig (Elt Ideal)) :
    StableHlo.after (hostOps0_5 (F := Ideal)) V (Proc.devRef .tc main_v12)
      = d2Of (V (Proc.devRef .tc main_v7)) (V (Proc.devRef .tc main_v8)) := by
  dsimp only [hostOps0_5]; after_results_simp
  rfl

/-! ## A buffer a stretch does not write keeps its contents through it -/

theorem fr0_arg1 (V : Valuation τ sig (Elt Ideal)) :
    StableHlo.after (hostOps0 (F := Ideal)) V (Proc.devRef .tc main_arg1) = V (Proc.devRef .tc main_arg1) := by
  dsimp only [hostOps0]; after_results_simp
theorem fr1_v0 (V : Valuation τ sig (Elt Ideal)) :
    StableHlo.after (hostOps0_1 (F := Ideal)) V (Proc.devRef .tc main_v0) = V (Proc.devRef .tc main_v0) := by
  dsimp only [hostOps0_1]; after_results_simp
theorem fr1_v2 (V : Valuation τ sig (Elt Ideal)) :
    StableHlo.after (hostOps0_1 (F := Ideal)) V (Proc.devRef .tc main_v2) = V (Proc.devRef .tc main_v2) := by
  dsimp only [hostOps0_1]; after_results_simp
theorem fr1_v4 (V : Valuation τ sig (Elt Ideal)) :
    StableHlo.after (hostOps0_1 (F := Ideal)) V (Proc.devRef .tc main_v4) = V (Proc.devRef .tc main_v4) := by
  dsimp only [hostOps0_1]; after_results_simp
theorem fr1_arg1 (V : Valuation τ sig (Elt Ideal)) :
    StableHlo.after (hostOps0_1 (F := Ideal)) V (Proc.devRef .tc main_arg1) = V (Proc.devRef .tc main_arg1) := by
  dsimp only [hostOps0_1]; after_results_simp
theorem fr2_v5 (V : Valuation τ sig (Elt Ideal)) :
    StableHlo.after (hostOps0_2 (F := Ideal)) V (Proc.devRef .tc main_v5) = V (Proc.devRef .tc main_v5) := by
  dsimp only [hostOps0_2]; after_results_simp
theorem fr2_v4 (V : Valuation τ sig (Elt Ideal)) :
    StableHlo.after (hostOps0_2 (F := Ideal)) V (Proc.devRef .tc main_v4) = V (Proc.devRef .tc main_v4) := by
  dsimp only [hostOps0_2]; after_results_simp
theorem fr2_v2 (V : Valuation τ sig (Elt Ideal)) :
    StableHlo.after (hostOps0_2 (F := Ideal)) V (Proc.devRef .tc main_v2) = V (Proc.devRef .tc main_v2) := by
  dsimp only [hostOps0_2]; after_results_simp
theorem fr2_arg1 (V : Valuation τ sig (Elt Ideal)) :
    StableHlo.after (hostOps0_2 (F := Ideal)) V (Proc.devRef .tc main_arg1) = V (Proc.devRef .tc main_arg1) := by
  dsimp only [hostOps0_2]; after_results_simp
theorem fr3_v5 (V : Valuation τ sig (Elt Ideal)) :
    StableHlo.after (hostOps0_3 (F := Ideal)) V (Proc.devRef .tc main_v5) = V (Proc.devRef .tc main_v5) := by
  dsimp only [hostOps0_3]; after_results_simp
theorem fr3_v6 (V : Valuation τ sig (Elt Ideal)) :
    StableHlo.after (hostOps0_3 (F := Ideal)) V (Proc.devRef .tc main_v6) = V (Proc.devRef .tc main_v6) := by
  dsimp only [hostOps0_3]; after_results_simp
theorem fr3_v2 (V : Valuation τ sig (Elt Ideal)) :
    StableHlo.after (hostOps0_3 (F := Ideal)) V (Proc.devRef .tc main_v2) = V (Proc.devRef .tc main_v2) := by
  dsimp only [hostOps0_3]; after_results_simp
theorem fr3_arg1 (V : Valuation τ sig (Elt Ideal)) :
    StableHlo.after (hostOps0_3 (F := Ideal)) V (Proc.devRef .tc main_arg1) = V (Proc.devRef .tc main_arg1) := by
  dsimp only [hostOps0_3]; after_results_simp
theorem fr4_v5 (V : Valuation τ sig (Elt Ideal)) :
    StableHlo.after (hostOps0_4 (F := Ideal)) V (Proc.devRef .tc main_v5) = V (Proc.devRef .tc main_v5) := by
  dsimp only [hostOps0_4]; after_results_simp
theorem fr4_v6 (V : Valuation τ sig (Elt Ideal)) :
    StableHlo.after (hostOps0_4 (F := Ideal)) V (Proc.devRef .tc main_v6) = V (Proc.devRef .tc main_v6) := by
  dsimp only [hostOps0_4]; after_results_simp
theorem fr4_v7 (V : Valuation τ sig (Elt Ideal)) :
    StableHlo.after (hostOps0_4 (F := Ideal)) V (Proc.devRef .tc main_v7) = V (Proc.devRef .tc main_v7) := by
  dsimp only [hostOps0_4]; after_results_simp
theorem fr5_v5 (V : Valuation τ sig (Elt Ideal)) :
    StableHlo.after (hostOps0_5 (F := Ideal)) V (Proc.devRef .tc main_v5) = V (Proc.devRef .tc main_v5) := by
  dsimp only [hostOps0_5]; after_results_simp
theorem fr5_v6 (V : Valuation τ sig (Elt Ideal)) :
    StableHlo.after (hostOps0_5 (F := Ideal)) V (Proc.devRef .tc main_v6) = V (Proc.devRef .tc main_v6) := by
  dsimp only [hostOps0_5]; after_results_simp

/-! ## The reference's stages as the same terms -/

/-- The reference wraps the second edge row for the positions as the kernel's program does. -/
theorem ref_v10 (x15 : (⟨S2x800000, .i32⟩ : BufTy).Contents (Elt Ideal)) :
    Cert.ReferenceIdeal.Read.val_main_v10 (F := Ideal) x15 = wrapCol (Cert.ReferenceIdeal.Read.val_main_v4 (F := Ideal) x15) := by
  unfold Cert.ReferenceIdeal.Read.val_main_v10 Cert.ReferenceIdeal.Read.val_main_v9 Cert.ReferenceIdeal.Read.val_main_v6
    Cert.ReferenceIdeal.Read.val_main_v5 Cert.ReferenceIdeal.Read.val_main_c Cert.ReferenceIdeal.Read.val_main_v8
    Cert.ReferenceIdeal.Read.val_main_v7 Cert.ReferenceIdeal.Read.val_main_c_0 wrapCol wrapRow
  rfl

/-- The first edge row for the positions. -/
theorem ref_v17 (x15 : (⟨S2x800000, .i32⟩ : BufTy).Contents (Elt Ideal)) :
    Cert.ReferenceIdeal.Read.val_main_v17 (F := Ideal) x15 = wrapCol (Cert.ReferenceIdeal.Read.val_main_v2 (F := Ideal) x15) := by
  unfold Cert.ReferenceIdeal.Read.val_main_v17 Cert.ReferenceIdeal.Read.val_main_v16 Cert.ReferenceIdeal.Read.val_main_v13
    Cert.ReferenceIdeal.Read.val_main_v12 Cert.ReferenceIdeal.Read.val_main_c_1 Cert.ReferenceIdeal.Read.val_main_v15
    Cert.ReferenceIdeal.Read.val_main_v14 Cert.ReferenceIdeal.Read.val_main_c_2 wrapCol wrapRow
  rfl

/-- The second edge row for the node features. -/
theorem ref_v28 (x15 : (⟨S2x800000, .i32⟩ : BufTy).Contents (Elt Ideal)) :
    Cert.ReferenceIdeal.Read.val_main_v28 (F := Ideal) x15 = wrapCol (Cert.ReferenceIdeal.Read.val_main_v4 (F := Ideal) x15) := by
  unfold Cert.ReferenceIdeal.Read.val_main_v28 Cert.ReferenceIdeal.Read.val_main_v27 Cert.ReferenceIdeal.Read.val_main_v24
    Cert.ReferenceIdeal.Read.val_main_v23 Cert.ReferenceIdeal.Read.val_main_c_3 Cert.ReferenceIdeal.Read.val_main_v26
    Cert.ReferenceIdeal.Read.val_main_v25 Cert.ReferenceIdeal.Read.val_main_c_4 wrapCol wrapRow
  rfl

/-- The first edge row for the node features. -/
theorem ref_v35 (x15 : (⟨S2x800000, .i32⟩ : BufTy).Contents (Elt Ideal)) :
    Cert.ReferenceIdeal.Read.val_main_v35 (F := Ideal) x15 = wrapCol (Cert.ReferenceIdeal.Read.val_main_v2 (F := Ideal) x15) := by
  unfold Cert.ReferenceIdeal.Read.val_main_v35 Cert.ReferenceIdeal.Read.val_main_v34 Cert.ReferenceIdeal.Read.val_main_v31
    Cert.ReferenceIdeal.Read.val_main_v30 Cert.ReferenceIdeal.Read.val_main_c_5 Cert.ReferenceIdeal.Read.val_main_v33
    Cert.ReferenceIdeal.Read.val_main_v32 Cert.ReferenceIdeal.Read.val_main_c_6 wrapCol wrapRow
  rfl

/-- The two programs' records of a gather of rows of 64 are one record. -/
theorem gather64_eq : Cert.ReferenceIdeal.gather_S50000x64_S800000x1_S800000x64_1_0_n_n_0_1_164
    = gather_S50000x64_S800000x1_S800000x64_1_0_n_n_0_1_164 := rfl

/-- And of rows of 2. -/
theorem gather2_eq : Cert.ReferenceIdeal.gather_S50000x2_S800000x1_S800000x2_1_0_n_n_0_1_12
    = gather_S50000x2_S800000x1_S800000x2_1_0_n_n_0_1_12 := rfl

/-- The reference's squared distance column is the kernel program's function of the two gathered position arrays. -/
theorem ref_v22 (x1 : (⟨S50000x2, .f32⟩ : BufTy).Contents (Elt Ideal)) (x15 : (⟨S2x800000, .i32⟩ : BufTy).Contents (Elt Ideal)) :
    Cert.ReferenceIdeal.Read.val_main_v22 (F := Ideal) x1 x15
      = d2Of (Cert.ReferenceIdeal.Read.val_main_v11 (F := Ideal) x1 x15) (Cert.ReferenceIdeal.Read.val_main_v18 (F := Ideal) x1 x15) := by
  unfold Cert.ReferenceIdeal.Read.val_main_v22 Cert.ReferenceIdeal.Read.val_main_v21 Cert.ReferenceIdeal.Read.val_main_v20
    Cert.ReferenceIdeal.Read.val_main_v19 Cert.ReferenceIdeal.Read.val_main_cst d2Of
  rfl

/-- Entries of the edge index in [0, 50000) give a second row in that range. -/
theorem dst_range (x15 : (⟨S2x800000, .i32⟩ : BufTy).Contents (Elt Ideal))
    (hr : ∀ i : S2x800000.Idx, 0 ≤ (x15 i).toInt ∧ (x15 i).toInt < 50000) (i : S800000.Idx) :
    0 ≤ (Cert.ReferenceIdeal.Read.val_main_v4 (F := Ideal) x15 i).toInt
      ∧ (Cert.ReferenceIdeal.Read.val_main_v4 (F := Ideal) x15 i).toInt < 50000 := by
  rw [Cert.ReferenceIdeal.Read.val_main_v4_apply, Cert.ReferenceIdeal.Read.val_main_v3_apply]
  exact hr _

/-- And a first row in that range. -/
theorem src_range (x15 : (⟨S2x800000, .i32⟩ : BufTy).Contents (Elt Ideal))
    (hr : ∀ i : S2x800000.Idx, 0 ≤ (x15 i).toInt ∧ (x15 i).toInt < 50000) (i : S800000.Idx) :
    0 ≤ (Cert.ReferenceIdeal.Read.val_main_v2 (F := Ideal) x15 i).toInt
      ∧ (Cert.ReferenceIdeal.Read.val_main_v2 (F := Ideal) x15 i).toInt < 50000 := by
  rw [Cert.ReferenceIdeal.Read.val_main_v2_apply, Cert.ReferenceIdeal.Read.val_main_v1_apply]
  exact hr _

/-! ## The buffers the first region finds -/

section Run

variable (m : (ℓ : Loc nD τ sig) → Buf (Elt Ideal) ℓ) (ρ : Dev nD → PrngReg) (c : Dev nD)

theorem w1_h : W1 (F := Ideal) m ρ c (Proc.devRef .tc main_v0) = Cert.ReferenceIdeal.Read.val_main_v0 (F := Ideal) (m ((c : Thread nD τ).loc main_arg0)) (m ((c : Thread nD τ).loc main_arg2)) :=
  st0_h (W0 m ρ c)
theorem w1_dst : W1 (F := Ideal) m ρ c (Proc.devRef .tc main_v4) = Cert.ReferenceIdeal.Read.val_main_v4 (F := Ideal) (m ((c : Thread nD τ).loc main_arg15)) :=
  st0_dst (W0 m ρ c)
theorem w1_src : W1 (F := Ideal) m ρ c (Proc.devRef .tc main_v2) = Cert.ReferenceIdeal.Read.val_main_v2 (F := Ideal) (m ((c : Thread nD τ).loc main_arg15)) :=
  st0_src (W0 m ρ c)
theorem w1_pos : W1 (F := Ideal) m ρ c (Proc.devRef .tc main_arg1) = (m ((c : Thread nD τ).loc main_arg1)) :=
  fr0_arg1 (W0 m ρ c)

theorem w2_h : W2 (F := Ideal) m ρ c (Proc.devRef .tc main_v0) = Cert.ReferenceIdeal.Read.val_main_v0 (F := Ideal) (m ((c : Thread nD τ).loc main_arg0)) (m ((c : Thread nD τ).loc main_arg2)) :=
  (fr1_v0 (W1 m ρ c)).trans (w1_h m ρ c)
theorem w2_src : W2 (F := Ideal) m ρ c (Proc.devRef .tc main_v2) = Cert.ReferenceIdeal.Read.val_main_v2 (F := Ideal) (m ((c : Thread nD τ).loc main_arg15)) :=
  (fr1_v2 (W1 m ρ c)).trans (w1_src m ρ c)
theorem w3_dst : W3 (F := Ideal) m ρ c (Proc.devRef .tc main_v4) = Cert.ReferenceIdeal.Read.val_main_v4 (F := Ideal) (m ((c : Thread nD τ).loc main_arg15)) :=
  (fr2_v4 (W2 m ρ c)).trans ((fr1_v4 (W1 m ρ c)).trans (w1_dst m ρ c))
theorem w3_pos : W3 (F := Ideal) m ρ c (Proc.devRef .tc main_arg1) = (m ((c : Thread nD τ).loc main_arg1)) :=
  (fr2_arg1 (W2 m ρ c)).trans ((fr1_arg1 (W1 m ρ c)).trans (w1_pos m ρ c))
theorem w4_src : W4 (F := Ideal) m ρ c (Proc.devRef .tc main_v2) = Cert.ReferenceIdeal.Read.val_main_v2 (F := Ideal) (m ((c : Thread nD τ).loc main_arg15)) :=
  (fr3_v2 (W3 m ρ c)).trans ((fr2_v2 (W2 m ρ c)).trans (w2_src m ρ c))
theorem w4_pos : W4 (F := Ideal) m ρ c (Proc.devRef .tc main_arg1) = (m ((c : Thread nD τ).loc main_arg1)) :=
  (fr3_arg1 (W3 m ρ c)).trans (w3_pos m ρ c)

/-- The node features taken at the second edge row, as the program's take of the reference's stages. -/
theorem w6_hdst : W6 (F := Ideal) m ρ c (Proc.devRef .tc main_v5)
    = take64 (Cert.ReferenceIdeal.Read.val_main_v0 (F := Ideal) (m ((c : Thread nD τ).loc main_arg0)) (m ((c : Thread nD τ).loc main_arg2))) (Cert.ReferenceIdeal.Read.val_main_v4 (F := Ideal) (m ((c : Thread nD τ).loc main_arg15))) := by
  have e := (fr5_v5 (W5 m ρ c)).trans ((fr4_v5 (W4 m ρ c)).trans ((fr3_v5 (W3 m ρ c)).trans
    ((fr2_v5 (W2 m ρ c)).trans (st1 (W1 m ρ c)))))
  rw [w1_h, w1_dst] at e
  exact e

/-- At the first edge row. -/
theorem w6_hsrc : W6 (F := Ideal) m ρ c (Proc.devRef .tc main_v6)
    = take64 (Cert.ReferenceIdeal.Read.val_main_v0 (F := Ideal) (m ((c : Thread nD τ).loc main_arg0)) (m ((c : Thread nD τ).loc main_arg2))) (Cert.ReferenceIdeal.Read.val_main_v2 (F := Ideal) (m ((c : Thread nD τ).loc main_arg15))) := by
  have e := (fr5_v6 (W5 m ρ c)).trans ((fr4_v6 (W4 m ρ c)).trans ((fr3_v6 (W3 m ρ c)).trans (st2 (W2 m ρ c))))
  rw [w2_h, w2_src] at e
  exact e

/-- The positions taken at the second edge row, where the last stretch reads them. -/
theorem w5_pdst : W5 (F := Ideal) m ρ c (Proc.devRef .tc main_v7)
    = take2 (m ((c : Thread nD τ).loc main_arg1)) (Cert.ReferenceIdeal.Read.val_main_v4 (F := Ideal) (m ((c : Thread nD τ).loc main_arg15))) := by
  have e := (fr4_v7 (W4 m ρ c)).trans (st3 (W3 m ρ c))
  rw [w3_pos, w3_dst] at e
  exact e

/-- At the first edge row. -/
theorem w5_psrc : W5 (F := Ideal) m ρ c (Proc.devRef .tc main_v8)
    = take2 (m ((c : Thread nD τ).loc main_arg1)) (Cert.ReferenceIdeal.Read.val_main_v2 (F := Ideal) (m ((c : Thread nD τ).loc main_arg15))) := by
  have e := st4 (W4 m ρ c)
  rw [w4_pos, w4_src] at e
  exact e

/-! ## The positions' two takes and what the last stretch makes of them -/

/-- The positions gathered at the second edge row are the reference's. -/
theorem pdst_eq (hr : ∀ i : S2x800000.Idx, 0 ≤ ((m ((c : Thread nD τ).loc main_arg15)) i).toInt ∧ ((m ((c : Thread nD τ).loc main_arg15)) i).toInt < 50000) :
    W5 (F := Ideal) m ρ c (Proc.devRef .tc main_v7) = Cert.ReferenceIdeal.Read.val_main_v11 (F := Ideal) (m ((c : Thread nD τ).loc main_arg1)) (m ((c : Thread nD τ).loc main_arg15)) := by
  refine (w5_pdst m ρ c).trans ?_
  rw [take2_eq _ _ (dst_range _ hr), ← ref_v10, ← gather2_eq]
  rfl

/-- At the first edge row. -/
theorem psrc_eq (hr : ∀ i : S2x800000.Idx, 0 ≤ ((m ((c : Thread nD τ).loc main_arg15)) i).toInt ∧ ((m ((c : Thread nD τ).loc main_arg15)) i).toInt < 50000) :
    W5 (F := Ideal) m ρ c (Proc.devRef .tc main_v8) = Cert.ReferenceIdeal.Read.val_main_v18 (F := Ideal) (m ((c : Thread nD τ).loc main_arg1)) (m ((c : Thread nD τ).loc main_arg15)) := by
  refine (w5_psrc m ρ c).trans ?_
  rw [take2_eq _ _ (src_range _ hr), ← ref_v17, ← gather2_eq]
  rfl

/-- The difference of the gathered positions. -/
theorem in_rel (hr : ∀ i : S2x800000.Idx, 0 ≤ ((m ((c : Thread nD τ).loc main_arg15)) i).toInt ∧ ((m ((c : Thread nD τ).loc main_arg15)) i).toInt < 50000) :
    V6 (F := Ideal) m ρ c main_v9 = Cert.ReferenceIdeal.Read.val_main_v19 (F := Ideal) (m ((c : Thread nD τ).loc main_arg1)) (m ((c : Thread nD τ).loc main_arg15)) := by
  refine (st5_rel (W5 m ρ c)).trans ?_
  rw [pdst_eq m ρ c hr, psrc_eq m ρ c hr]
  rfl

/-- Its squared length, as a column. -/
theorem in_d2 (hr : ∀ i : S2x800000.Idx, 0 ≤ ((m ((c : Thread nD τ).loc main_arg15)) i).toInt ∧ ((m ((c : Thread nD τ).loc main_arg15)) i).toInt < 50000) :
    V6 (F := Ideal) m ρ c main_v12 = Cert.ReferenceIdeal.Read.val_main_v22 (F := Ideal) (m ((c : Thread nD τ).loc main_arg1)) (m ((c : Thread nD τ).loc main_arg15)) := by
  refine (st5_d2 (W5 m ρ c)).trans ?_
  rw [pdst_eq m ρ c hr, psrc_eq m ρ c hr, ref_v22]

end Run

end Take

/-! ## The node features at the two edge rows -/

section Arrays

open Take

variable (m : (ℓ : Loc nD τ sig) → Buf (Elt Ideal) ℓ) (ρ : Dev nD → PrngReg) (c : Dev nD)

/-- At the second edge row. -/
theorem in_hdst (hr : ∀ i : S2x800000.Idx, 0 ≤ ((m ((c : Thread nD τ).loc main_arg15)) i).toInt ∧ ((m ((c : Thread nD τ).loc main_arg15)) i).toInt < 50000) :
    V6 (F := Ideal) m ρ c main_v5 = Cert.ReferenceIdeal.Read.val_main_v29 (F := Ideal) (m ((c : Thread nD τ).loc main_arg0)) (m ((c : Thread nD τ).loc main_arg2)) (m ((c : Thread nD τ).loc main_arg15)) := by
  refine (w6_hdst m ρ c).trans ?_
  rw [take64_eq _ _ (dst_range _ hr), ← ref_v28, ← gather64_eq]
  rfl

/-- At the first edge row. -/
theorem in_hsrc (hr : ∀ i : S2x800000.Idx, 0 ≤ ((m ((c : Thread nD τ).loc main_arg15)) i).toInt ∧ ((m ((c : Thread nD τ).loc main_arg15)) i).toInt < 50000) :
    V6 (F := Ideal) m ρ c main_v6 = Cert.ReferenceIdeal.Read.val_main_v36 (F := Ideal) (m ((c : Thread nD τ).loc main_arg0)) (m ((c : Thread nD τ).loc main_arg2)) (m ((c : Thread nD τ).loc main_arg15)) := by
  refine (w6_hsrc m ρ c).trans ?_
  rw [take64_eq _ _ (src_range _ hr), ← ref_v35, ← gather64_eq]
  rfl

end Arrays

end Cert.KHostEdge
-- ==== Proof.EdgeInputsPlain.lean ====
import proofs.«419480_j27238682591241_1_alg».proof.Proof.Gen.KernelIdeal.Frame
import proofs.«419480_j27238682591241_1_alg».proof.Proof.Gen.ReferenceIdeal.Read
import Idealize.ShloMosaic.Lib.StableHlo.Run
import Idealize.ShloMosaic.PureOps.Ideal

/-!
  What the first region finds in its buffers, where no range hypothesis is needed.

  The region is entered after six stretches of host operations. An argument array is written by none of
  them, so at the region's entry it still holds its launch contents. The sum of the two feature arrays and
  the second row of the edge index array (as a vector) are each written once, in the first stretch, by the
  same operations the reference program applies, and by no later stretch.
-/

set_option maxRecDepth 16384

noncomputable section

namespace Cert.KHostEdgePlain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

/-- A stretch of host operations leaves a buffer alone when none of its operations writes it: the list of
    operations is unfolded, each operation's written buffer is read off, and each is a different reference. -/
local macro "unwritten" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The five later stretches leave a buffer alone that none of them writes. -/
local macro "later_unwritten" : tactic =>
  `(tactic| (refine Eq.trans (b := W5 m ρ _ _) (by unwritten hostOps0_5) ?_
             refine Eq.trans (b := W4 m ρ _ _) (by unwritten hostOps0_4) ?_
             refine Eq.trans (b := W3 m ρ _ _) (by unwritten hostOps0_3) ?_
             refine Eq.trans (b := W2 m ρ _ _) (by unwritten hostOps0_2) ?_
             refine Eq.trans (b := W1 m ρ _ _) (by unwritten hostOps0_1) ?_))

/-- Argument 1 is written by no host operation: at the region's entry it holds its launch contents. -/
theorem in_arg1 (c : Dev nD) : V6 (F := Ideal) m ρ c main_arg1 = m ((c.tc : Thread nD τ).loc main_arg1) := by
  show W6 m ρ c (Proc.devRef .tc main_arg1) = _
  later_unwritten
  refine Eq.trans (b := W0 m ρ c (Proc.devRef .tc main_arg1)) (by unwritten hostOps0) ?_
  rfl

/-- Argument 3 is written by no host operation: at the region's entry it holds its launch contents. -/
theorem in_arg3 (c : Dev nD) : V6 (F := Ideal) m ρ c main_arg3 = m ((c.tc : Thread nD τ).loc main_arg3) := by
  show W6 m ρ c (Proc.devRef .tc main_arg3) = _
  later_unwritten
  refine Eq.trans (b := W0 m ρ c (Proc.devRef .tc main_arg3)) (by unwritten hostOps0) ?_
  rfl

/-- Argument 4 is written by no host operation: at the region's entry it holds its launch contents. -/
theorem in_arg4 (c : Dev nD) : V6 (F := Ideal) m ρ c main_arg4 = m ((c.tc : Thread nD τ).loc main_arg4) := by
  show W6 m ρ c (Proc.devRef .tc main_arg4) = _
  later_unwritten
  refine Eq.trans (b := W0 m ρ c (Proc.devRef .tc main_arg4)) (by unwritten hostOps0) ?_
  rfl

/-- Argument 5 is written by no host operation: at the region's entry it holds its launch contents. -/
theorem in_arg5 (c : Dev nD) : V6 (F := Ideal) m ρ c main_arg5 = m ((c.tc : Thread nD τ).loc main_arg5) := by
  show W6 m ρ c (Proc.devRef .tc main_arg5) = _
  later_unwritten
  refine Eq.trans (b := W0 m ρ c (Proc.devRef .tc main_arg5)) (by unwritten hostOps0) ?_
  rfl

/-- Argument 6 is written by no host operation: at the region's entry it holds its launch contents. -/
theorem in_arg6 (c : Dev nD) : V6 (F := Ideal) m ρ c main_arg6 = m ((c.tc : Thread nD τ).loc main_arg6) := by
  show W6 m ρ c (Proc.devRef .tc main_arg6) = _
  later_unwritten
  refine Eq.trans (b := W0 m ρ c (Proc.devRef .tc main_arg6)) (by unwritten hostOps0) ?_
  rfl

/-- Argument 7 is written by no host operation: at the region's entry it holds its launch contents. -/
theorem in_arg7 (c : Dev nD) : V6 (F := Ideal) m ρ c main_arg7 = m ((c.tc : Thread nD τ).loc main_arg7) := by
  show W6 m ρ c (Proc.devRef .tc main_arg7) = _
  later_unwritten
  refine Eq.trans (b := W0 m ρ c (Proc.devRef .tc main_arg7)) (by unwritten hostOps0) ?_
  rfl

/-- Argument 8 is written by no host operation: at the region's entry it holds its launch contents. -/
theorem in_arg8 (c : Dev nD) : V6 (F := Ideal) m ρ c main_arg8 = m ((c.tc : Thread nD τ).loc main_arg8) := by
  show W6 m ρ c (Proc.devRef .tc main_arg8) = _
  later_unwritten
  refine Eq.trans (b := W0 m ρ c (Proc.devRef .tc main_arg8)) (by unwritten hostOps0) ?_
  rfl

/-- Argument 9 is written by no host operation: at the region's entry it holds its launch contents. -/
theorem in_arg9 (c : Dev nD) : V6 (F := Ideal) m ρ c main_arg9 = m ((c.tc : Thread nD τ).loc main_arg9) := by
  show W6 m ρ c (Proc.devRef .tc main_arg9) = _
  later_unwritten
  refine Eq.trans (b := W0 m ρ c (Proc.devRef .tc main_arg9)) (by unwritten hostOps0) ?_
  rfl

/-- Argument 10 is written by no host operation: at the region's entry it holds its launch contents. -/
theorem in_arg10 (c : Dev nD) : V6 (F := Ideal) m ρ c main_arg10 = m ((c.tc : Thread nD τ).loc main_arg10) := by
  show W6 m ρ c (Proc.devRef .tc main_arg10) = _
  later_unwritten
  refine Eq.trans (b := W0 m ρ c (Proc.devRef .tc main_arg10)) (by unwritten hostOps0) ?_
  rfl

/-- Argument 11 is written by no host operation: at the region's entry it holds its launch contents. -/
theorem in_arg11 (c : Dev nD) : V6 (F := Ideal) m ρ c main_arg11 = m ((c.tc : Thread nD τ).loc main_arg11) := by
  show W6 m ρ c (Proc.devRef .tc main_arg11) = _
  later_unwritten
  refine Eq.trans (b := W0 m ρ c (Proc.devRef .tc main_arg11)) (by unwritten hostOps0) ?_
  rfl

/-- Argument 12 is written by no host operation: at the region's entry it holds its launch contents. -/
theorem in_arg12 (c : Dev nD) : V6 (F := Ideal) m ρ c main_arg12 = m ((c.tc : Thread nD τ).loc main_arg12) := by
  show W6 m ρ c (Proc.devRef .tc main_arg12) = _
  later_unwritten
  refine Eq.trans (b := W0 m ρ c (Proc.devRef .tc main_arg12)) (by unwritten hostOps0) ?_
  rfl

/-- Argument 13 is written by no host operation: at the region's entry it holds its launch contents. -/
theorem in_arg13 (c : Dev nD) : V6 (F := Ideal) m ρ c main_arg13 = m ((c.tc : Thread nD τ).loc main_arg13) := by
  show W6 m ρ c (Proc.devRef .tc main_arg13) = _
  later_unwritten
  refine Eq.trans (b := W0 m ρ c (Proc.devRef .tc main_arg13)) (by unwritten hostOps0) ?_
  rfl

/-- Argument 14 is written by no host operation: at the region's entry it holds its launch contents. -/
theorem in_arg14 (c : Dev nD) : V6 (F := Ideal) m ρ c main_arg14 = m ((c.tc : Thread nD τ).loc main_arg14) := by
  show W6 m ρ c (Proc.devRef .tc main_arg14) = _
  later_unwritten
  refine Eq.trans (b := W0 m ρ c (Proc.devRef .tc main_arg14)) (by unwritten hostOps0) ?_
  rfl

/-- The summed node features: written in the first stretch as the sum of arguments 0 and 2, which is the
    reference program's first value, and by no later stretch. -/
theorem in_h (c : Dev nD) : V6 (F := Ideal) m ρ c main_v0 =
    Cert.ReferenceIdeal.Read.val_main_v0 (F := Ideal) (m ((c.tc : Thread nD τ).loc main_arg0)) (m ((c.tc : Thread nD τ).loc main_arg2)) := by
  show W6 m ρ c (Proc.devRef .tc main_v0) = _
  later_unwritten
  show StableHlo.after hostOps0 (W0 m ρ c) (Proc.devRef .tc main_v0) = _
  after_results
  unfold Cert.ReferenceIdeal.Read.val_main_v0
  rfl

/-- The destination row of the edge index array as a vector: written in the first stretch as the reshape of
    the slice `[1:2, 0:800000]` of argument 15, which is the reference program's value of the same name, and
    by no later stretch. -/
theorem in_dst (c : Dev nD) : V6 (F := Ideal) m ρ c main_v4 =
    Cert.ReferenceIdeal.Read.val_main_v4 (F := Ideal) (m ((c.tc : Thread nD τ).loc main_arg15)) := by
  show W6 m ρ c (Proc.devRef .tc main_v4) = _
  later_unwritten
  show StableHlo.after hostOps0 (W0 m ρ c) (Proc.devRef .tc main_v4) = _
  after_results
  unfold Cert.ReferenceIdeal.Read.val_main_v4 Cert.ReferenceIdeal.Read.val_main_v3
  rfl

/-- The source row of the edge index array as a vector: written in the first stretch as the reshape of the
    slice `[0:1, 0:800000]` of argument 15, which is the reference program's value of the same name, and by
    no later stretch. -/
theorem in_src (c : Dev nD) : V6 (F := Ideal) m ρ c main_v2 =
    Cert.ReferenceIdeal.Read.val_main_v2 (F := Ideal) (m ((c.tc : Thread nD τ).loc main_arg15)) := by
  show W6 m ρ c (Proc.devRef .tc main_v2) = _
  later_unwritten
  show StableHlo.after hostOps0 (W0 m ρ c) (Proc.devRef .tc main_v2) = _
  after_results
  unfold Cert.ReferenceIdeal.Read.val_main_v2 Cert.ReferenceIdeal.Read.val_main_v1
  rfl

end Cert.KHostEdgePlain

end
-- ==== Proof.NodeInputs.lean ====
/-
  The host operations between the two kernel regions: three segment sums over the destination index (of the messages,
  of the weighted relative positions, of ones) and the reshape of the degree vector to a column. Each array the second
  region reads is that operation's term over what the first region left and what it found; the arrays no operation in
  between writes are as the first region found them.
-/
import proofs.«419480_j27238682591241_1_alg».proof.Proof.Gen.KernelIdeal.Frame
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KHostNode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option maxHeartbeats 3200000 in
/-- The summed messages: the scatter-add, over the destination indices, of the first region's first result into zeros. -/
theorem in_agg (c : Dev nD) :
    V8 (F := Ideal) m ρ c main_v16
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (V6 (F := Ideal) m ρ c main_v4))
          ((dat0 (F := Ideal) (V6 m ρ) c).arrAt 12 cfg0.N) := by
  show StableHlo.after hostOps1 (W7 m ρ c) (Proc.devRef .tc main_v16) = _
  after_results
  have h4 : W7 m ρ c (Proc.devRef .tc main_v4) = V6 m ρ c main_v4 := W7_of_ne m ρ c main_v4 (by decide)
  have h13 : W7 m ρ c (Proc.devRef .tc main_v13_0) = (dat0 (V6 m ρ) c).arrAt 12 cfg0.N := W7_arr m ρ c 12
  rw [h4, h13]

set_option maxHeartbeats 3200000 in
/-- The summed weighted relative positions: the same scatter-add of the first region's second result. -/
theorem in_posu (c : Dev nD) :
    V8 (F := Ideal) m ρ c main_v19
      = Host.scatterAdd scatter_S50000x2_S800000x1_S800000x2_1_0_0_1
          (broadcastInDim S50000x2 ![] bcast_S_S50000x2 (constant (F := Ideal) S_ .f32 0x00000000#32))
          (broadcastInDim S800000x1 ![0] bcast_S800000_S800000x1_0 (V6 (F := Ideal) m ρ c main_v4))
          ((dat0 (F := Ideal) (V6 m ρ) c).arrAt 13 cfg0.N) := by
  show StableHlo.after hostOps1 (W7 m ρ c) (Proc.devRef .tc main_v19) = _
  after_results
  have h4 : W7 m ρ c (Proc.devRef .tc main_v4) = V6 m ρ c main_v4 := W7_of_ne m ρ c main_v4 (by decide)
  have h13 : W7 m ρ c (Proc.devRef .tc main_v13_1) = (dat0 (V6 m ρ) c).arrAt 13 cfg0.N := W7_arr m ρ c 13
  rw [h4, h13]

/-- The degree column: the scatter-add of ones over the destination indices into zeros, its entry i read at row i. -/
theorem in_deg (c : Dev nD) :
    V8 (F := Ideal) m ρ c main_v24
      = fun i : S50000x1.Idx => Host.scatterAdd scatter_S50000_S800000x1_S800000_n_0_0_1
          (broadcastInDim S50000 ![] bcast_S_S50000 (constant (F := Ideal) S_ .f32 0x00000000#32))
          (broadcastInDim S800000x1 ![0] bcast_S800000_S800000x1_0 (V6 (F := Ideal) m ρ c main_v4))
          (broadcastInDim S800000 ![] bcast_S_S800000 (constant (F := Ideal) S_ .f32 0x3F800000#32))
          (ValueIdx.ix1 ⟨(i 0).val, ValueIdx.idx2_lt0 i⟩) := by
  show StableHlo.after hostOps1 (W7 m ρ c) (Proc.devRef .tc main_v24) = _
  after_results
  have h4 : W7 m ρ c (Proc.devRef .tc main_v4) = V6 m ρ c main_v4 := W7_of_ne m ρ c main_v4 (by decide)
  rw [h4]
  funext i
  refine (shapeCast_apply _ shapeCasts_S50000_S50000x1 i (ValueIdx.ix1 ⟨(i 0).val, ValueIdx.idx2_lt0 i⟩) ?_).trans rfl
  rw [Shape.rowMajor_val_one, Shape.rowMajor_val_two]
  have h1 : (i 1).val = 0 := by have := ValueIdx.idx2_lt1 i; omega
  show (i 0).val = (i 0).val * 1 + (i 1).val
  omega

/-- The summed node features h + h_init are not written between the regions. -/
theorem keep_h (c : Dev nD) : V8 (F := Ideal) m ρ c main_v0 = V6 (F := Ideal) m ρ c main_v0 := by
  show StableHlo.after hostOps1 (W7 m ρ c) (Proc.devRef .tc main_v0) = _
  rw [StableHlo.after_of_forall_not_mem (b := Proc.devRef .tc main_v0) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))]
  exact W7_of_ne m ρ c main_v0 (by decide)

/-- The positions are not written between the regions. -/
theorem keep_pos (c : Dev nD) : V8 (F := Ideal) m ρ c main_arg1 = V6 (F := Ideal) m ρ c main_arg1 := by
  show StableHlo.after hostOps1 (W7 m ρ c) (Proc.devRef .tc main_arg1) = _
  rw [StableHlo.after_of_forall_not_mem (b := Proc.devRef .tc main_arg1) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))]
  exact W7_of_ne m ρ c main_arg1 (by decide)

/-- The node perceptron's first weights are not written between the regions. -/
theorem keep_Wh1 (c : Dev nD) : V8 (F := Ideal) m ρ c main_arg11 = V6 (F := Ideal) m ρ c main_arg11 := by
  show StableHlo.after hostOps1 (W7 m ρ c) (Proc.devRef .tc main_arg11) = _
  rw [StableHlo.after_of_forall_not_mem (b := Proc.devRef .tc main_arg11) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))]
  exact W7_of_ne m ρ c main_arg11 (by decide)

/-- The node perceptron's first bias is not written between the regions. -/
theorem keep_bh1 (c : Dev nD) : V8 (F := Ideal) m ρ c main_arg12 = V6 (F := Ideal) m ρ c main_arg12 := by
  show StableHlo.after hostOps1 (W7 m ρ c) (Proc.devRef .tc main_arg12) = _
  rw [StableHlo.after_of_forall_not_mem (b := Proc.devRef .tc main_arg12) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))]
  exact W7_of_ne m ρ c main_arg12 (by decide)

/-- The node perceptron's second weights are not written between the regions. -/
theorem keep_Wh2 (c : Dev nD) : V8 (F := Ideal) m ρ c main_arg13 = V6 (F := Ideal) m ρ c main_arg13 := by
  show StableHlo.after hostOps1 (W7 m ρ c) (Proc.devRef .tc main_arg13) = _
  rw [StableHlo.after_of_forall_not_mem (b := Proc.devRef .tc main_arg13) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))]
  exact W7_of_ne m ρ c main_arg13 (by decide)

/-- The node perceptron's second bias is not written between the regions. -/
theorem keep_bh2 (c : Dev nD) : V8 (F := Ideal) m ρ c main_arg14 = V6 (F := Ideal) m ρ c main_arg14 := by
  show StableHlo.after hostOps1 (W7 m ρ c) (Proc.devRef .tc main_arg14) = _
  rw [StableHlo.after_of_forall_not_mem (b := Proc.devRef .tc main_arg14) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))]
  exact W7_of_ne m ρ c main_arg14 (by decide)

end Cert.KHostNode

end
-- ==== Proof.Bridge.lean ====
/-
  The kernel program's two results are the reference's two results, as functions of the argument arrays.

  The host operations before the first kernel region give it the gathered rows h[dst], h[src], the relative positions and
  their squared lengths, the same arrays the reference's first stages compute once every index is in range. The first
  region's results are then the reference's messages and weighted relative positions (both are the row-wise perceptrons of
  the specification); the segment sums over dst of equal arrays are equal; and the second region's results are the
  reference's new features and new positions.
-/
import proofs.«419480_j27238682591241_1_alg».proof.Defs
import proofs.«419480_j27238682591241_1_alg».proof.Proof.Spec
import proofs.«419480_j27238682591241_1_alg».proof.Proof.EdgePay
import proofs.«419480_j27238682591241_1_alg».proof.Proof.NodePay
import proofs.«419480_j27238682591241_1_alg».proof.Proof.RefSpec
import proofs.«419480_j27238682591241_1_alg».proof.Proof.EdgeArr
import proofs.«419480_j27238682591241_1_alg».proof.Proof.NodeArr
import proofs.«419480_j27238682591241_1_alg».proof.Proof.EdgeInputs
import proofs.«419480_j27238682591241_1_alg».proof.Proof.EdgeInputsPlain
import proofs.«419480_j27238682591241_1_alg».proof.Proof.NodeInputs

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

/-- Argument 0 of @main as launched on core c. -/
abbrev A0 := m ((c.tc : Thread nD τ).loc main_arg0)
/-- Argument 1 of @main as launched on core c. -/
abbrev A1 := m ((c.tc : Thread nD τ).loc main_arg1)
/-- Argument 2 of @main as launched on core c. -/
abbrev A2 := m ((c.tc : Thread nD τ).loc main_arg2)
/-- Argument 3 of @main as launched on core c. -/
abbrev A3 := m ((c.tc : Thread nD τ).loc main_arg3)
/-- Argument 4 of @main as launched on core c. -/
abbrev A4 := m ((c.tc : Thread nD τ).loc main_arg4)
/-- Argument 5 of @main as launched on core c. -/
abbrev A5 := m ((c.tc : Thread nD τ).loc main_arg5)
/-- Argument 6 of @main as launched on core c. -/
abbrev A6 := m ((c.tc : Thread nD τ).loc main_arg6)
/-- Argument 7 of @main as launched on core c. -/
abbrev A7 := m ((c.tc : Thread nD τ).loc main_arg7)
/-- Argument 8 of @main as launched on core c. -/
abbrev A8 := m ((c.tc : Thread nD τ).loc main_arg8)
/-- Argument 9 of @main as launched on core c. -/
abbrev A9 := m ((c.tc : Thread nD τ).loc main_arg9)
/-- Argument 10 of @main as launched on core c. -/
abbrev A10 := m ((c.tc : Thread nD τ).loc main_arg10)
/-- Argument 11 of @main as launched on core c. -/
abbrev A11 := m ((c.tc : Thread nD τ).loc main_arg11)
/-- Argument 12 of @main as launched on core c. -/
abbrev A12 := m ((c.tc : Thread nD τ).loc main_arg12)
/-- Argument 13 of @main as launched on core c. -/
abbrev A13 := m ((c.tc : Thread nD τ).loc main_arg13)
/-- Argument 14 of @main as launched on core c. -/
abbrev A14 := m ((c.tc : Thread nD τ).loc main_arg14)
/-- Argument 15 of @main as launched on core c. -/
abbrev A15 := m ((c.tc : Thread nD τ).loc main_arg15)

variable (hr : ∀ i : S2x800000.Idx, 0 ≤ (A15 m c i).toInt ∧ (A15 m c i).toInt < 50000)
include hr

/-- The first region's first result is the reference's message array. -/
theorem edge_msg_val :
    (dat0 (F := Ideal) (V6 m ρ) c).arrAt 12 cfg0.N = Cert.ReferenceIdeal.Read.val_main_v47 (F := Ideal) (A0 m c) (A1 m c) (A2 m c) (A3 m c) (A4 m c) (A5 m c) (A6 m c) (A15 m c) := by
  rw [Cert.KArrEdge.edge_msg_arr (V6 m ρ) Cert.KPay.pay3_eq c,
    Cert.KHostEdge.in_hdst m ρ c hr, Cert.KHostEdge.in_hsrc m ρ c hr, Cert.KHostEdge.Take.in_d2 m ρ c hr,
    Cert.KHostEdgePlain.in_arg3 m ρ c, Cert.KHostEdgePlain.in_arg4 m ρ c, Cert.KHostEdgePlain.in_arg5 m ρ c,
    Cert.KHostEdgePlain.in_arg6 m ρ c]
  exact (Cert.RefSpec.msg_eq _ _ _ _ _ _ _ _).symm

/-- The first region's second result is the reference's weighted relative positions. -/
theorem edge_relw_val :
    (dat0 (F := Ideal) (V6 m ρ) c).arrAt 13 cfg0.N = Cert.ReferenceIdeal.Read.val_main_v62 (F := Ideal) (A0 m c) (A1 m c) (A2 m c) (A3 m c) (A4 m c) (A5 m c) (A6 m c) (A7 m c) (A8 m c) (A9 m c) (A10 m c) (A15 m c) := by
  rw [Cert.KArrEdge.edge_relw_arr (V6 m ρ) Cert.KPay.pay1_eq Cert.KPay.pay2_eq Cert.KPay.pay4_eq c,
    Cert.KHostEdge.Take.in_rel m ρ c hr, Cert.KHostEdge.in_hdst m ρ c hr, Cert.KHostEdge.in_hsrc m ρ c hr, Cert.KHostEdge.Take.in_d2 m ρ c hr,
    Cert.KHostEdgePlain.in_arg3 m ρ c, Cert.KHostEdgePlain.in_arg4 m ρ c, Cert.KHostEdgePlain.in_arg5 m ρ c,
    Cert.KHostEdgePlain.in_arg6 m ρ c, Cert.KHostEdgePlain.in_arg7 m ρ c, Cert.KHostEdgePlain.in_arg8 m ρ c,
    Cert.KHostEdgePlain.in_arg9 m ρ c, Cert.KHostEdgePlain.in_arg10 m ρ c,
    ← Cert.RefSpec.msg_eq (A0 m c) (A1 m c) (A2 m c) (A3 m c) (A4 m c) (A5 m c) (A6 m c) (A15 m c), ← Cert.RefSpec.gate_eq (A0 m c) (A1 m c) (A2 m c) (A3 m c) (A4 m c) (A5 m c) (A6 m c) (A7 m c) (A8 m c) (A15 m c)]
  exact (Cert.RefSpec.relw_eq _ _ _ _ _ _ _ _ _ _ _ _).symm

/-- The summed messages the second region reads are the reference's. -/
theorem agg_val : V8 (F := Ideal) m ρ c main_v16 = Cert.ReferenceIdeal.Read.val_main_v73 (F := Ideal) (A0 m c) (A1 m c) (A2 m c) (A3 m c) (A4 m c) (A5 m c) (A6 m c) (A15 m c) := by
  rw [Cert.KHostNode.in_agg m ρ c, edge_msg_val m ρ c hr, Cert.KHostEdgePlain.in_dst m ρ c]
  rfl

/-- The summed weighted relative positions the second region reads are the reference's. -/
theorem posu_val : V8 (F := Ideal) m ρ c main_v19 = Cert.ReferenceIdeal.Read.val_main_v65 (F := Ideal) (A0 m c) (A1 m c) (A2 m c) (A3 m c) (A4 m c) (A5 m c) (A6 m c) (A7 m c) (A8 m c) (A9 m c) (A10 m c) (A15 m c) := by
  rw [Cert.KHostNode.in_posu m ρ c, edge_relw_val m ρ c hr, Cert.KHostEdgePlain.in_dst m ρ c]
  rfl

omit hr in
/-- The degree column the second region reads is the reference's degree vector, entry i at row i. -/
theorem deg_val : V8 (F := Ideal) m ρ c main_v24
    = fun i : S50000x1.Idx => Cert.ReferenceIdeal.Read.val_main_v60 (F := Ideal) (A15 m c) (ix1 ⟨(i 0).val, idx2_lt0 i⟩) := by
  rw [Cert.KHostNode.in_deg m ρ c, Cert.KHostEdgePlain.in_dst m ρ c]
  rfl

set_option maxHeartbeats 3200000 in
/-- The kernel program's first result is the reference's new features. -/
theorem out_h : W9 (F := Ideal) m ρ c (Proc.devRef .tc main_v25_0)
    = Cert.ReferenceIdeal.Read.val_main_v84 (F := Ideal) (A0 m c) (A1 m c) (A2 m c) (A3 m c) (A4 m c) (A5 m c) (A6 m c) (A11 m c) (A12 m c) (A13 m c) (A14 m c) (A15 m c) := by
  have e : W9 (F := Ideal) m ρ c (Proc.devRef .tc main_v25_0) = (dat1 (F := Ideal) (V8 m ρ) c).arrAt 9 cfg1.N := W9_arr m ρ c 9
  rw [e, Cert.KArrNode.node_h_arr (V8 m ρ) Cert.KPayNode.node_pay1_eq c,
    Cert.KHostNode.keep_h m ρ c, Cert.KHostEdgePlain.in_h m ρ c, agg_val m ρ c hr,
    Cert.KHostNode.keep_Wh1 m ρ c, Cert.KHostEdgePlain.in_arg11 m ρ c, Cert.KHostNode.keep_bh1 m ρ c, Cert.KHostEdgePlain.in_arg12 m ρ c,
    Cert.KHostNode.keep_Wh2 m ρ c, Cert.KHostEdgePlain.in_arg13 m ρ c, Cert.KHostNode.keep_bh2 m ρ c, Cert.KHostEdgePlain.in_arg14 m ρ c]
  exact (Cert.RefSpec.nodeH_eq _ _ _ _ _ _ _ _ _ _ _ _).symm

set_option maxHeartbeats 3200000 in
/-- The kernel program's second result is the reference's new positions. -/
theorem out_p : W9 (F := Ideal) m ρ c (Proc.devRef .tc main_v25_1)
    = Cert.ReferenceIdeal.Read.val_main_v85 (F := Ideal) (A0 m c) (A1 m c) (A2 m c) (A3 m c) (A4 m c) (A5 m c) (A6 m c) (A7 m c) (A8 m c) (A9 m c) (A10 m c) (A15 m c) := by
  have e : W9 (F := Ideal) m ρ c (Proc.devRef .tc main_v25_1) = (dat1 (F := Ideal) (V8 m ρ) c).arrAt 10 cfg1.N := W9_arr m ρ c 10
  rw [e, Cert.KArrNode.node_p_arr (V8 m ρ) Cert.KPayNode.node_pay2_eq c,
    Cert.KHostNode.keep_pos m ρ c, Cert.KHostEdgePlain.in_arg1 m ρ c, posu_val m ρ c hr, deg_val m ρ c]
  exact (Cert.RefSpec.nodeP_eq _ _ _ _ _ _ _ _ _ _ _ _).symm

end Cert.Bridge

end
-- ==== Proof.lean ====
/-
  The kernel program — gathers by the two rows of edge_index, a blocked edge perceptron, three segment sums over the
  destination row, a blocked node update — and the reference compute the same two arrays over the extended reals,
  for finite float inputs and every edge index in [0, 50000).

  Both are, row by row: the message m(e) = φ(φ([h(dst e), h(src e), |pos(dst e) − pos(src e)|²] W₁ + b₁) W₂ + b₂) with
  φ(x) = x · σ(x); the coordinate weight w(e) = φ(m(e) W₃ + b₃) W₄ + b₄; the sums over the edges with destination i of
  m(e), of (pos(dst e) − pos(src e)) · w(e) and of 1; and the results h(i) + φ([h(i), Σ m] W₅ + b₅) W₆ + b₆ and
  pos(i) + Σ (…) / max(deg i, 1), where h = h + h_init. The kernel's matrix products over bf16 casts are the plain
  sums (a cast is the identity on extended reals), and its blocks of 3200 edges and 2000 nodes are restrictions of
  row-local functions. The index range is what makes the kernel's masked gathers the reference's plain ones.
  The three frames are the generated ones (the reference's is its generated run with the results dropped), and the
  idealization rewrote nothing.
-/
import proofs.«419480_j27238682591241_1_alg».proof.Defs
import proofs.«419480_j27238682591241_1_alg».proof.Proof.Gen.Kernel
import proofs.«419480_j27238682591241_1_alg».proof.Proof.Gen.Kernel.Frame
import proofs.«419480_j27238682591241_1_alg».proof.Proof.Gen.KernelIdeal
import proofs.«419480_j27238682591241_1_alg».proof.Proof.Gen.KernelIdeal.Frame
import proofs.«419480_j27238682591241_1_alg».proof.Proof.Gen.ReferenceIdeal
import proofs.«419480_j27238682591241_1_alg».proof.Proof.Gen.Pre_finite_inputs
import proofs.«419480_j27238682591241_1_alg».proof.Proof.Gen.ReferenceIdeal.Run
import proofs.«419480_j27238682591241_1_alg».proof.Proof.Gen.ReferenceIdeal.Read
import proofs.«419480_j27238682591241_1_alg».proof.Proof.PreRange
import proofs.«419480_j27238682591241_1_alg».proof.Proof.RunNamed
import proofs.«419480_j27238682591241_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the reference's two stage values of those arguments:
    the new features and the new positions. -/
theorem algebraic : Cert.algebraic_KernelIdeal_ReferenceIdeal := by
  intro m ρ m' ρ' hpre hagree
  refine ⟨fun c => Cert.ReferenceIdeal.Read.val_main_v84 (F := Ideal) (Cert.Bridge.A0 m c) (Cert.Bridge.A1 m c) (Cert.Bridge.A2 m c) (Cert.Bridge.A3 m c) (Cert.Bridge.A4 m c) (Cert.Bridge.A5 m c) (Cert.Bridge.A6 m c) (Cert.Bridge.A11 m c) (Cert.Bridge.A12 m c) (Cert.Bridge.A13 m c) (Cert.Bridge.A14 m c) (Cert.Bridge.A15 m c),
    fun c => Cert.ReferenceIdeal.Read.val_main_v85 (F := Ideal) (Cert.Bridge.A0 m c) (Cert.Bridge.A1 m c) (Cert.Bridge.A2 m c) (Cert.Bridge.A3 m c) (Cert.Bridge.A4 m c) (Cert.Bridge.A5 m c) (Cert.Bridge.A6 m c) (Cert.Bridge.A7 m c) (Cert.Bridge.A8 m c) (Cert.Bridge.A9 m c) (Cert.Bridge.A10 m c) (Cert.Bridge.A15 m c), ?_, ?_⟩
  · exact (θ_run Cert.KernelIdeal.defs _ _).mono
      (fun r h c => ⟨(h c).1.trans (Cert.Bridge.out_h m ρ c (Cert.PreRange.range_of_pre m hpre c)),
        (h c).2.1.trans (Cert.Bridge.out_p m ρ c (Cert.PreRange.range_of_pre m hpre c)), (h c).2.2⟩)
      (Cert.KernelIdeal.Named.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15⟩ := hagree c
      rw [Cert.ReferenceIdeal.Read.val_main_v84_eq, h0, h1, h2, h3, h4, h5, h6, h11, h12, h13, h14, h15]
    · obtain ⟨h0, h1, h2, h3, h4, h5, h6, h7, h8, h9, h10, h11, h12, h13, h14, h15⟩ := hagree c
      rw [Cert.ReferenceIdeal.Read.val_main_v85_eq, h0, h1, h2, h3, h4, h5, h6, h7, h8, h9, h10, h15]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
